-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S256 .f32) (main_arg8 : FVec F S256x512 .f32) (main_arg9 : FVec F S512 .f32) (main_arg10 : FVec F S512 .f32) (main_arg11 : FVec F S512 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_v48 main_v49 main_v50

def fn_part1 {F : FTy → Type} [FloatOps F] (main_arg4 : FVec F S512x256 .f32) (main_arg5 : FVec F S256 .f32) (main_arg6 : FVec F S256x256 .f32) (main_arg7 : FVec F S256 .f32) (main_arg8 : FVec F S256x512 .f32) (main_arg9 : FVec F S512 .f32) (main_arg10 : FVec F S512 .f32) (main_arg11 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x1024x512 .f32) (main_arg1 : FVec F S8x1024x256 .f32) (main_arg2 : FVec F S256x256 .f32) (main_arg3 : FVec F S256 .f32) (main_arg4 : FVec F S512x256 .f32) (main_arg5 : FVec F S256 .f32) (main_arg6 : FVec F S256x256 .f32) (main_arg7 : FVec F S256 .f32) (main_arg8 : FVec F S256x512 .f32) (main_arg9 : FVec F S512 .f32) (main_arg10 : FVec F S512 .f32) (main_arg11 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S8192x512 : Shape := ⟨2, ![8192, 512]⟩
abbrev S8192x256 : Shape := ⟨2, ![8192, 256]⟩
abbrev S1x256 : Shape := ⟨2, ![1, 256]⟩
abbrev S1x512 : Shape := ⟨2, ![1, 512]⟩
abbrev S1024x512 : Shape := ⟨2, ![1024, 512]⟩
abbrev S1024x256 : Shape := ⟨2, ![1024, 256]⟩

abbrev nBuf : Space → Nat
  | .hbm => 27
  | .vmem => 35
  | .smem => 0
  | _ => 0

abbrev bufTy : (tb : Table) → Fin (tcTables nBuf tb) → BufTy
  | .hbm, ⟨0, _⟩ => ⟨S8x1024x512, .f32⟩
  | .hbm, ⟨1, _⟩ => ⟨S8x1024x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8192x512, .f32⟩
  | .hbm, ⟨13, _⟩ => ⟨S8192x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S8192x256, .f32⟩
  | .hbm, ⟨21, _⟩ => ⟨S256x256, .f32⟩
  | .hbm, ⟨22, _⟩ => ⟨S8192x512, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S8x1024x512, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S256x256, .f32⟩
  | .local _ .vmem, ⟨13, _⟩ => ⟨S256x256, .f32⟩
  | .local _ .vmem, ⟨14, _⟩ => ⟨S1024x256, .f32⟩
  | .local _ .vmem, ⟨15, _⟩ => ⟨S1024x256, .f32⟩
  | .local _ .vmem, ⟨16, _⟩ => ⟨S256x256, .f32⟩
  | .local _ .vmem, ⟨17, _⟩ => ⟨S256x512, .f32⟩
  | .local _ .vmem, ⟨18, _⟩ => ⟨S1x512, .f32⟩
  | .local _ .vmem, ⟨19, _⟩ => ⟨S1024x512, .f32⟩
  | .local _ .vmem, ⟨20, _⟩ => ⟨S1024x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1024x512, .f32⟩
  | .local _ .vmem, ⟨34, _⟩ => ⟨S1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_25 : BitVec 32 := 0#32
  let v41 : BitVec 1 := Scalar.cmpi .ne v40 c0_i32_25
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_22 : BitVec 32 := 0#32
  let v38 : BitVec 1 := Scalar.cmpi .ne v37 c0_i32_22
  v38

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S8x1024x512_S8192x512 : S8x1024x512.ShapeCasts S8192x512
  shapeCasts_S8x1024x256_S8192x256 : S8x1024x256.ShapeCasts S8192x256
  shapeCasts_S256_S1x256 : S256.ShapeCasts S1x256
  shapeCasts_S512_S1x512 : S512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S256x512_0_0 : ∀ a, (![0, 0] : Fin 2 → Nat) a + S256x512.size a ≤ S256x512.size a
  h_S256x512 : 0 < S256x512.numel
  broadcasts_S1x512_S1024x512 : S1x512.Broadcasts S1024x512
  reduces_S1024x512_S512 : S1024x512.Reduces [0] S512
  shapeCasts_S8192x512_S8x1024x512 : S8192x512.ShapeCasts S8x1024x512
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S1024x256_S256x256_0_0_1_1_n_n_wf : DotDims.WF S1024x256 S1024x256 S256x256 [0] [0] [1] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x256.size a
  hwx0_8 : ∀ i : grid0.Coords, EltTy.bits .f32 = 32 ∨ (Rect.block (s := S8192x256) S1024x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .f32 = 32 ∨ (Rect.block (s := S8192x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x512.size a
  hwx2_6 : ∀ i : grid2.Coords, EltTy.bits .f32 = 32 ∨ (Rect.block (s := S8192x512) S1024x512.size (cc2_transform_6 i) (hinb2_6 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S256x256.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v8_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S1024x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S1x512.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9_2) S1x512.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v9_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_1) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9_2) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x1024x512 : Shape := ⟨3, ![8, 1024, 512]⟩
abbrev S8x1024x256 : Shape := ⟨3, ![8, 1024, 256]⟩
abbrev S256x256 : Shape := ⟨2, ![256, 256]⟩
abbrev S256 : Shape := ⟨1, ![256]⟩
abbrev S512x256 : Shape := ⟨2, ![512, 256]⟩
abbrev S256x512 : Shape := ⟨2, ![256, 512]⟩
abbrev S512 : Shape := ⟨1, ![512]⟩
abbrev S8192x512 : Shape := ⟨2, ![8192, 512]⟩
abbrev S8192x256 : Shape := ⟨2, ![8192, 256]⟩
abbrev S1x256 : Shape := ⟨2, ![1, 256]⟩
abbrev S256x8192 : Shape := ⟨2, ![256, 8192]⟩
abbrev S8192x8192 : Shape := ⟨2, ![8192, 8192]⟩
abbrev S_ : Shape := ⟨0, ![]⟩
abbrev S1x512 : Shape := ⟨2, ![1, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8192x512, .f32⟩
  | .hbm, ⟨13, _⟩ => ⟨S8192x256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S1x256, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x256, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .i32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S1x512, .f32⟩
  | .hbm, ⟨75, _⟩ => ⟨S8192x512, .f32⟩
  | .hbm, ⟨76, _⟩ => ⟨S8192x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]

class Facts₀ : Prop where
  shapeCasts_S8x1024x512_S8192x512 : S8x1024x512.ShapeCasts S8192x512
  shapeCasts_S8x1024x256_S8192x256 : S8x1024x256.ShapeCasts S8192x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S512_d0 : S8192x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  shapeCasts_S8192x512_S8x1024x512 : S8192x512.ShapeCasts S8x1024x512
  dot_S8192x256_S256x256_S8192x256_1_0_0_1_n_n_wf : DotDims.WF S8192x256 S256x256 S8192x256 [1] [0] [0] [1] [] []
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x512_S8192x512_1_0_0_1_n_n_wf : DotDims.WF S8192x256 S256x512 S8192x512 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

class Facts : Prop extends Facts₀ where

variable [Facts]
-- ==== Proof.K.Region0.lean ====
/-
  Region 0 of the kernel program (the projections and the 256 × 256 accumulator), at the buffer contents `V`
  the region is entered from.
-/
import proofs.«131456_j40999757807684_1_alg».proof.Proof.Gen.Kernel.Launch
import proofs.«131456_j40999757807684_1_alg».proof.Proof.Gen.Kernel.Skeleton
import proofs.«131456_j40999757807684_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the θ output block holds after point `t`: the first projection of the point's `xh` block. -/
def thetaBlk (c : Dev nD) (t : Fin cfg0.N) : Vec F S1024x256 .f32 :=
  k0_pay4 (iblk V c 0 t) (iblk V c 4 t) (iblk V c 5 t)

/-- One point's contribution added to what the accumulator held: `acc + φ_tᵀ g_t`. -/
def accStep (c : Dev nD) (t : Fin cfg0.N) (acc : Vec F S256x256 .f32) : Vec F S256x256 .f32 :=
  k0_pay1 (k0_pay5 (iblk V c 1 t) (iblk V c 6 t) (iblk V c 7 t)) (k0_pay6 (iblk V c 1 t) (iblk V c 2 t) (iblk V c 3 t))
    (constant S256x256 .f32 0x00000000#32) acc

/-- The accumulator after point `n`: zeroed at the first point, then one contribution per point. -/
def accAt (c : Dev nD) : (n : ℕ) → n < cfg0.N → Vec F S256x256 .f32
  | 0, hn => accStep V c ⟨0, hn⟩ (k0_pay2 (F := F))
  | n + 1, hn => accStep V c ⟨n + 1, hn⟩ (accAt c n (Nat.lt_of_succ_lt hn))

/-! ## The body's two conditionals, in closed form over the grid -/

/-- The first conditional (the accumulator is zeroed): the grid coordinate is 0. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The second conditional (the accumulator is copied to its output window): the grid coordinate is 7. -/
abbrev cond1 (i : grid0.Coords) : Prop := k0_cond2 i = 1#1
/-- It holds at the last point only. -/
theorem hcond1 : ∀ t : Fin cfg0.N, cond1 (grid0.coords t) ↔ t.val = 7 :=
  (by decide +kernel : ∀ t : Fin grid0.N, cond1 (grid0.coords t) ↔ t.val = 7)

/-- The offsets of a whole block's rectangle are zero. -/
theorem hz2 : (![0, 0] : Fin 2 → Nat) = fun _ => 0 := funext fun a => by fin_cases a <;> rfl

/-! ## The body's run, case by case

Three cases of the two conditionals: A, the first point (the accumulator is zeroed, then updated); B, a point strictly
between (updated only); C, the last point (updated, then copied to its output window). -/
set_option maxHeartbeats 4000000 in
/-- The body in case A: on whole staging memrefs, the inputs' at their blocks, it runs to the continuation with the inputs' as they were
    and each buffer it stored into at its pieces written (last first); the pieces are the witness. -/
noncomputable def kernelRun_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    Σ' (L8 : List (View.Piece (Elt F) S1024x256 .f32)), { LS : List (View.Piece (Elt F) S256x256 .f32) //
      ∀ (xi9 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, fun xi9 E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS

/-- In case A the stores into the θ window's buffer cover it. -/
theorem cover8_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S1024x256.Idx) :
    ∃ pc ∈ (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1024x256.size (by sl_kernel_rfl) y

/-- In case A the stores into the accumulator cover it. -/
theorem coverS_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S256x256.Idx) :
    ∃ pc ∈ (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S256x256.size (by sl_kernel_rfl) y

/-- What case A leaves in the θ window's buffer: the first projection of the `xh` block. -/
theorem canon8_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    View.canon (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 = k0_pay4 x0 x4 x5 := by
  unfold kernelRun_A; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case A leaves in the accumulator: the point's contribution added to the zeros it was reset to. -/
theorem canonS_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    View.canon (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 = k0_pay1 (k0_pay5 x1 x6 x7) (k0_pay6 x1 x2 x3) (constant S256x256 .f32 0x00000000#32) (k0_pay2 (F := F)) := by
  unfold kernelRun_A; dsimp only; sl_unfold_words
  rw [View.canon_cons_unit_zero (S := S256x256) hz2, View.readCov_unit_zero (S := S256x256) _ hz2]
  simp only [View.readAt_eq_ld, harg2.read_unread, harg3.read_unread, harg4.read_unread, harg7.read_unread, harg8.read_unread, View.ld_unit_zero (S := S1024x512) hz2, View.ld_unit_zero (S := S1024x256) hz2, View.ld_unit_zero (S := S512x256) hz2, View.ld_unit_zero (S := S256x256) hz2, View.ld_unit_zero (S := S1x256) hz2]

set_option maxHeartbeats 4000000 in
/-- The body in case B: on whole staging memrefs, the inputs' at their blocks, it runs to the continuation with the inputs' as they were
    and each buffer it stored into at its pieces written (last first); the pieces are the witness. -/
noncomputable def kernelRun_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    Σ' (L8 : List (View.Piece (Elt F) S1024x256 .f32)), { LS : List (View.Piece (Elt F) S256x256 .f32) //
      ∀ (xi9 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, fun xi9 E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS

/-- In case B the stores into the θ window's buffer cover it. -/
theorem cover8_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S1024x256.Idx) :
    ∃ pc ∈ (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 S1024x256.size (by sl_kernel_rfl) y

/-- In case B the stores into the accumulator cover it. -/
theorem coverS_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 S256x256.size (by sl_kernel_rfl) y

/-- What case B leaves in the θ window's buffer: the first projection of the `xh` block. -/
theorem canon8_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 = k0_pay4 x0 x4 x5 := by
  unfold kernelRun_B; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case B leaves in the accumulator: the point's contribution added to what it held. -/
theorem canonS_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 = k0_pay1 (k0_pay5 x1 x6 x7) (k0_pay6 x1 x2 x3) (constant S256x256 .f32 0x00000000#32) xs := by
  unfold kernelRun_B; dsimp only; sl_unfold_words
  rw [View.canon_unit_zero hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

set_option maxHeartbeats 4000000 in
/-- The body in case C: on whole staging memrefs, the inputs' at their blocks, it runs to the continuation with the inputs' as they were
    and each buffer it stored into at its pieces written (last first); the pieces are the witness. -/
noncomputable def kernelRun_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    Σ' (L8 : List (View.Piece (Elt F) S1024x256 .f32)) (L9 : List (View.Piece (Elt F) S256x256 .f32)), { LS : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS

/-- In case C the stores into the θ window's buffer cover it. -/
theorem cover8_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S1024x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 S1024x256.size (by sl_kernel_rfl) y

/-- In case C the stores into the accumulator cover it. -/
theorem coverS_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1 S256x256.size (by sl_kernel_rfl) y

/-- What case C leaves in the θ window's buffer: the first projection of the `xh` block. -/
theorem canon8_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 = k0_pay4 x0 x4 x5 := by
  unfold kernelRun_C; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case C leaves in the accumulator: the point's contribution added to what it held. -/
theorem canonS_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1 = k0_pay1 (k0_pay5 x1 x6 x7) (k0_pay6 x1 x2 x3) (constant S256x256 .f32 0x00000000#32) xs := by
  unfold kernelRun_C; dsimp only; sl_unfold_words
  rw [View.canon_unit_zero hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

/-- In case C the store into the accumulator's output window covers it. -/
theorem cover9_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 S256x256.size (by sl_kernel_rfl) y

/-- What case C leaves in the accumulator's output window: the accumulator as the point has just updated it. -/
theorem canon9_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 = k0_pay1 (k0_pay5 x1 x6 x7) (k0_pay6 x1 x2 x3) (constant S256x256 .f32 0x00000000#32) xs := by
  unfold kernelRun_C; dsimp only; sl_unfold_words
  rw [View.canon_unit_zero hz2, View.readCov_unit_zero (S := S256x256) _ hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

/-- The accumulator after the first point. -/
theorem accAt_first (c : Dev nD) (t : Fin cfg0.N) (h : t.val = 0) :
    accAt V c t.val t.isLt = accStep V c t (k0_pay2 (F := F)) := by
  obtain ⟨n, hn⟩ := t
  cases n with
  | zero => rfl
  | succ n => exact absurd h (Nat.succ_ne_zero n)

/-- The accumulator after a later point: the point's contribution over what the point before left. -/
theorem accAt_later (c : Dev nD) (t : Fin cfg0.N) (h : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl h
  | succ n => rfl

/-! ## The invariant: the carried accumulator, the other scoped buffers, the generator register -/

/-- The scratch operand: the whole accumulator buffer. -/
abbrev scM : Memref sig .tc .vmem S256x256 .f32 := Memref.whole cc0_scratch0

/-- Every scoped buffer of the core but this call's staging buffers and its accumulator, at some contents each. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, split at the accumulator: the accumulator at some contents, the other scoped
    buffers unopened, the generator register at some state. -/
theorem PhiA_eq (c : Dev nD) :
    (Pipeline.ΦA spec0 c : sProp 𝕄)
      = iprop(iprop((∃ d, owns (c : Thread nD τ) scM fullShare d) ∗ restBut (F := F) c) ∗ (∃ r, prngReg c r)) := by
  unfold Pipeline.ΦA
  rw [Pipeline.scopedRest_split_of_list spec0 c [cc0_scratch0] (by decide) (by decide)]
  simp only [scM, owns_whole]; try rfl

/-- The invariant before position `n`: before the first point what the launch hands over; afterwards the accumulator
    at what the point before left, the other scoped buffers, the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of pipeline 0 on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => thetaBlk V c t
    | ⟨9, _⟩ => accAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
theorem recorded_eq (c : Dev nD) (t : Fin (cfg0.N + 1)) : (dat V c).recorded t = Set.univ := by
  dsimp only [dat]

/-- The invariant at a point's start. -/
theorem PhiS_castSucc (c : Dev nD) (t : Fin cfg0.N) :
    (dat V c).Φ t.castSucc = PhiS V c t.val (Nat.le_of_lt t.isLt) := by
  dsimp only [dat]; simp only [Fin.coe_castSucc]

/-- What the body leaves in each input window's buffer: the block it found. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]

/-- The θ window's staging buffer after point `t`. -/
theorem after_8 (c : Dev nD) (t : Fin cfg0.N) : (dat V c).after 8 t = thetaBlk V c t := by dsimp only [dat]
/-- The accumulator's output window after point `t` (read only where the point stores it: the last). -/
theorem after_9 (c : Dev nD) (t : Fin cfg0.N) : (dat V c).after 9 t = accAt V c t.val t.isLt := by dsimp only [dat]
/-- The accumulator's output window after the last point (the only point that writes it back). -/
theorem after_9_last (c : Dev nD) (t : Fin cfg0.N) (ht : t.val = 7) :
    (dat V c).after 9 t = accAt V c 7 (by rw [show cfg0.N = 8 from N_0]; omega) := by
  rw [after_9]
  obtain ⟨n, hn⟩ := t
  dsimp only at ht
  subst ht
  rfl

/-- Each input window's current staging buffer holds its block at every point, fetched there or not: unfetched, the
    block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
/-- Off the last point nothing is stored into the accumulator's output window: it is idle, -/
theorem idleAt_9 : ∀ t : Fin cfg0.N, ¬cond1 (grid0.coords t) → cfg0.idle 9 (grid0.coords t) = true := by decide +kernel
/-- and not written back; -/
theorem noFlush_9 : ∀ t : Fin cfg0.N, ¬cond1 (grid0.coords t) → (cfg0.win 9).flush t = false := by decide +kernel
/-- at the last point it is stored. -/
theorem liveAt_9 : ∀ t : Fin cfg0.N, cond1 (grid0.coords t) → cfg0.idle 9 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point. The inputs' buffers hold their blocks; the point is the first, the last, or between, and that
    case's run applies: the invariant hands it the accumulator at what the point before left (at anything before the
    first point) and takes it back at this point's contents; the θ window's buffer ends at the point's projection; the
    accumulator's output window is stored at the last point and handed back untouched elsewhere; the other scoped buffers,
    the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg0.N = 8 from N_0)
  rw [show (dat V c).leavesExact 0 t = owns (c : Thread nD τ) (st0_0 t) fullShare ((dat V c).after 0 t) from by
    unfold Dat.leavesExact; rw [liveAt_0 t], after_0]
  rw [show (dat V c).leavesExact 1 t = owns (c : Thread nD τ) (st0_1 t) fullShare ((dat V c).after 1 t) from by
    unfold Dat.leavesExact; rw [liveAt_1 t], after_1]
  rw [show (dat V c).leavesExact 2 t = owns (c : Thread nD τ) (st0_2 t) fullShare ((dat V c).after 2 t) from by
    unfold Dat.leavesExact; rw [liveAt_2 t], after_2]
  rw [show (dat V c).leavesExact 3 t = owns (c : Thread nD τ) (st0_3 t) fullShare ((dat V c).after 3 t) from by
    unfold Dat.leavesExact; rw [liveAt_3 t], after_3]
  rw [show (dat V c).leavesExact 4 t = owns (c : Thread nD τ) (st0_4 t) fullShare ((dat V c).after 4 t) from by
    unfold Dat.leavesExact; rw [liveAt_4 t], after_4]
  rw [show (dat V c).leavesExact 5 t = owns (c : Thread nD τ) (st0_5 t) fullShare ((dat V c).after 5 t) from by
    unfold Dat.leavesExact; rw [liveAt_5 t], after_5]
  rw [show (dat V c).leavesExact 6 t = owns (c : Thread nD τ) (st0_6 t) fullShare ((dat V c).after 6 t) from by
    unfold Dat.leavesExact; rw [liveAt_6 t], after_6]
  rw [show (dat V c).leavesExact 7 t = owns (c : Thread nD τ) (st0_7 t) fullShare ((dat V c).after 7 t) from by
    unfold Dat.leavesExact; rw [liveAt_7 t], after_7]
  rw [show (dat V c).leavesExact 8 t = owns (c : Thread nD τ) (st0_8 t) fullShare ((dat V c).after 8 t) from by
    unfold Dat.leavesExact; rw [liveAt_8 t], after_8]
  by_cases h0 : t.val = 0
  · have h1 : ¬t.val = 7 := by omega
    rw [Dat.leavesExact_idle (dat V c) 9 t (idleAt_9 t (fun h => h1 ((hcond1 t).mp h))) (noFlush_9 t (fun h => h1 ((hcond1 t).mp h)))]
    rw [PhiS_castSucc V c t, PhiS_zero V c _ _ h0, PhiA_eq, accAt_first V c t h0]
    unfold accStep thetaBlk
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, ⟨%e8, H8⟩, H9, ⟨%es, HS⟩⟩
    isplitl [HS HR Hg]
    · isplitl [HS HR]
      · isplitl [HS]
        · unfold owns; iexists _; isplitr
          swap; · iexact HS
          ipureintro
          exact (View.read_writes_eq_canon _ _ _ (coverS_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))).trans (canonS_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (View.read_writes_eq_canon _ _ _ (cover8_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))).trans (canon8_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))
    iexists _; iexact H9
  · by_cases h1 : t.val = 7
    · rw [show (dat V c).leavesExact 9 t = owns (c : Thread nD τ) (st0_9 t) fullShare ((dat V c).after 9 t) from by
        unfold Dat.leavesExact; rw [liveAt_9 t ((hcond1 t).mpr h1)], after_9]
      rw [PhiS_castSucc V c t, PhiS_pos V c _ _ h0, accAt_later V c t h0]
      unfold accStep thetaBlk
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, ⟨%e8, H8⟩, ⟨%e9, H9⟩, ⟨%es, HS⟩⟩
      isplitl [HS HR Hg]
      · isplitl [HS HR]
        · isplitl [HS]
          · unfold owns; iexists _; isplitr
            swap; · iexact HS
            ipureintro
            exact (View.read_writes_eq_canon _ _ _ (coverS_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canonS_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover8_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon8_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
      unfold owns; iexists _; isplitr
      swap; · iexact H9
      ipureintro
      exact (View.read_writes_eq_canon _ _ _ (cover9_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon9_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
    · rw [Dat.leavesExact_idle (dat V c) 9 t (idleAt_9 t (fun h => h1 ((hcond1 t).mp h))) (noFlush_9 t (fun h => h1 ((hcond1 t).mp h)))]
      rw [PhiS_castSucc V c t, PhiS_pos V c _ _ h0, accAt_later V c t h0]
      unfold accStep thetaBlk
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS]; · iexact HS
      iintro ⟨H0, H1, H2, H3, H4, H5, H6, H7, ⟨%e8, H8⟩, H9, ⟨%es, HS⟩⟩
      isplitl [HS HR Hg]
      · isplitl [HS HR]
        · isplitl [HS]
          · unfold owns; iexists _; isplitr
            swap; · iexact HS
            ipureintro
            exact (View.read_writes_eq_canon _ _ _ (coverS_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canonS_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover8_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon8_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
      iexists _; iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- and after the last point the invariant gives it back. -/
theorem hout (c : Dev nD) : (dat V c).Φ (Fin.last cfg0.N) ⊢ (Pipeline.ΦA spec0 c : sProp 𝕄) :=
  Phi_out V c _ (by rw [Fin.val_last]; have : cfg0.N = 8 := N_0; omega)

end Cert.Kernel.R0

end
-- ==== Proof.K.Region1.lean ====
/-
  Region 1 of the kernel program (`y = θ M / 8192`, `w = y·Ww + bw`, and the column sums of `w` and `w²`
  carried across the grid), at the buffer contents `V` the region is entered from.
-/
import proofs.«131456_j40999757807684_1_alg».proof.Proof.Gen.Kernel.Launch
import proofs.«131456_j40999757807684_1_alg».proof.Proof.Gen.Kernel.Skeleton
import proofs.«131456_j40999757807684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the `w` output block holds after point `t`. -/
def wyBlk (c : Dev nD) (t : Fin cfg1.N) : Vec F S1024x512 .f32 :=
  k1_pay6 (iblk V c 0 t) (iblk V c 1 t) (iblk V c 2 t) (iblk V c 3 t)

/-- The running column sum after one more point. -/
def sumStep (c : Dev nD) (t : Fin cfg1.N) (acc : Vec F S1x512 .f32) : Vec F S1x512 .f32 :=
  k1_pay7 (iblk V c 0 t) (iblk V c 1 t) (iblk V c 2 t) (iblk V c 3 t) acc
/-- The running column sum of squares after one more point. -/
def sqStep (c : Dev nD) (t : Fin cfg1.N) (acc : Vec F S1x512 .f32) : Vec F S1x512 .f32 :=
  k1_pay1 (k1_pay8 (iblk V c 0 t) (iblk V c 1 t) (iblk V c 2 t) (iblk V c 3 t) acc)

/-- The two carried accumulators after point `n`: zeroed at the first point, then one block's column sums per point. -/
def sumAt (c : Dev nD) : (n : ℕ) → n < cfg1.N → Vec F S1x512 .f32
  | 0, hn => sumStep V c ⟨0, hn⟩ (k1_pay4 (F := F))
  | n + 1, hn => sumStep V c ⟨n + 1, hn⟩ (sumAt c n (Nat.lt_of_succ_lt hn))
def sqAt (c : Dev nD) : (n : ℕ) → n < cfg1.N → Vec F S1x512 .f32
  | 0, hn => sqStep V c ⟨0, hn⟩ (k1_pay5 (F := F))
  | n + 1, hn => sqStep V c ⟨n + 1, hn⟩ (sqAt c n (Nat.lt_of_succ_lt hn))

/-! ## The body's two branch conditions, decided over the grid -/

/-- The first `scf.if` of the body: the grid coordinate is 0 (the scratch is reset there). -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val = 0 :=
  (by decide +kernel : ∀ t : Fin grid1.N, isFirst (grid1.coords t) ↔ t.val = 0)

/-- The second `scf.if` of the body: the grid coordinate is 7 (the two statistics are stored there). -/
abbrev isLast (i : grid1.Coords) : Prop := k1_cond2 i = 1#1
/-- It holds at point 7 only. -/
theorem isLast_iff : ∀ t : Fin cfg1.N, isLast (grid1.coords t) ↔ t.val = 7 :=
  (by decide +kernel : ∀ t : Fin grid1.N, isLast (grid1.coords t) ↔ t.val = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Away from the last point the two statistics' windows are idle and are not written back. -/
theorem idle_5 : ∀ t : Fin cfg1.N, ¬isLast (grid1.coords t) → cfg1.idle 5 (grid1.coords t) = true := by decide +kernel
theorem noFlush_5 : ∀ t : Fin cfg1.N, ¬isLast (grid1.coords t) → (cfg1.win 5).flush t = false := by decide +kernel
theorem idle_6 : ∀ t : Fin cfg1.N, ¬isLast (grid1.coords t) → cfg1.idle 6 (grid1.coords t) = true := by decide +kernel
theorem noFlush_6 : ∀ t : Fin cfg1.N, ¬isLast (grid1.coords t) → (cfg1.win 6).flush t = false := by decide +kernel
/-- At the last point they are live. -/
theorem live_5 : ∀ t : Fin cfg1.N, isLast (grid1.coords t) → cfg1.idle 5 (grid1.coords t) = false := by decide +kernel
theorem live_6 : ∀ t : Fin cfg1.N, isLast (grid1.coords t) → cfg1.idle 6 (grid1.coords t) = false := by decide +kernel

/-! ## The body on any staging memrefs, case by case: the pieces each buffer ends with are what the run finds -/

set_option maxHeartbeats 4000000 in
/-- CASE A (the first point: the scratch is reset, nothing stored into the statistics' windows). On whole memrefs —
    the four inputs' at their contents, the `w` block's at anything, the two idle windows' at contents handed back
    untouched, both scratch buffers at anything — the body runs to the continuation holding the inputs' as they were, the
    `w` block's buffer and both scratch buffers with their stores written. -/
noncomputable def kernelRun_A (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    Σ' (L4 : List (View.Piece (Elt F) S1024x512 .f32)) (LS0 : List (View.Piece (Elt F) S1x512 .f32)), { LS1 : List (View.Piece (Elt F) S1x512 .f32) //
      ∀ (xi5 xi6 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- CASE B (a point strictly between the first and the last: no reset, nothing stored into the statistics' windows).
    As case A, with both scratch buffers at the contents the point before left. -/
noncomputable def kernelRun_B (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    Σ' (L4 : List (View.Piece (Elt F) S1024x512 .f32)) (LS0 : List (View.Piece (Elt F) S1x512 .f32)), { LS1 : List (View.Piece (Elt F) S1x512 .f32) //
      ∀ (xi5 xi6 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- CASE C (the last point: no reset; the mean and the reciprocal standard deviation are stored). The two statistics'
    buffers come at anything and end with their stores written; both scratch buffers come at the contents the point
    before left. -/
noncomputable def kernelRun_C (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    Σ' (L4 : List (View.Piece (Elt F) S1024x512 .f32)) (L5 : List (View.Piece (Elt F) S1x512 .f32)) (L6 : List (View.Piece (Elt F) S1x512 .f32)) (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## The staging and scratch memrefs, by their literal types -/

/-- One staging buffer of each output window, through which its contents are stated (the choice does not matter:
    a covering list of writes reads the same through any view). -/
abbrev VO4 : View sig .tc .vmem S1024x512 .f32 := (Memref.whole cc1_stg4_0 : Memref sig .tc .vmem S1024x512 .f32).view
abbrev VO5 : View sig .tc .vmem S1x512 .f32 := (Memref.whole cc1_stg5_0 : Memref sig .tc .vmem S1x512 .f32).view
abbrev VO6 : View sig .tc .vmem S1x512 .f32 := (Memref.whole cc1_stg6_0 : Memref sig .tc .vmem S1x512 .f32).view
/-- Each window's current staging memref at point `t`, spelled as the pipeline passes it, and its wholeness. -/
abbrev ms_0 (t : Fin cfg1.N) : Memref sig .tc .vmem S1024x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S256x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x512 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x512 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x512 .f32 := win1_6.stage (cfg1.slots t 6)
abbrev hs_6 (t : Fin cfg1.N) : (ms_6 t).IsWhole := hstage1_6 ((cfg1.slots t 6).cast nbuf1_6)
/-- The two scratch operands the kernel carries between points: the running column sum and the running column sum of
    squares, whole scoped buffers of the call's own. -/
abbrev scM0 : Memref sig .tc .vmem S1x512 .f32 := Memref.whole cc1_scratch0
abbrev scM1 : Memref sig .tc .vmem S1x512 .f32 := Memref.whole cc1_scratch1
abbrev VS0 : View sig .tc .vmem S1x512 .f32 := scM0.view
abbrev VS1 : View sig .tc .vmem S1x512 .f32 := scM1.view

/-- Every scoped buffer that is neither a staging buffer of this call nor one of its two scratch operands: the other
    calls' staging buffers and scratch, which this region never opens. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class invariant with this call's two scratch operands split out of the scoped rest, each a whole memref owned
    at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest1_split]; simp only [scM0, scM1, owns_whole]; try rfl

/-! ## What each case leaves in each buffer: the found pieces read back -/

/-- At the first point the pieces stored into window 4's buffer tile its block, so they cover it. -/
theorem cover_A_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1024x512.Idx) :
    ∃ pc ∈ (kernelRun_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).1 S1024x512.size (by sl_kernel_rfl) y
/-- What the first point leaves in window 4's staging buffer: its pieces read back. -/
def out_A_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1024x512 .f32 :=
  VO4.read (Elt F) (VO4.writes (Elt F) VO4.junk (kernelRun_A c i arg1 harg1 arg2 harg2 arg3 harg3 arg4 harg4 arg5 harg5 arg6 harg6 arg7 harg7 arg8 harg8 arg9 harg9 hc0 hc1 x0 x1 x2 x3).1)

/-- At the first point the pieces stored into scratch 0 cover it. -/
theorem scover_A_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1x512.Idx) :
    ∃ pc ∈ (kernelRun_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).2.1 S1x512.size (by sl_kernel_rfl) y
/-- What the first point leaves in scratch 0: its pieces read back. -/
def sout_A_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1x512 .f32 :=
  VS0.read (Elt F) (VS0.writes (Elt F) VS0.junk (kernelRun_A c i arg1 harg1 arg2 harg2 arg3 harg3 arg4 harg4 arg5 harg5 arg6 harg6 arg7 harg7 arg8 harg8 arg9 harg9 hc0 hc1 x0 x1 x2 x3).2.1)

/-- At the first point the pieces stored into scratch 1 cover it. -/
theorem scover_A_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1x512.Idx) :
    ∃ pc ∈ (kernelRun_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).2.2.1 S1x512.size (by sl_kernel_rfl) y
/-- What the first point leaves in scratch 1: its pieces read back. -/
def sout_A_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1x512 .f32 :=
  VS1.read (Elt F) (VS1.writes (Elt F) VS1.junk (kernelRun_A c i arg1 harg1 arg2 harg2 arg3 harg3 arg4 harg4 arg5 harg5 arg6 harg6 arg7 harg7 arg8 harg8 arg9 harg9 hc0 hc1 x0 x1 x2 x3).2.2.1)

/-- At a middle point the pieces stored into window 4's buffer tile its block, so they cover it. -/
theorem cover_B_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1024x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).1 S1024x512.size (by sl_kernel_rfl) y
/-- What a middle point leaves in window 4's staging buffer: its pieces read back. -/
def out_B_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1024x512 .f32 :=
  VO4.read (Elt F) (VO4.writes (Elt F) VO4.junk (kernelRun_B c i arg1 harg1 arg2 harg2 arg3 harg3 arg4 harg4 arg5 harg5 arg6 harg6 arg7 harg7 arg8 harg8 arg9 harg9 hc0 hc1 x0 x1 x2 x3 xs0 xs1).1)

/-- At a middle point the pieces stored into scratch 0 cover it. -/
theorem scover_B_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).2.1 S1x512.size (by sl_kernel_rfl) y
/-- What a middle point leaves in scratch 0: its pieces read back. -/
def sout_B_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1x512 .f32 :=
  VS0.read (Elt F) (VS0.writes (Elt F) VS0.junk (kernelRun_B c i arg1 harg1 arg2 harg2 arg3 harg3 arg4 harg4 arg5 harg5 arg6 harg6 arg7 harg7 arg8 harg8 arg9 harg9 hc0 hc1 x0 x1 x2 x3 xs0 xs1).2.1)

/-- At a middle point the pieces stored into scratch 1 cover it. -/
theorem scover_B_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).2.2.1 S1x512.size (by sl_kernel_rfl) y
/-- What a middle point leaves in scratch 1: its pieces read back. -/
def sout_B_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1x512 .f32 :=
  VS1.read (Elt F) (VS1.writes (Elt F) VS1.junk (kernelRun_B c i arg1 harg1 arg2 harg2 arg3 harg3 arg4 harg4 arg5 harg5 arg6 harg6 arg7 harg7 arg8 harg8 arg9 harg9 hc0 hc1 x0 x1 x2 x3 xs0 xs1).2.2.1)

/-- At the last point the pieces stored into window 4's buffer tile its block, so they cover it. -/
theorem cover_C_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1024x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).1 S1024x512.size (by sl_kernel_rfl) y
/-- What the last point leaves in window 4's staging buffer: its pieces read back. -/
def out_C_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1024x512 .f32 :=
  VO4.read (Elt F) (VO4.writes (Elt F) VO4.junk (kernelRun_C c i arg1 harg1 arg2 harg2 arg3 harg3 arg4 harg4 arg5 harg5 arg6 harg6 arg7 harg7 arg8 harg8 arg9 harg9 hc0 hc1 x0 x1 x2 x3 xs0 xs1).1)

/-- At the last point the pieces stored into window 5's buffer tile its block, so they cover it. -/
theorem cover_C_5 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.1 S1x512.size (by sl_kernel_rfl) y
/-- What the last point leaves in window 5's staging buffer: its pieces read back. -/
def out_C_5 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VO5.read (Elt F) (VO5.writes (Elt F) VO5.junk (kernelRun_C c i arg1 harg1 arg2 harg2 arg3 harg3 arg4 harg4 arg5 harg5 arg6 harg6 arg7 harg7 arg8 harg8 arg9 harg9 hc0 hc1 x0 x1 x2 x3 xs0 xs1).2.1)

/-- At the last point the pieces stored into window 6's buffer tile its block, so they cover it. -/
theorem cover_C_6 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.1 S1x512.size (by sl_kernel_rfl) y
/-- What the last point leaves in window 6's staging buffer: its pieces read back. -/
def out_C_6 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VO6.read (Elt F) (VO6.writes (Elt F) VO6.junk (kernelRun_C c i arg1 harg1 arg2 harg2 arg3 harg3 arg4 harg4 arg5 harg5 arg6 harg6 arg7 harg7 arg8 harg8 arg9 harg9 hc0 hc1 x0 x1 x2 x3 xs0 xs1).2.2.1)

/-- At the last point the pieces stored into scratch 0 cover it. -/
theorem scover_C_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.2.1 S1x512.size (by sl_kernel_rfl) y
/-- What the last point leaves in scratch 0: its pieces read back. -/
def sout_C_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VS0.read (Elt F) (VS0.writes (Elt F) VS0.junk (kernelRun_C c i arg1 harg1 arg2 harg2 arg3 harg3 arg4 harg4 arg5 harg5 arg6 harg6 arg7 harg7 arg8 harg8 arg9 harg9 hc0 hc1 x0 x1 x2 x3 xs0 xs1).2.2.2.1)

/-- At the last point the pieces stored into scratch 1 cover it. -/
theorem scover_C_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.2.2.1 S1x512.size (by sl_kernel_rfl) y
/-- What the last point leaves in scratch 1: its pieces read back. -/
def sout_C_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VS1.read (Elt F) (VS1.writes (Elt F) VS1.junk (kernelRun_C c i arg1 harg1 arg2 harg2 arg3 harg3 arg4 harg4 arg5 harg5 arg6 harg6 arg7 harg7 arg8 harg8 arg9 harg9 hc0 hc1 x0 x1 x2 x3 xs0 xs1).2.2.2.2.1)

/-- The contents named for a statistics window at a point where it is idle: nothing consults them (there the window is
    neither written back nor read at the next point). -/
def idleHold : Vec F S1x512 .f32 := VO5.read (Elt F) (VO5.writes (Elt F) VO5.junk [])

/-! ## The found pieces are the named payload terms -/

/-- The whole-block rectangle's offsets are zero. -/
theorem hz : (![0, 0] : Fin 2 → ℕ) = fun _ => 0 := by funext a; fin_cases a <;> rfl

/-- The one store into the `w` block's buffer holds the block's payload over the four input blocks as loaded. -/
theorem out_A_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    out_A_4 c i arg1 harg1 arg2 harg2 arg3 harg3 arg4 harg4 arg5 harg5 arg6 harg6 arg7 harg7 arg8 harg8 arg9 harg9 hc0 hc1 x0 x1 x2 x3 = k1_pay6 x0 x1 x2 x3 := by
  unfold out_A_4
  rw [View.read_writes_eq_canon _ _ _ (cover_A_4 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the first point: the update over the reset value, the later store covering the reset. -/
theorem sout_A_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    sout_A_0 c i arg1 harg1 arg2 harg2 arg3 harg3 arg4 harg4 arg5 harg5 arg6 harg6 arg7 harg7 arg8 harg8 arg9 harg9 hc0 hc1 x0 x1 x2 x3 = k1_pay7 x0 x1 x2 x3 (k1_pay4 (F := F)) := by
  unfold sout_A_0
  rw [View.read_writes_eq_canon _ _ _ (scover_A_0 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the first point, likewise over its reset value. -/
theorem sout_A_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    sout_A_1 c i arg1 harg1 arg2 harg2 arg3 harg3 arg4 harg4 arg5 harg5 arg6 harg6 arg7 harg7 arg8 harg8 arg9 harg9 hc0 hc1 x0 x1 x2 x3 = k1_pay1 (k1_pay8 x0 x1 x2 x3 (k1_pay5 (F := F))) := by
  unfold sout_A_1
  rw [View.read_writes_eq_canon _ _ _ (scover_A_1 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The one store into the `w` block's buffer holds the block's payload over the four input blocks as loaded. -/
theorem out_B_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    out_B_4 c i arg1 harg1 arg2 harg2 arg3 harg3 arg4 harg4 arg5 harg5 arg6 harg6 arg7 harg7 arg8 harg8 arg9 harg9 hc0 hc1 x0 x1 x2 x3 xs0 xs1 = k1_pay6 x0 x1 x2 x3 := by
  unfold out_B_4
  rw [View.read_writes_eq_canon _ _ _ (cover_B_4 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the point: the update over what the point before left, loaded back. -/
theorem sout_B_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    sout_B_0 c i arg1 harg1 arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout_B_0
  rw [View.read_writes_eq_canon _ _ _ (scover_B_0 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the point, likewise. -/
theorem sout_B_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    sout_B_1 c i arg1 harg1 arg2 harg2 arg3 harg3 arg4 harg4 arg5 harg5 arg6 harg6 arg7 harg7 arg8 harg8 arg9 harg9 hc0 hc1 x0 x1 x2 x3 xs0 xs1 = k1_pay1 (k1_pay8 x0 x1 x2 x3 xs1) := by
  unfold sout_B_1
  rw [View.read_writes_eq_canon _ _ _ (scover_B_1 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The one store into the `w` block's buffer holds the block's payload over the four input blocks as loaded. -/
theorem out_C_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_4 c i arg1 harg1 arg2 harg2 arg3 harg3 arg4 harg4 arg5 harg5 arg6 harg6 arg7 harg7 arg8 harg8 arg9 harg9 hc0 hc1 x0 x1 x2 x3 xs0 xs1 = k1_pay6 x0 x1 x2 x3 := by
  unfold out_C_4
  rw [View.read_writes_eq_canon _ _ _ (cover_C_4 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the point: the update over what the point before left, loaded back. -/
theorem sout_C_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    sout_C_0 c i arg1 harg1 arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout_C_0
  rw [View.read_writes_eq_canon _ _ _ (scover_C_0 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the point, likewise. -/
theorem sout_C_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    sout_C_1 c i arg1 harg1 arg2 harg2 arg3 harg3 arg4 harg4 arg5 harg5 arg6 harg6 arg7 harg7 arg8 harg8 arg9 harg9 hc0 hc1 x0 x1 x2 x3 xs0 xs1 = k1_pay1 (k1_pay8 x0 x1 x2 x3 xs1) := by
  unfold sout_C_1
  rw [View.read_writes_eq_canon _ _ _ (scover_C_1 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The mean's store at the last point: over the running sum loaded back after this point's update. -/
theorem out_C_5_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_5 c i arg1 harg1 arg2 harg2 arg3 harg3 arg4 harg4 arg5 harg5 arg6 harg6 arg7 harg7 arg8 harg8 arg9 harg9 hc0 hc1 x0 x1 x2 x3 xs0 xs1 = k1_pay2 (k1_pay7 x0 x1 x2 x3 xs0) := by
  unfold out_C_5
  rw [View.read_writes_eq_canon _ _ _ (cover_C_5 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The reciprocal standard deviation's store at the last point: over both accumulators loaded back after this point's updates. -/
theorem out_C_6_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_6 c i arg1 harg1 arg2 harg2 arg3 harg3 arg4 harg4 arg5 harg5 arg6 harg6 arg7 harg7 arg8 harg8 arg9 harg9 hc0 hc1 x0 x1 x2 x3 xs0 xs1 = k1_pay3 (k1_pay7 x0 x1 x2 x3 xs0) (k1_pay1 (k1_pay8 x0 x1 x2 x3 xs1)) := by
  unfold out_C_6
  rw [View.read_writes_eq_canon _ _ _ (cover_C_6 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-! ## What the outputs and the two carried accumulators hold after each point -/

/-- THE ACCUMULATION. What the three output windows' staging buffers and the two scratch buffers hold after the body at
    position `n` (the outputs in window order, then the scratch): the case the position selects, run at the point's
    memrefs and input blocks, the scratch entering at what position `n - 1` left. -/
def outsAt (c : Dev nD) : (n : ℕ) → n < cfg1.N → Vec F S1024x512 .f32 × Vec F S1x512 .f32 × Vec F S1x512 .f32 × Vec F S1x512 .f32 × Vec F S1x512 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), idleHold, idleHold, sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩))
  | n + 1, hn =>
    if h1 : n + 1 = 7 then
      (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, out_C_6 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2)
    else
      (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, idleHold, idleHold, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2)

/-- `outsAt` at the first point: the reset case's contents. -/
theorem outsAt_A (c : Dev nD) (t : Fin cfg1.N) (h0 : t.val = 0) (h1 : ¬t.val = 7) :
    outsAt V c t.val t.isLt = (out_A_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t), idleHold, idleHold, sout_A_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t), sout_A_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t)) := by
  obtain ⟨n, hn⟩ := t
  cases n with
  | zero => exact rfl
  | succ n => exact absurd h0 (Nat.succ_ne_zero n)

/-- `outsAt` at a middle point: that case's contents, over what the point before left in the scratch. -/
theorem outsAt_B (c : Dev nD) (t : Fin cfg1.N) (h0 : ¬t.val = 0) (h1 : ¬t.val = 7) :
    outsAt V c t.val t.isLt = (out_B_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, idleHold, idleHold, sout_B_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_B_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt` at the last point: that case's contents, over what the point before left in the scratch. -/
theorem outsAt_C (c : Dev nD) (t : Fin cfg1.N) (h0 : ¬t.val = 0) (h1 : t.val = 7) :
    outsAt V c t.val t.isLt = (out_C_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the two carried accumulators at what the point
    before left in them, the other scoped buffers unopened, the generator register at some state. -/
def PhiS (c : Dev nD) : (n : ℕ) → n ≤ cfg1.N → sProp 𝕄
  | 0, _ => Pipeline.ΦA spec1 c
  | n + 1, hn => iprop(iprop(iprop(owns (c : Thread nD τ) scM0 fullShare (outsAt V c n hn).2.2.2.1 ∗ owns (c : Thread nD τ) scM1 fullShare (outsAt V c n hn).2.2.2.2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (outsAt V c n hn).2.2.2.1 ∗ owns (c : Thread nD τ) scM1 fullShare (outsAt V c n hn).2.2.2.2) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (outsAt V c (n - 1) (by omega)).2.2.2.1 ∗ owns (c : Thread nD τ) scM1 fullShare (outsAt V c (n - 1) (by omega)).2.2.2.2) ∗ restBut (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and each output's at `outsAt`'s component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := by
  dsimp only [dat]
theorem owed_eq (c : Dev nD) (t : Fin (cfg1.N + 1)) : (dat V c).owed t = 0 := by
  dsimp only [dat]
theorem recorded_eq (c : Dev nD) (t : Fin (cfg1.N + 1)) : (dat V c).recorded t = Set.univ := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_in_0 (c : Dev nD) (t : Fin cfg1.N) : (dat V c).after 0 t = iblk V c 0 t := by dsimp only [dat]
theorem after_in_1 (c : Dev nD) (t : Fin cfg1.N) : (dat V c).after 1 t = iblk V c 1 t := by dsimp only [dat]
theorem after_in_2 (c : Dev nD) (t : Fin cfg1.N) : (dat V c).after 2 t = iblk V c 2 t := by dsimp only [dat]
theorem after_in_3 (c : Dev nD) (t : Fin cfg1.N) : (dat V c).after 3 t = iblk V c 3 t := by dsimp only [dat]
theorem after_out_4 (c : Dev nD) (t : Fin cfg1.N) : (dat V c).after 4 t = (outsAt V c t.val t.isLt).1 := by dsimp only [dat]
theorem after_out_5 (c : Dev nD) (t : Fin cfg1.N) : (dat V c).after 5 t = (outsAt V c t.val t.isLt).2.1 := by dsimp only [dat]
theorem after_out_6 (c : Dev nD) (t : Fin cfg1.N) : (dat V c).after 6 t = (outsAt V c t.val t.isLt).2.2.1 := by dsimp only [dat]

/-- Each input's current staging buffer holds its block at every point, fetched there or not: unfetched, the block
    index has not moved, and the body leaves the block in place. -/
theorem before_in_0 (c : Dev nD) (t : Fin cfg1.N) (d) : (dat V c).before 0 t d = iblk V c 0 t :=
  ((dat V c).before_in_eq_fetched 0 rfl (fun _ => rfl) (fun _ _ _ => rfl) (fun t => by rw [after_in_0]; unfold Dat.blockOf iblk; rw [A_eq]; try rfl) t d).trans
    (by unfold Dat.fetched Dat.blockOf iblk; rw [A_eq]; try rfl)
theorem before_in_1 (c : Dev nD) (t : Fin cfg1.N) (d) : (dat V c).before 1 t d = iblk V c 1 t :=
  ((dat V c).before_in_eq_fetched 1 rfl (fun _ => rfl) (fun _ _ _ => rfl) (fun t => by rw [after_in_1]; unfold Dat.blockOf iblk; rw [A_eq]; try rfl) t d).trans
    (by unfold Dat.fetched Dat.blockOf iblk; rw [A_eq]; try rfl)
theorem before_in_2 (c : Dev nD) (t : Fin cfg1.N) (d) : (dat V c).before 2 t d = iblk V c 2 t :=
  ((dat V c).before_in_eq_fetched 2 rfl (fun _ => rfl) (fun _ _ _ => rfl) (fun t => by rw [after_in_2]; unfold Dat.blockOf iblk; rw [A_eq]; try rfl) t d).trans
    (by unfold Dat.fetched Dat.blockOf iblk; rw [A_eq]; try rfl)
theorem before_in_3 (c : Dev nD) (t : Fin cfg1.N) (d) : (dat V c).before 3 t d = iblk V c 3 t :=
  ((dat V c).before_in_eq_fetched 3 rfl (fun _ => rfl) (fun _ _ _ => rfl) (fun t => by rw [after_in_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-! ## The accumulation, step by step -/

theorem outsAt_zero (c : Dev nD) (hn : 0 < cfg1.N) :
    outsAt V c 0 hn = (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), idleHold, idleHold, sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)) := rfl
theorem outsAt_succ_B (c : Dev nD) (n : ℕ) (hn : n + 1 < cfg1.N) (h1 : ¬n + 1 = 7) :
    outsAt V c (n + 1) hn = (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, idleHold, idleHold, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2) :=
  (dif_neg h1).trans rfl
theorem outsAt_succ_C (c : Dev nD) (n : ℕ) (hn : n + 1 < cfg1.N) (h1 : n + 1 = 7) :
    outsAt V c (n + 1) hn = (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, out_C_6 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2) :=
  (dif_pos h1).trans rfl

theorem sumAt_zero (c : Dev nD) (hn : 0 < cfg1.N) :
    sumAt V c 0 hn = k1_pay7 (iblk V c 0 ⟨0, hn⟩) (iblk V c 1 ⟨0, hn⟩) (iblk V c 2 ⟨0, hn⟩) (iblk V c 3 ⟨0, hn⟩) (k1_pay4 (F := F)) := rfl
theorem sumAt_succ (c : Dev nD) (n : ℕ) (hn : n + 1 < cfg1.N) :
    sumAt V c (n + 1) hn = k1_pay7 (iblk V c 0 ⟨n + 1, hn⟩) (iblk V c 1 ⟨n + 1, hn⟩) (iblk V c 2 ⟨n + 1, hn⟩) (iblk V c 3 ⟨n + 1, hn⟩) (sumAt V c n (Nat.lt_of_succ_lt hn)) := rfl
theorem sqAt_zero (c : Dev nD) (hn : 0 < cfg1.N) :
    sqAt V c 0 hn = k1_pay1 (k1_pay8 (iblk V c 0 ⟨0, hn⟩) (iblk V c 1 ⟨0, hn⟩) (iblk V c 2 ⟨0, hn⟩) (iblk V c 3 ⟨0, hn⟩) (k1_pay5 (F := F))) := rfl
theorem sqAt_succ (c : Dev nD) (n : ℕ) (hn : n + 1 < cfg1.N) :
    sqAt V c (n + 1) hn = k1_pay1 (k1_pay8 (iblk V c 0 ⟨n + 1, hn⟩) (iblk V c 1 ⟨n + 1, hn⟩) (iblk V c 2 ⟨n + 1, hn⟩) (iblk V c 3 ⟨n + 1, hn⟩) (sqAt V c n (Nat.lt_of_succ_lt hn))) := rfl

/-- After every point the two carried accumulators hold the running column sum and the running column sum of squares:
    by induction on the point, each step the case's two scratch pieces over what the point before left. -/
theorem carried_eq (c : Dev nD) (n : ℕ) : ∀ hn : n < cfg1.N,
    (outsAt V c n hn).2.2.2.1 = sumAt V c n hn ∧ (outsAt V c n hn).2.2.2.2 = sqAt V c n hn := by
  induction n with
  | zero =>
    intro hn
    rw [outsAt_zero V c hn]; dsimp only
    exact ⟨(sout_A_0_eq (F := F) c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)).trans (sumAt_zero V c hn).symm,
      (sout_A_1_eq (F := F) c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)).trans (sqAt_zero V c hn).symm⟩
  | succ n ih =>
    intro hn
    obtain ⟨ih0, ih1⟩ := ih (Nat.lt_of_succ_lt hn)
    by_cases h1 : n + 1 = 7
    · rw [outsAt_succ_C V c n hn h1]; dsimp only
      rw [ih0, ih1]
      exact ⟨(sout_C_0_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sumAt_succ V c n hn).symm,
        (sout_C_1_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sqAt_succ V c n hn).symm⟩
    · rw [outsAt_succ_B V c n hn h1]; dsimp only
      rw [ih0, ih1]
      exact ⟨(sout_B_0_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sumAt_succ V c n hn).symm,
        (sout_B_1_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sqAt_succ V c n hn).symm⟩

/-! ## What the three output windows hold -/

theorem after_4 (c : Dev nD) (t : Fin cfg1.N) : (dat V c).after 4 t = wyBlk V c t := by
  rw [after_out_4]; unfold wyBlk
  have hN : t.val < 8 := lt_of_lt_of_eq t.isLt (show cfg1.N = 8 from N_1)
  by_cases h0 : t.val = 0
  · have h1 : ¬t.val = 7 := by omega
    rw [outsAt_A V c t h0 h1]; dsimp only
    exact out_A_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t)
  by_cases h1 : t.val = 7
  · rw [outsAt_C V c t h0 h1]; dsimp only
    exact out_C_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2
  · rw [outsAt_B V c t h0 h1]; dsimp only
    exact out_B_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2

/-- The running sums at a point after the first, one step back. -/
theorem sumAt_pos (c : Dev nD) (t : Fin cfg1.N) (h0 : ¬t.val = 0) :
    sumAt V c t.val t.isLt = k1_pay7 (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact absurd rfl h0
  | succ n => rfl
theorem sqAt_pos (c : Dev nD) (t : Fin cfg1.N) (h0 : ¬t.val = 0) :
    sqAt V c t.val t.isLt = k1_pay1 (k1_pay8 (iblk V c 0 t) (iblk V c 1 t) (iblk V c 2 t) (iblk V c 3 t) (sqAt V c (t.val - 1) (Nat.lt_of_le_of_lt (Nat.sub_le _ _) t.isLt))) := by
  obtain ⟨n, hn⟩ := t
  cases n with
  | zero => exact absurd rfl h0
  | succ n => rfl
/-- They depend on the position only. -/
theorem sumAt_congr (c : Dev nD) {n m : ℕ} (h : n = m) (hn : n < cfg1.N) (hm : m < cfg1.N) : sumAt V c n hn = sumAt V c m hm := by
  subst h; rfl
theorem sqAt_congr (c : Dev nD) {n m : ℕ} (h : n = m) (hn : n < cfg1.N) (hm : m < cfg1.N) : sqAt V c n hn = sqAt V c m hm := by
  subst h; rfl

set_option maxHeartbeats 1000000 in
/-- The mean and the reciprocal standard deviation, written back at the last point only. -/
theorem after_5_last (c : Dev nD) (t : Fin cfg1.N) (ht : t.val = 7) :
    (dat V c).after 5 t = k1_pay2 (sumAt V c 7 (by rw [show cfg1.N = 8 from N_1]; omega)) := by
  have h0 : ¬t.val = 0 := by omega
  have h1 : t.val = 7 := ht
  rw [after_out_5, outsAt_C V c t h0 h1]; dsimp only
  rw [(carried_eq V c (t.val - 1) (Nat.lt_of_le_of_lt (Nat.sub_le _ _) t.isLt)).1, (carried_eq V c (t.val - 1) (Nat.lt_of_le_of_lt (Nat.sub_le _ _) t.isLt)).2]
  refine (out_C_5_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (sumAt V c (t.val - 1) (Nat.lt_of_le_of_lt (Nat.sub_le _ _) t.isLt)) (sqAt V c (t.val - 1) (Nat.lt_of_le_of_lt (Nat.sub_le _ _) t.isLt))).trans ?_
  exact congrArg k1_pay2 ((sumAt_pos V c t h0).symm.trans (sumAt_congr V c ht _ _))
set_option maxHeartbeats 1000000 in
theorem after_6_last (c : Dev nD) (t : Fin cfg1.N) (ht : t.val = 7) :
    (dat V c).after 6 t = k1_pay3 (sumAt V c 7 (by rw [show cfg1.N = 8 from N_1]; omega)) (sqAt V c 7 (by rw [show cfg1.N = 8 from N_1]; omega)) := by
  have h0 : ¬t.val = 0 := by omega
  have h1 : t.val = 7 := ht
  rw [after_out_6, outsAt_C V c t h0 h1]; dsimp only
  rw [(carried_eq V c (t.val - 1) (Nat.lt_of_le_of_lt (Nat.sub_le _ _) t.isLt)).1, (carried_eq V c (t.val - 1) (Nat.lt_of_le_of_lt (Nat.sub_le _ _) t.isLt)).2]
  refine (out_C_6_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (sumAt V c (t.val - 1) (Nat.lt_of_le_of_lt (Nat.sub_le _ _) t.isLt)) (sqAt V c (t.val - 1) (Nat.lt_of_le_of_lt (Nat.sub_le _ _) t.isLt))).trans ?_
  exact congrArg₂ k1_pay3 ((sumAt_pos V c t h0).symm.trans (sumAt_congr V c ht _ _)) ((sqAt_pos V c t h0).symm.trans (sqAt_congr V c ht _ _))

set_option maxHeartbeats 8000000 in
/-- The body at any point. The inputs' memrefs hold their blocks; the position says which case the point is in, so
    that case's run applies; the invariant hands the body the two carried accumulators at what the point before left
    (at anything at the first point), the other scoped buffers and the generator register pass through unopened, and
    it takes the accumulators back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in_0, before_in_1, before_in_2, before_in_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0 t], after_in_0]
  rw [show (dat V c).leavesExact 1 t = owns (c : Thread nD τ) (ms_1 t) fullShare ((dat V c).after 1 t) from by
    unfold Dat.leavesExact; rw [live_1 t], after_in_1]
  rw [show (dat V c).leavesExact 2 t = owns (c : Thread nD τ) (ms_2 t) fullShare ((dat V c).after 2 t) from by
    unfold Dat.leavesExact; rw [live_2 t], after_in_2]
  rw [show (dat V c).leavesExact 3 t = owns (c : Thread nD τ) (ms_3 t) fullShare ((dat V c).after 3 t) from by
    unfold Dat.leavesExact; rw [live_3 t], after_in_3]
  rw [show (dat V c).leavesExact 4 t = owns (c : Thread nD τ) (ms_4 t) fullShare ((dat V c).after 4 t) from by
    unfold Dat.leavesExact; rw [live_4 t], after_out_4]
  have hN : t.val < 8 := lt_of_lt_of_eq t.isLt (show cfg1.N = 8 from N_1)
  by_cases h0 : t.val = 0
  · -- the first point: the accumulators come at anything and are reset
    have h1 : ¬t.val = 7 := by omega
    rw [Dat.leavesExact_idle (dat V c) 5 t (idle_5 t (fun h => h1 ((isLast_iff t).mp h))) (noFlush_5 t (fun h => h1 ((isLast_iff t).mp h)))]
    rw [Dat.leavesExact_idle (dat V c) 6 t (idle_6 t (fun h => h1 ((isLast_iff t).mp h))) (noFlush_6 t (fun h => h1 ((isLast_iff t).mp h)))]
    rw [outsAt_A V c t h0 h1]
    unfold out_A_4 sout_A_0 sout_A_1; (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c _ _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _)
          · unfold owns; iexists _; isplitr
            swap; · iexact HS1
            ipureintro; exact View.read_writes_of_cover _ _ _ _ _ (scover_A_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _ _ _ _ _ _)
    isplitl [H5]; · iexists _; iexact H5
    iexists _; iexact H6
  by_cases h1 : t.val = 7
  · -- the last point: the two statistics are stored
    rw [show (dat V c).leavesExact 5 t = owns (c : Thread nD τ) (ms_5 t) fullShare ((dat V c).after 5 t) from by
      unfold Dat.leavesExact; rw [live_5 t ((isLast_iff t).mpr h1)], after_out_5]
    rw [show (dat V c).leavesExact 6 t = owns (c : Thread nD τ) (ms_6 t) fullShare ((dat V c).after 6 t) from by
      unfold Dat.leavesExact; rw [live_6 t ((isLast_iff t).mpr h1)], after_out_6]
    rw [outsAt_C V c t h0 h1]
    unfold out_C_4 out_C_5 out_C_6 sout_C_0 sout_C_1; (try dsimp only)
    rw [PhiS_castSucc V c t, PhiS_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_C c _ _ _ _ _ _ _ _ _ _ _ _ _ _ _ _ _ _ _ (fun h => h0 ((isFirst_iff t).mp h)) ((isLast_iff t).mpr h1) (iblk V c 0 t) (iblk V c 1 t) (iblk V c 2 t) (iblk V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _)
          · unfold owns; iexists _; isplitr
            swap; · iexact HS1
            ipureintro; exact View.read_writes_of_cover _ _ _ _ _ (scover_C_1 c _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_C_4 c _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover_C_5 c _ _ _ _ _ _ _ _ _ _ _ _ _ _ _ _ _ _ _ _ _ _ _ _ _ _ _)
    unfold owns; iexists _; isplitr
    swap; · iexact H6
    ipureintro; exact View.read_writes_of_cover _ _ _ _ _ (cover_C_6 c _ _ _ _ _ _ _ _ _ _ _ _ _ _ _ _ _ _ _ _ _ _ _ _ _ _ _)
  · -- a point in between
    rw [Dat.leavesExact_idle (dat V c) 5 t (idle_5 t (fun h => h1 ((isLast_iff t).mp h))) (noFlush_5 t (fun h => h1 ((isLast_iff t).mp h)))]
    rw [Dat.leavesExact_idle (dat V c) 6 t (idle_6 t (fun h => h1 ((isLast_iff t).mp h))) (noFlush_6 t (fun h => h1 ((isLast_iff t).mp h)))]
    rw [outsAt_B V c t h0 h1]
    unfold out_B_4 sout_B_0 sout_B_1; (try dsimp only)
    rw [PhiS_castSucc V c t, PhiS_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) _ _).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _)
          · unfold owns; iexists _; isplitr
            swap; · iexact HS1
            ipureintro; exact View.read_writes_of_cover _ _ _ _ _ (scover_B_1 c _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_4 c _ _ _ _ _ _ _ _ _ _ _ _ _ _ _ _ _ _ _ _ _ _ _ _ _ _ _)
    isplitl [H5]; · iexists _; iexact H5
    iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout (c : Dev nD) : (dat V c).Φ (Fin.last cfg1.N) ⊢ (Pipeline.ΦA spec1 c : sProp 𝕄) :=
  Phi_out V c _ (by rw [Fin.val_last]; have : cfg1.N = 8 := N_1; omega)

end Cert.Kernel.R1

end
-- ==== Proof.K.Region2.lean ====
/-
  Region 2 of the kernel program (the normalisation and the residual, block by block), at the buffer contents
  `V` the region is entered from.
-/
import proofs.«131456_j40999757807684_1_alg».proof.Proof.Gen.Kernel.Launch
import proofs.«131456_j40999757807684_1_alg».proof.Proof.Gen.Kernel.Skeleton
import proofs.«131456_j40999757807684_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output block holds after point `t`. -/
def zBlk (c : Dev nD) (t : Fin cfg2.N) : Vec F S1024x512 .f32 :=
  k2_pay1 (iblk V c 0 t) (iblk V c 1 t) (iblk V c 2 t) (iblk V c 3 t) (iblk V c 4 t) (iblk V c 5 t)

/-! ## What the body finds in each input window's buffer

An input window's staging buffer holds the window's block at every point: where the pipeline fetched it, by the
fetch; where it did not (the four rows, after the first point), the block index has not moved since the point
before and the body left the buffer as it found it. Stated for ANY proof data over the region-entry arrays whose
body leaves the block in place. -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [1024×512] staging buffer, as the rectangle the body loads and stores it through. -/
abbrev rBlk : Rect S1024x512 := Rect.unit (s := S1024x512) ![0, 0] S1024x512.size inb_S1024x512_S1024x512_0_0
/-- The whole [1×512] staging buffer of a row. -/
abbrev rRow : Rect S1x512 := Rect.unit (s := S1x512) ![0, 0] S1x512.size inb_S1x512_S1x512_0_0

/-- Both rectangles sit at offset zero. -/
theorem hz : (![0, 0] : Fin 2 → Nat) = fun _ => 0 := funext fun a => by fin_cases a <;> rfl

/-! ## What the body leaves in the output window's buffer -/

/-- The output window's staging buffer after the body, from the six input buffers' contents: its one store as a
    piece, the payload over what the loads read. -/
def out_6 (x0 x1 : Vec F S1024x512 .f32) (x2 x3 x4 x5 : Vec F S1x512 .f32) : Vec F S1024x512 .f32 :=
  View.canon [⟨rBlk, k2_pay1 (View.ld x0 rBlk) (View.ld x1 rBlk) (View.ld x2 rRow) (View.ld x3 rRow) (View.ld x4 rRow) (View.ld x5 rRow)⟩]

/-- The one store is through the whole buffer, so it covers it. -/
theorem cover_6 (p0 : Vec F S1024x512 .f32) (y : S1024x512.Idx) :
    ∃ pc ∈ ([⟨rBlk, p0⟩] : List (View.Piece (Elt F) S1024x512 .f32)), y ∈ pc.1.set :=
  ⟨_, List.mem_singleton_self _, View.mem_set_unit_zero hz inb_S1024x512_S1024x512_0_0 y⟩

/-- A store through the whole buffer leaves its payload, and a load through the whole buffer reads the contents: the
    buffer ends at the payload of the six contents themselves. -/
theorem out_6_eq (x0 x1 : Vec F S1024x512 .f32) (x2 x3 x4 x5 : Vec F S1x512 .f32) :
    out_6 x0 x1 x2 x3 x4 x5 = k2_pay1 x0 x1 x2 x3 x4 x5 := by
  unfold out_6
  rw [View.canon_unit_zero hz]
  simp only [View.ld_unit_zero (S := S1024x512) hz, View.ld_unit_zero (S := S1x512) hz]

/-! ## The body's triple -/

set_option maxHeartbeats 1000000 in
/-- The kernel body on whole staging memrefs, the inputs' at read contents `x0 … x5` and the output's at anything,
    runs to the continuation holding the inputs' as they were and the output's at `out_6` of them: six loads of the
    inputs, a load of the output buffer whose value nothing reads, and the one store. -/
theorem sound_kernel (c : Dev nD) (E : Set ℕ) (i : grid2.Coords)
    (arg1 : Memref sig .tc .vmem S1024x512 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1024x512 .f32) (harg7 : arg7.IsWhole)
    (x0 x1 : Vec F S1024x512 .f32) (x2 x3 x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_6 _)

/-! ## The pipeline's proof data -/

/-- The proof data of pipeline 2 on core `c`: the arrays as the region finds them; after the body at point `t` each
    input's buffer at its block and the output's at the payload of the six blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => zBlk V c t
  Φ _ := Pipeline.ΦA spec2 c
  q _ := fullShare
  owed _ := 0

theorem A_eq (c : Dev nD) (w : Fin cfg2.W) : (dat V c).A w = V c (Pipeline.arrRef spec2 w) := by
  dsimp only [dat]
theorem q_eq (c : Dev nD) (w : Fin cfg2.W) : (dat V c).q w = fullShare := by
  dsimp only [dat]
theorem owed_eq (c : Dev nD) (t : Fin (cfg2.N + 1)) : (dat V c).owed t = 0 := by
  dsimp only [dat]
theorem recorded_eq (c : Dev nD) (t : Fin (cfg2.N + 1)) : (dat V c).recorded t = Set.univ := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = zBlk V c t := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' memrefs hold their blocks, so the body's triple applies; the invariant and
    the core's debt pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold zBlk
  rw [← out_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W2, bigSep_W2]
  exact sound_body V c t

/-- The invariant at the first and at the last point is the class's own: the scoped rest and the generator
    register. -/
theorem hin (c : Dev nD) : (Pipeline.ΦA spec2 c : sProp 𝕄) ⊢ (dat V c).Φ 0 := .rfl
theorem hout (c : Dev nD) : (dat V c).Φ (Fin.last cfg2.N) ⊢ (Pipeline.ΦA spec2 c : sProp 𝕄) := .rfl

end Cert.Kernel.R2

end
-- ==== Proof.K.Bounds.lean ====
/-
  The kernel program is three kernel regions between two stretches of host reshapes.  This module names what the
  unscoped buffers hold at each boundary — the launch contents, then the reshapes, then each region's output
  arrays at what its write-backs leave — and says which buffers each region leaves alone.
-/
import proofs.«131456_j40999757807684_1_alg».proof.Proof.K.Region0
import proofs.«131456_j40999757807684_1_alg».proof.Proof.K.Region1
import proofs.«131456_j40999757807684_1_alg».proof.Proof.K.Region2
import proofs.«131456_j40999757807684_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At region 0's entry: the launch contents after the first stretch of reshapes. -/
abbrev E1 (c : Dev nD) (b : Ref sig .tc) : Buf (Elt F) ((c : Thread nD τ).loc b) := V1 m c b

/-- What region 0 leaves in its two output arrays: θ (every block written back) and the 256 × 256 matrix
    (written back once, at the last point). -/
def X80 (c : Dev nD) : Buf (Elt F) ((c : Thread nD τ).loc main_v8_0) := (R0.dat (E1 m) c).arrAt 8 cfg0.N
def X81 (c : Dev nD) : Buf (Elt F) ((c : Thread nD τ).loc main_v8_1) := (R0.dat (E1 m) c).arrAt 9 cfg0.N

/-- At region 1's entry. -/
abbrev E2v (c : Dev nD) : Valuation τ sig (Elt F) :=
  Function.update (Function.update (V1 m c) main_v8_0 (X80 m c)) main_v8_1 (X81 m c)
abbrev E2 (c : Dev nD) (b : Ref sig .tc) : Buf (Elt F) ((c : Thread nD τ).loc b) := E2v m c b

/-- What region 1 leaves in its three output arrays: w, the column mean, the reciprocal standard deviation. -/
def X90 (c : Dev nD) : Buf (Elt F) ((c : Thread nD τ).loc main_v9_0) := (R1.dat (E2 m) c).arrAt 4 cfg1.N
def X91 (c : Dev nD) : Buf (Elt F) ((c : Thread nD τ).loc main_v9_1) := (R1.dat (E2 m) c).arrAt 5 cfg1.N
def X92 (c : Dev nD) : Buf (Elt F) ((c : Thread nD τ).loc main_v9_2) := (R1.dat (E2 m) c).arrAt 6 cfg1.N

/-- At region 2's entry. -/
abbrev E3v (c : Dev nD) : Valuation τ sig (Elt F) :=
  Function.update (Function.update (Function.update (E2v m c) main_v9_0 (X90 m c)) main_v9_1 (X91 m c)) main_v9_2 (X92 m c)
abbrev E3 (c : Dev nD) (b : Ref sig .tc) : Buf (Elt F) ((c : Thread nD τ).loc b) := E3v m c b

/-- What region 2 leaves in its output array. -/
def X10 (c : Dev nD) : Buf (Elt F) ((c : Thread nD τ).loc main_v10) := (R2.dat (E3 m) c).arrAt 6 cfg2.N

/-- After region 2. -/
abbrev E4v (c : Dev nD) : Valuation τ sig (Elt F) := Function.update (E3v m c) main_v10 (X10 m c)
abbrev E4 (c : Dev nD) (b : Ref sig .tc) : Buf (Elt F) ((c : Thread nD τ).loc b) := E4v m c b

/-- The regions' output arrays after each region, as one table. -/
def outs : Outs (F := F) := fun _ r c =>
  if h : r = main_v8_0 then h ▸ X80 m c
  else if h : r = main_v8_1 then h ▸ X81 m c
  else if h : r = main_v9_0 then h ▸ X90 m c
  else if h : r = main_v9_1 then h ▸ X91 m c
  else if h : r = main_v9_2 then h ▸ X92 m c
  else if h : r = main_v10 then h ▸ X10 m c
  else V0 m c r

theorem outs_80 (J : ℕ) (c : Dev nD) : outs m J main_v8_0 c = X80 m c := by
  unfold outs; rw [dif_pos rfl]
theorem outs_81 (J : ℕ) (c : Dev nD) : outs m J main_v8_1 c = X81 m c := by
  unfold outs; rw [dif_neg (by decide), dif_pos rfl]
theorem outs_90 (J : ℕ) (c : Dev nD) : outs m J main_v9_0 c = X90 m c := by
  unfold outs; rw [dif_neg (by decide), dif_neg (by decide), dif_pos rfl]
theorem outs_91 (J : ℕ) (c : Dev nD) : outs m J main_v9_1 c = X91 m c := by
  unfold outs; rw [dif_neg (by decide), dif_neg (by decide), dif_neg (by decide), dif_pos rfl]
theorem outs_92 (J : ℕ) (c : Dev nD) : outs m J main_v9_2 c = X92 m c := by
  unfold outs; rw [dif_neg (by decide), dif_neg (by decide), dif_neg (by decide), dif_neg (by decide), dif_pos rfl]
theorem outs_10 (J : ℕ) (c : Dev nD) : outs m J main_v10 c = X10 m c := by
  unfold outs; rw [dif_neg (by decide), dif_neg (by decide), dif_neg (by decide), dif_neg (by decide), dif_neg (by decide), dif_pos rfl]

theorem V2_eq (c : Dev nD) : V2 m (outs m) c = E2v m c := by
  show Function.update (Function.update (V1 m c) main_v8_0 (outs m 2 main_v8_0 c)) main_v8_1 (outs m 2 main_v8_1 c) = _
  rw [outs_80, outs_81]
theorem V3_eq (c : Dev nD) : V3 m (outs m) c = E3v m c := by
  show Function.update (Function.update (Function.update (V2 m (outs m) c) main_v9_0 (outs m 3 main_v9_0 c)) main_v9_1 (outs m 3 main_v9_1 c)) main_v9_2 (outs m 3 main_v9_2 c) = _
  rw [outs_90, outs_91, outs_92, V2_eq]
theorem V4_eq (c : Dev nD) : V4 m (outs m) c = E4v m c := by
  show Function.update (V3 m (outs m) c) main_v10 (outs m 4 main_v10 c) = _
  rw [outs_10, V3_eq]

/-! ## What a region leaves alone, and what it leaves in its arrays -/

theorem E2_of (c : Dev nD) (r : Ref sig .tc) (h : r ∉ ([main_v8_0, main_v8_1] : List (Ref sig .tc))) : E2 m c r = E1 m c r := by
  rw [show E2 m c r = V2 m (outs m) c r from by rw [V2_eq]]; exact V2_of m (outs m) c r h
theorem E3_of (c : Dev nD) (r : Ref sig .tc) (h : r ∉ ([main_v9_0, main_v9_1, main_v9_2] : List (Ref sig .tc))) : E3 m c r = E2 m c r := by
  rw [show E3 m c r = V3 m (outs m) c r from by rw [V3_eq], show E2 m c r = V2 m (outs m) c r from by rw [V2_eq]]; exact V3_of m (outs m) c r h
theorem E4_of (c : Dev nD) (r : Ref sig .tc) (h : r ∉ ([main_v10] : List (Ref sig .tc))) : E4 m c r = E3 m c r := by
  rw [show E4 m c r = V4 m (outs m) c r from by rw [V4_eq], show E3 m c r = V3 m (outs m) c r from by rw [V3_eq]]; exact V4_of m (outs m) c r h

theorem E2_80 (c : Dev nD) : E2 m c main_v8_0 = X80 m c :=
  (Function.update_of_ne (StableHlo.devRef_ne_of_ne (by decide : (main_v8_0 : Ref sig .tc) ≠ main_v8_1)) _ _).trans (Function.update_self _ _ _)
theorem E2_81 (c : Dev nD) : E2 m c main_v8_1 = X81 m c := Function.update_self _ _ _
theorem E3_90 (c : Dev nD) : E3 m c main_v9_0 = X90 m c :=
  (Function.update_of_ne (StableHlo.devRef_ne_of_ne (by decide : (main_v9_0 : Ref sig .tc) ≠ main_v9_2)) _ _).trans
    ((Function.update_of_ne (StableHlo.devRef_ne_of_ne (by decide : (main_v9_0 : Ref sig .tc) ≠ main_v9_1)) _ _).trans (Function.update_self _ _ _))
theorem E3_91 (c : Dev nD) : E3 m c main_v9_1 = X91 m c :=
  (Function.update_of_ne (StableHlo.devRef_ne_of_ne (by decide : (main_v9_1 : Ref sig .tc) ≠ main_v9_2)) _ _).trans (Function.update_self _ _ _)
theorem E3_92 (c : Dev nD) : E3 m c main_v9_2 = X92 m c := Function.update_self _ _ _
theorem E4_10 (c : Dev nD) : E4 m c main_v10 = X10 m c := Function.update_self _ _ _

/-- After region 0 each of its arrays holds what the pipeline leaves: an input as entered, an output its write-backs. -/
theorem hF0 (c : Dev nD) : ∀ w : Fin 10, (R0.dat (E1 m) c).arrAt w cfg0.N = E2 m c (Pipeline.arrRef spec0 w)
  | ⟨0, _⟩ => ((R0.dat (E1 m) c).arrAt_in 0 rfl _).trans ((R0.A_eq (E1 m) c 0).trans (E2_of m c _ (by decide)).symm)
  | ⟨1, _⟩ => ((R0.dat (E1 m) c).arrAt_in 1 rfl _).trans ((R0.A_eq (E1 m) c 1).trans (E2_of m c _ (by decide)).symm)
  | ⟨2, _⟩ => ((R0.dat (E1 m) c).arrAt_in 2 rfl _).trans ((R0.A_eq (E1 m) c 2).trans (E2_of m c _ (by decide)).symm)
  | ⟨3, _⟩ => ((R0.dat (E1 m) c).arrAt_in 3 rfl _).trans ((R0.A_eq (E1 m) c 3).trans (E2_of m c _ (by decide)).symm)
  | ⟨4, _⟩ => ((R0.dat (E1 m) c).arrAt_in 4 rfl _).trans ((R0.A_eq (E1 m) c 4).trans (E2_of m c _ (by decide)).symm)
  | ⟨5, _⟩ => ((R0.dat (E1 m) c).arrAt_in 5 rfl _).trans ((R0.A_eq (E1 m) c 5).trans (E2_of m c _ (by decide)).symm)
  | ⟨6, _⟩ => ((R0.dat (E1 m) c).arrAt_in 6 rfl _).trans ((R0.A_eq (E1 m) c 6).trans (E2_of m c _ (by decide)).symm)
  | ⟨7, _⟩ => ((R0.dat (E1 m) c).arrAt_in 7 rfl _).trans ((R0.A_eq (E1 m) c 7).trans (E2_of m c _ (by decide)).symm)
  | ⟨8, _⟩ => (E2_80 m c).symm
  | ⟨9, _⟩ => (E2_81 m c).symm
theorem hrest0 (c : Dev nD) : ∀ b, b ∉ Finset.univ.image (Pipeline.arrRef spec0) → E2 m c b = E1 m c b := fun b hb =>
  E2_of m c b fun hm => hb (by
    simp only [List.mem_cons, List.mem_nil_iff, or_false] at hm
    rcases hm with rfl | rfl
    · exact Finset.mem_image.mpr ⟨8, Finset.mem_univ _, rfl⟩
    · exact Finset.mem_image.mpr ⟨9, Finset.mem_univ _, rfl⟩)

theorem hF1 (c : Dev nD) : ∀ w : Fin 7, (R1.dat (E2 m) c).arrAt w cfg1.N = E3 m c (Pipeline.arrRef spec1 w)
  | ⟨0, _⟩ => ((R1.dat (E2 m) c).arrAt_in 0 rfl _).trans ((R1.A_eq (E2 m) c 0).trans (E3_of m c _ (by decide)).symm)
  | ⟨1, _⟩ => ((R1.dat (E2 m) c).arrAt_in 1 rfl _).trans ((R1.A_eq (E2 m) c 1).trans (E3_of m c _ (by decide)).symm)
  | ⟨2, _⟩ => ((R1.dat (E2 m) c).arrAt_in 2 rfl _).trans ((R1.A_eq (E2 m) c 2).trans (E3_of m c _ (by decide)).symm)
  | ⟨3, _⟩ => ((R1.dat (E2 m) c).arrAt_in 3 rfl _).trans ((R1.A_eq (E2 m) c 3).trans (E3_of m c _ (by decide)).symm)
  | ⟨4, _⟩ => (E3_90 m c).symm
  | ⟨5, _⟩ => (E3_91 m c).symm
  | ⟨6, _⟩ => (E3_92 m c).symm
theorem hrest1 (c : Dev nD) : ∀ b, b ∉ Finset.univ.image (Pipeline.arrRef spec1) → E3 m c b = E2 m c b := fun b hb =>
  E3_of m c b fun hm => hb (by
    simp only [List.mem_cons, List.mem_nil_iff, or_false] at hm
    rcases hm with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

theorem hF2 (c : Dev nD) : ∀ w : Fin 7, (R2.dat (E3 m) c).arrAt w cfg2.N = E4 m c (Pipeline.arrRef spec2 w)
  | ⟨0, _⟩ => ((R2.dat (E3 m) c).arrAt_in 0 rfl _).trans ((R2.A_eq (E3 m) c 0).trans (E4_of m c _ (by decide)).symm)
  | ⟨1, _⟩ => ((R2.dat (E3 m) c).arrAt_in 1 rfl _).trans ((R2.A_eq (E3 m) c 1).trans (E4_of m c _ (by decide)).symm)
  | ⟨2, _⟩ => ((R2.dat (E3 m) c).arrAt_in 2 rfl _).trans ((R2.A_eq (E3 m) c 2).trans (E4_of m c _ (by decide)).symm)
  | ⟨3, _⟩ => ((R2.dat (E3 m) c).arrAt_in 3 rfl _).trans ((R2.A_eq (E3 m) c 3).trans (E4_of m c _ (by decide)).symm)
  | ⟨4, _⟩ => ((R2.dat (E3 m) c).arrAt_in 4 rfl _).trans ((R2.A_eq (E3 m) c 4).trans (E4_of m c _ (by decide)).symm)
  | ⟨5, _⟩ => ((R2.dat (E3 m) c).arrAt_in 5 rfl _).trans ((R2.A_eq (E3 m) c 5).trans (E4_of m c _ (by decide)).symm)
  | ⟨6, _⟩ => (E4_10 m c).symm
theorem hrest2 (c : Dev nD) : ∀ b, b ∉ Finset.univ.image (Pipeline.arrRef spec2) → E4 m c b = E3 m c b := fun b hb =>
  E4_of m c b fun hm => hb (by
    simp only [List.mem_cons, List.mem_nil_iff, or_false] at hm
    rcases hm with rfl
    exact Finset.mem_image.mpr ⟨6, Finset.mem_univ _, rfl⟩)

end Cert.Kernel.Run

end
-- ==== Proof.K.Run.lean ====
/-
  The kernel program's run: @main as five items — the reshapes, three kernel regions, the last reshape —, each
  region entered from every unscoped buffer at the boundary's contents and left at the next boundary's, so that
  the run ends with the result buffer at a named term and every argument as launched.
-/
import proofs.«131456_j40999757807684_1_alg».proof.Proof.K.Bounds

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => R0.dat (E1 m) c
  | ⟨1, _⟩ => fun c => R1.dat (E2 m) c
  | ⟨2, _⟩ => fun c => R2.dat (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item of @main: the core's generator register at some state and its
    debts, none. -/
abbrev Rst (c : Dev nD) : sProp 𝕄 := iprop((∃ r, prngReg c r) ∗ ∃ W, owes (c : Thread nD τ) (0 : CellTallies nD τ sig Unit) W)

/-! ## The regions as segments -/

-- the library's lemmas are stated over `pin pcs a p`: unification must unfold plain definitions in a metavariable's type
set_option backward.isDefEq.respectTransparency.types false in
/-- Region 0 as a segment of @main: entered from every unscoped buffer at the boundary's contents, left at the next
    boundary's; its arrays split out of the unscoped buffers and put back at what the write-backs leave; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun c t => R0.owed_eq (E1 m) c t
  pre c := iprop(StableHlo.held (c : Thread nD τ) (Pipeline.ucRefs τ sig) (V1 m c) ∗ Rst c)
  post c := iprop(StableHlo.held (c : Thread nD τ) (Pipeline.ucRefs τ sig) (E2v m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => R0.q_eq (E1 m) c w) (E1 m c) fun w => R0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from R0.owed_eq (E1 m) c 0]
      icases HO with ⟨%W, HO⟩; iexists W; isplitr; · ipureintro; exact fun _ _ => Or.inl (by rw [show (pdats m 0 c).recorded 0 = Set.univ from R0.recorded_eq (E1 m) c 0]; trivial)
      iexact HO
    isplitl [Hp]; · iexact Hp
    iexact Hrest
  hin c := by
    refine BIBase.Entails.trans ?_ (R0.hin (E1 m) c)
    unfold Pipeline.ΦA
    iintro ⟨Hp, -, Hr⟩
    isplitl [Hr]; · iexact Hr
    iexact Hp
  hout c := by
    rw [Pipeline.ownSems0_none]
    refine BIBase.Entails.trans (R0.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => R0.q_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from R0.owed_eq (E1 m) c _]
    icases HO with ⟨%W, -, HO⟩; iexists W; iexact HO

-- the library's lemmas are stated over `pin pcs a p`: unification must unfold plain definitions in a metavariable's type
set_option backward.isDefEq.respectTransparency.types false in
/-- Region 1 as a segment of @main: entered from every unscoped buffer at the boundary's contents, left at the next
    boundary's; its arrays split out of the unscoped buffers and put back at what the write-backs leave; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E2 m) c).loose
  hwaits := Pipeline.hwaits_of_owed_zero _ _ _ _ L lv 1 fun c t => R1.owed_eq (E2 m) c t
  pre c := iprop(StableHlo.held (c : Thread nD τ) (Pipeline.ucRefs τ sig) (E2v m c) ∗ Rst c)
  post c := iprop(StableHlo.held (c : Thread nD τ) (Pipeline.ucRefs τ sig) (E3v m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun w => R1.q_eq (E2 m) c w) (E2 m c) fun w => R1.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from R1.owed_eq (E2 m) c 0]
      icases HO with ⟨%W, HO⟩; iexists W; isplitr; · ipureintro; exact fun _ _ => Or.inl (by rw [show (pdats m 1 c).recorded 0 = Set.univ from R1.recorded_eq (E2 m) c 0]; trivial)
      iexact HO
    isplitl [Hp]; · iexact Hp
    iexact Hrest
  hin c := by
    refine BIBase.Entails.trans ?_ (R1.hin (E2 m) c)
    unfold Pipeline.ΦA
    iintro ⟨Hp, -, Hr⟩
    isplitl [Hr]; · iexact Hr
    iexact Hp
  hout c := by
    rw [Pipeline.ownSems0_none]
    refine BIBase.Entails.trans (R1.hout (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => R1.q_eq (E2 m) c w)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from R1.owed_eq (E2 m) c _]
    icases HO with ⟨%W, -, HO⟩; iexists W; iexact HO

-- the library's lemmas are stated over `pin pcs a p`: unification must unfold plain definitions in a metavariable's type
set_option backward.isDefEq.respectTransparency.types false in
/-- Region 2 as a segment of @main: entered from every unscoped buffer at the boundary's contents, left at the next
    boundary's; its arrays split out of the unscoped buffers and put back at what the write-backs leave; the generator
    register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E3 m) c).loose
  hwaits := Pipeline.hwaits_of_owed_zero _ _ _ _ L lv 2 fun c t => R2.owed_eq (E3 m) c t
  pre c := iprop(StableHlo.held (c : Thread nD τ) (Pipeline.ucRefs τ sig) (E3v m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun w => R2.q_eq (E3 m) c w) (E3 m c) fun w => R2.A_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from R2.owed_eq (E3 m) c 0]
      icases HO with ⟨%W, HO⟩; iexists W; isplitr; · ipureintro; exact fun _ _ => Or.inl (by rw [show (pdats m 2 c).recorded 0 = Set.univ from R2.recorded_eq (E3 m) c 0]; trivial)
      iexact HO
    isplitl [Hp]; · iexact Hp
    iexact Hrest
  hin c := by
    refine BIBase.Entails.trans ?_ (R2.hin (E3 m) c)
    unfold Pipeline.ΦA
    iintro ⟨Hp, -, Hr⟩
    isplitl [Hr]; · iexact Hr
    iexact Hp
  hout c := by
    rw [Pipeline.ownSems0_none]
    refine BIBase.Entails.trans (R2.hout (E3 m) c) ?_
    unfold Pipeline.ΦA
    iintro ⟨Hr, Hp⟩
    isplitl [Hp]; · iexact Hp
    isplitr; · iempintro
    iexact Hr
  hexit c := by
    rw [V4_eq m c]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => R2.q_eq (E3 m) c w)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from R2.owed_eq (E3 m) c _]
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents — the reshape of what region 2 leaves — and every argument as
    launched. -/
theorem run_main : θ_run defs (onTc (τ := τ) (main (F := F))) ⟨m, fun _ => 0, ρ⟩ (fun r => ∀ c : Dev nD,
      r.2.mem ((c.tc : Thread nD τ).loc main_v11) = V5 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m) (reg2 m))
    (fun c Q => by
      rewrite [main_chain c, Pipeline.Seg.run_eq_chain,
        show (segs m (outs m) 𝒱₀ L lv (fun _ => Rst) () (pdats m) (reg0 m) (reg1 m) (reg2 m) c).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl,
      sep_mono .rfl (by iintro ⟨-, H⟩; iexact H)⟩)
    (hinit := ?_) (QY := fun c s => s.mem ((c.tc : Thread nD τ).loc main_v11) = V5 m (outs m) c main_v11
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: each core's unscoped buffers are held at the launch contents; the generator register and the debts ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c),
        (h (Proc.devRef .tc main_arg11) (Finset.mem_filter.mpr ⟨StableHlo.devRef_mem_tcRefs main_arg11, by decide⟩)).trans (V5_main_arg11 m (outs m) c)⟩
    · iexact HSI

end Cert.Kernel.Run

end
-- ==== Proof.KI.Region0.lean ====
/-
  Region 0 of the kernel program (the projections and the 256 × 256 accumulator), at the buffer contents `V`
  the region is entered from.
-/
import proofs.«131456_j40999757807684_1_alg».proof.Proof.Gen.KernelIdeal.Launch
import proofs.«131456_j40999757807684_1_alg».proof.Proof.Gen.KernelIdeal.Skeleton
import proofs.«131456_j40999757807684_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the θ output block holds after point `t`: the first projection of the point's `xh` block. -/
def thetaBlk (c : Dev nD) (t : Fin cfg0.N) : Vec F S1024x256 .f32 :=
  k0_pay4 (iblk V c 0 t) (iblk V c 4 t) (iblk V c 5 t)

/-- One point's contribution added to what the accumulator held: `acc + φ_tᵀ g_t`. -/
def accStep (c : Dev nD) (t : Fin cfg0.N) (acc : Vec F S256x256 .f32) : Vec F S256x256 .f32 :=
  k0_pay1 (k0_pay5 (iblk V c 1 t) (iblk V c 6 t) (iblk V c 7 t)) (k0_pay6 (iblk V c 1 t) (iblk V c 2 t) (iblk V c 3 t))
    (constant S256x256 .f32 0x00000000#32) acc

/-- The accumulator after point `n`: zeroed at the first point, then one contribution per point. -/
def accAt (c : Dev nD) : (n : ℕ) → n < cfg0.N → Vec F S256x256 .f32
  | 0, hn => accStep V c ⟨0, hn⟩ (k0_pay2 (F := F))
  | n + 1, hn => accStep V c ⟨n + 1, hn⟩ (accAt c n (Nat.lt_of_succ_lt hn))

/-! ## The body's two conditionals, in closed form over the grid -/

/-- The first conditional (the accumulator is zeroed): the grid coordinate is 0. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-- The second conditional (the accumulator is copied to its output window): the grid coordinate is 7. -/
abbrev cond1 (i : grid0.Coords) : Prop := k0_cond2 i = 1#1
/-- It holds at the last point only. -/
theorem hcond1 : ∀ t : Fin cfg0.N, cond1 (grid0.coords t) ↔ t.val = 7 :=
  (by decide +kernel : ∀ t : Fin grid0.N, cond1 (grid0.coords t) ↔ t.val = 7)

/-- The offsets of a whole block's rectangle are zero. -/
theorem hz2 : (![0, 0] : Fin 2 → Nat) = fun _ => 0 := funext fun a => by fin_cases a <;> rfl

/-! ## The body's run, case by case

Three cases of the two conditionals: A, the first point (the accumulator is zeroed, then updated); B, a point strictly
between (updated only); C, the last point (updated, then copied to its output window). -/
set_option maxHeartbeats 4000000 in
/-- The body in case A: on whole staging memrefs, the inputs' at their blocks, it runs to the continuation with the inputs' as they were
    and each buffer it stored into at its pieces written (last first); the pieces are the witness. -/
noncomputable def kernelRun_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    Σ' (L8 : List (View.Piece (Elt F) S1024x256 .f32)), { LS : List (View.Piece (Elt F) S256x256 .f32) //
      ∀ (xi9 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, fun xi9 E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS

/-- In case A the stores into the θ window's buffer cover it. -/
theorem cover8_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S1024x256.Idx) :
    ∃ pc ∈ (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1024x256.size (by sl_kernel_rfl) y

/-- In case A the stores into the accumulator cover it. -/
theorem coverS_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (y : S256x256.Idx) :
    ∃ pc ∈ (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S256x256.size (by sl_kernel_rfl) y

/-- What case A leaves in the θ window's buffer: the first projection of the `xh` block. -/
theorem canon8_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    View.canon (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 = k0_pay4 x0 x4 x5 := by
  unfold kernelRun_A; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case A leaves in the accumulator: the point's contribution added to the zeros it was reset to. -/
theorem canonS_A (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) :
    View.canon (kernelRun_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 = k0_pay1 (k0_pay5 x1 x6 x7) (k0_pay6 x1 x2 x3) (constant S256x256 .f32 0x00000000#32) (k0_pay2 (F := F)) := by
  unfold kernelRun_A; dsimp only; sl_unfold_words
  rw [View.canon_cons_unit_zero (S := S256x256) hz2, View.readCov_unit_zero (S := S256x256) _ hz2]
  simp only [View.readAt_eq_ld, harg2.read_unread, harg3.read_unread, harg4.read_unread, harg7.read_unread, harg8.read_unread, View.ld_unit_zero (S := S1024x512) hz2, View.ld_unit_zero (S := S1024x256) hz2, View.ld_unit_zero (S := S512x256) hz2, View.ld_unit_zero (S := S256x256) hz2, View.ld_unit_zero (S := S1x256) hz2]

set_option maxHeartbeats 4000000 in
/-- The body in case B: on whole staging memrefs, the inputs' at their blocks, it runs to the continuation with the inputs' as they were
    and each buffer it stored into at its pieces written (last first); the pieces are the witness. -/
noncomputable def kernelRun_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    Σ' (L8 : List (View.Piece (Elt F) S1024x256 .f32)), { LS : List (View.Piece (Elt F) S256x256 .f32) //
      ∀ (xi9 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, fun xi9 E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    iexists _; iexact HS

/-- In case B the stores into the θ window's buffer cover it. -/
theorem cover8_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S1024x256.Idx) :
    ∃ pc ∈ (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 S1024x256.size (by sl_kernel_rfl) y

/-- In case B the stores into the accumulator cover it. -/
theorem coverS_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 S256x256.size (by sl_kernel_rfl) y

/-- What case B leaves in the θ window's buffer: the first projection of the `xh` block. -/
theorem canon8_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 = k0_pay4 x0 x4 x5 := by
  unfold kernelRun_B; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case B leaves in the accumulator: the point's contribution added to what it held. -/
theorem canonS_B (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : ¬cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 = k0_pay1 (k0_pay5 x1 x6 x7) (k0_pay6 x1 x2 x3) (constant S256x256 .f32 0x00000000#32) xs := by
  unfold kernelRun_B; dsimp only; sl_unfold_words
  rw [View.canon_unit_zero hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

set_option maxHeartbeats 4000000 in
/-- The body in case C: on whole staging memrefs, the inputs' at their blocks, it runs to the continuation with the inputs' as they were
    and each buffer it stored into at its pieces written (last first); the pieces are the witness. -/
noncomputable def kernelRun_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    Σ' (L8 : List (View.Piece (Elt F) S1024x256 .f32)) (L9 : List (View.Piece (Elt F) S256x256 .f32)), { LS : List (View.Piece (Elt F) S256x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__proj_kernel_eq_skeleton]; unfold cc0__proj_kernel_skel; simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact HS

/-- In case C the stores into the θ window's buffer cover it. -/
theorem cover8_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S1024x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 S1024x256.size (by sl_kernel_rfl) y

/-- In case C the stores into the accumulator cover it. -/
theorem coverS_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1 S256x256.size (by sl_kernel_rfl) y

/-- What case C leaves in the θ window's buffer: the first projection of the `xh` block. -/
theorem canon8_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).1 = k0_pay4 x0 x4 x5 := by
  unfold kernelRun_C; dsimp only; sl_unfold_words
  rw [View.canon_unit_zero hz2]
  simp only [View.readAt_eq_ld, harg1.read_unread, harg5.read_unread, harg6.read_unread, View.ld_unit_zero (S := S1024x512) hz2, View.ld_unit_zero (S := S1024x256) hz2, View.ld_unit_zero (S := S512x256) hz2, View.ld_unit_zero (S := S256x256) hz2, View.ld_unit_zero (S := S1x256) hz2]

/-- What case C leaves in the accumulator: the point's contribution added to what it held. -/
theorem canonS_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.2.1 = k0_pay1 (k0_pay5 x1 x6 x7) (k0_pay6 x1 x2 x3) (constant S256x256 .f32 0x00000000#32) xs := by
  unfold kernelRun_C; dsimp only; sl_unfold_words
  rw [View.canon_unit_zero hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

/-- In case C the store into the accumulator's output window covers it. -/
theorem cover9_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) (y : S256x256.Idx) :
    ∃ pc ∈ (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 S256x256.size (by sl_kernel_rfl) y

/-- What case C leaves in the accumulator's output window: the accumulator as the point has just updated it. -/
theorem canon9_C (c : Dev nD) (i : grid0.Coords) (arg1 : Memref sig .tc .vmem S1024x512 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S256x256 .f32) (harg10 : arg10.IsWhole) (arg11 : Memref sig .tc .vmem S256x256 .f32) (harg11 : arg11.IsWhole) (hc0 : ¬cond0 i) (hc1 : cond1 i)
    (x0 : Vec F S1024x512 .f32) (x1 : Vec F S1024x256 .f32) (x2 : Vec F S256x256 .f32) (x3 : Vec F S1x256 .f32) (x4 : Vec F S512x256 .f32) (x5 : Vec F S1x256 .f32) (x6 : Vec F S256x256 .f32) (x7 : Vec F S1x256 .f32) (xs : Vec F S256x256 .f32) :
    View.canon (kernelRun_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs).2.1 = k0_pay1 (k0_pay5 x1 x6 x7) (k0_pay6 x1 x2 x3) (constant S256x256 .f32 0x00000000#32) xs := by
  unfold kernelRun_C; dsimp only; sl_unfold_words
  rw [View.canon_unit_zero hz2, View.readCov_unit_zero (S := S256x256) _ hz2]
  simp only [View.readAt_eq_ld, harg2.read_unread, harg3.read_unread, harg4.read_unread, harg7.read_unread, harg8.read_unread, harg11.read_unread, View.ld_unit_zero (S := S1024x512) hz2, View.ld_unit_zero (S := S1024x256) hz2, View.ld_unit_zero (S := S512x256) hz2, View.ld_unit_zero (S := S256x256) hz2, View.ld_unit_zero (S := S1x256) hz2]

/-- The accumulator after the first point. -/
theorem accAt_first (c : Dev nD) (t : Fin cfg0.N) (h : t.val = 0) :
    accAt V c t.val t.isLt = accStep V c t (k0_pay2 (F := F)) := by
  obtain ⟨n, hn⟩ := t
  cases n with
  | zero => rfl
  | succ n => exact absurd h (Nat.succ_ne_zero n)

/-- The accumulator after a later point: the point's contribution over what the point before left. -/
theorem accAt_later (c : Dev nD) (t : Fin cfg0.N) (h : t.val ≠ 0) :
    accAt V c t.val t.isLt = accStep V c t (accAt V c (t.val - 1) (Nat.lt_of_le_of_lt (Nat.sub_le _ _) t.isLt)) := by
  obtain ⟨n, hn⟩ := t
  cases n with
  | zero => exact absurd rfl h
  | succ n => rfl

/-! ## The invariant: the carried accumulator, the other scoped buffers, the generator register -/

/-- The scratch operand: the whole accumulator buffer. -/
abbrev scM : Memref sig .tc .vmem S256x256 .f32 := Memref.whole cc0_scratch0

/-- Every scoped buffer of the core but this call's staging buffers and its accumulator, at some contents each. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, split at the accumulator: the accumulator at some contents, the other scoped
    buffers unopened, the generator register at some state. -/
theorem PhiA_eq (c : Dev nD) :
    (Pipeline.ΦA spec0 c : sProp 𝕄)
      = iprop(iprop((∃ d, owns (c : Thread nD τ) scM fullShare d) ∗ restBut (F := F) c) ∗ (∃ r, prngReg c r)) := by
  unfold Pipeline.ΦA
  rw [Pipeline.scopedRest_split_of_list spec0 c [cc0_scratch0] (by decide) (by decide)]
  simp only [scM, owns_whole]; try rfl

/-- The invariant before position `n`: before the first point what the launch hands over; afterwards the accumulator
    at what the point before left, the other scoped buffers, the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-! ## The proof data -/

/-- The proof data of pipeline 0 on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => thetaBlk V c t
    | ⟨9, _⟩ => accAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem q_eq (c : Dev nD) (w : Fin cfg0.W) : (dat V c).q w = fullShare := by
  dsimp only [dat]
theorem owed_eq (c : Dev nD) (t : Fin (cfg0.N + 1)) : (dat V c).owed t = 0 := by
  dsimp only [dat]
theorem recorded_eq (c : Dev nD) (t : Fin (cfg0.N + 1)) : (dat V c).recorded t = Set.univ := by
  dsimp only [dat]

/-- The invariant at a point's start. -/
theorem PhiS_castSucc (c : Dev nD) (t : Fin cfg0.N) :
    (dat V c).Φ t.castSucc = PhiS V c t.val (Nat.le_of_lt t.isLt) := by
  dsimp only [dat]; simp only [Fin.coe_castSucc]

/-- What the body leaves in each input window's buffer: the block it found. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]

/-- The θ window's staging buffer after point `t`. -/
theorem after_8 (c : Dev nD) (t : Fin cfg0.N) : (dat V c).after 8 t = thetaBlk V c t := by dsimp only [dat]
/-- The accumulator's output window after point `t` (read only where the point stores it: the last). -/
theorem after_9 (c : Dev nD) (t : Fin cfg0.N) : (dat V c).after 9 t = accAt V c t.val t.isLt := by dsimp only [dat]
/-- The accumulator's output window after the last point (the only point that writes it back). -/
theorem after_9_last (c : Dev nD) (t : Fin cfg0.N) (ht : t.val = 7) :
    (dat V c).after 9 t = accAt V c 7 (by rw [show cfg0.N = 8 from N_0]; omega) := by
  rw [after_9]
  obtain ⟨n, hn⟩ := t
  dsimp only at ht
  subst ht
  rfl

/-- Each input window's current staging buffer holds its block at every point, fetched there or not: unfetched, the
    block index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat V c).before 6 t d = iblk V c 6 t :=
  ((dat V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat V c).before 7 t d = iblk V c 7 t :=
  ((dat V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
/-- Off the last point nothing is stored into the accumulator's output window: it is idle, -/
theorem idleAt_9 : ∀ t : Fin cfg0.N, ¬cond1 (grid0.coords t) → cfg0.idle 9 (grid0.coords t) = true := by decide +kernel
/-- and not written back; -/
theorem noFlush_9 : ∀ t : Fin cfg0.N, ¬cond1 (grid0.coords t) → (cfg0.win 9).flush t = false := by decide +kernel
/-- at the last point it is stored. -/
theorem liveAt_9 : ∀ t : Fin cfg0.N, cond1 (grid0.coords t) → cfg0.idle 9 (grid0.coords t) = false := by decide +kernel

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point. The inputs' buffers hold their blocks; the point is the first, the last, or between, and that
    case's run applies: the invariant hands it the accumulator at what the point before left (at anything before the
    first point) and takes it back at this point's contents; the θ window's buffer ends at the point's projection; the
    accumulator's output window is stored at the last point and handed back untouched elsewhere; the other scoped buffers,
    the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg0.N = 8 from N_0)
  rw [show (dat V c).leavesExact 0 t = owns (c : Thread nD τ) (st0_0 t) fullShare ((dat V c).after 0 t) from by
    unfold Dat.leavesExact; rw [liveAt_0 t], after_0]
  rw [show (dat V c).leavesExact 1 t = owns (c : Thread nD τ) (st0_1 t) fullShare ((dat V c).after 1 t) from by
    unfold Dat.leavesExact; rw [liveAt_1 t], after_1]
  rw [show (dat V c).leavesExact 2 t = owns (c : Thread nD τ) (st0_2 t) fullShare ((dat V c).after 2 t) from by
    unfold Dat.leavesExact; rw [liveAt_2 t], after_2]
  rw [show (dat V c).leavesExact 3 t = owns (c : Thread nD τ) (st0_3 t) fullShare ((dat V c).after 3 t) from by
    unfold Dat.leavesExact; rw [liveAt_3 t], after_3]
  rw [show (dat V c).leavesExact 4 t = owns (c : Thread nD τ) (st0_4 t) fullShare ((dat V c).after 4 t) from by
    unfold Dat.leavesExact; rw [liveAt_4 t], after_4]
  rw [show (dat V c).leavesExact 5 t = owns (c : Thread nD τ) (st0_5 t) fullShare ((dat V c).after 5 t) from by
    unfold Dat.leavesExact; rw [liveAt_5 t], after_5]
  rw [show (dat V c).leavesExact 6 t = owns (c : Thread nD τ) (st0_6 t) fullShare ((dat V c).after 6 t) from by
    unfold Dat.leavesExact; rw [liveAt_6 t], after_6]
  rw [show (dat V c).leavesExact 7 t = owns (c : Thread nD τ) (st0_7 t) fullShare ((dat V c).after 7 t) from by
    unfold Dat.leavesExact; rw [liveAt_7 t], after_7]
  rw [show (dat V c).leavesExact 8 t = owns (c : Thread nD τ) (st0_8 t) fullShare ((dat V c).after 8 t) from by
    unfold Dat.leavesExact; rw [liveAt_8 t], after_8]
  by_cases h0 : t.val = 0
  · have h1 : ¬t.val = 7 := by omega
    rw [Dat.leavesExact_idle (dat V c) 9 t (idleAt_9 t (fun h => h1 ((hcond1 t).mp h))) (noFlush_9 t (fun h => h1 ((hcond1 t).mp h)))]
    rw [PhiS_castSucc V c t, PhiS_zero V c _ _ h0, PhiA_eq, accAt_first V c t h0]
    unfold accStep thetaBlk
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, ⟨%e8, H8⟩, H9, ⟨%es, HS⟩⟩
    isplitl [HS HR Hg]
    · isplitl [HS HR]
      · isplitl [HS]
        · unfold owns; iexists _; isplitr
          swap; · iexact HS
          ipureintro
          exact (View.read_writes_eq_canon _ _ _ (coverS_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))).trans (canonS_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (View.read_writes_eq_canon _ _ _ (cover8_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))).trans (canon8_A c (grid0.coords t) _ _ _ _ _ _ _ _ _ _ _ _ _ _ _ _ _ _ _ _ _ _ ((hcond0 t).mpr h0) (fun h => h1 ((hcond1 t).mp h)) (iblk V c 0 t) (iblk V c 1 t) (iblk V c 2 t) (iblk V c 3 t) (iblk V c 4 t) (iblk V c 5 t) (iblk V c 6 t) (iblk V c 7 t))
    iexists _; iexact H9
  · by_cases h1 : t.val = 7
    · rw [show (dat V c).leavesExact 9 t = owns (c : Thread nD τ) (st0_9 t) fullShare ((dat V c).after 9 t) from by
        unfold Dat.leavesExact; rw [liveAt_9 t ((hcond1 t).mpr h1)], after_9]
      rw [PhiS_castSucc V c t, PhiS_pos V c _ _ h0, accAt_later V c t h0]
      unfold accStep thetaBlk
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS]; · iexact HS
      iintro ⟨H0, H1, H2, H3, H4, H5, H6, H7, ⟨%e8, H8⟩, ⟨%e9, H9⟩, ⟨%es, HS⟩⟩
      isplitl [HS HR Hg]
      · isplitl [HS HR]
        · isplitl [HS]
          · unfold owns; iexists _; isplitr
            swap; · iexact HS
            ipureintro
            exact (View.read_writes_eq_canon _ _ _ (coverS_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canonS_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover8_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon8_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
      unfold owns; iexists _; isplitr
      swap; · iexact H9
      ipureintro
      exact (View.read_writes_eq_canon _ _ _ (cover9_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon9_C c (grid0.coords t) _ _ _ _ _ _ _ _ _ _ _ _ _ _ _ _ _ _ _ _ _ _ (fun h => h0 ((hcond0 t).mp h)) ((hcond1 t).mpr h1) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
    · rw [Dat.leavesExact_idle (dat V c) 9 t (idleAt_9 t (fun h => h1 ((hcond1 t).mp h))) (noFlush_9 t (fun h => h1 ((hcond1 t).mp h)))]
      rw [PhiS_castSucc V c t, PhiS_pos V c _ _ h0, accAt_later V c t h0]
      unfold accStep thetaBlk
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS]; · iexact HS
      iintro ⟨H0, H1, H2, H3, H4, H5, H6, H7, ⟨%e8, H8⟩, H9, ⟨%es, HS⟩⟩
      isplitl [HS HR Hg]
      · isplitl [HS HR]
        · isplitl [HS]
          · unfold owns; iexists _; isplitr
            swap; · iexact HS
            ipureintro
            exact (View.read_writes_eq_canon _ _ _ (coverS_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canonS_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (View.read_writes_eq_canon _ _ _ (cover8_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))).trans (canon8_B c (grid0.coords t) _ _ _ _ _ _ _ _ _ _ _ _ _ _ _ _ _ _ _ _ _ _ (fun h => h0 ((hcond0 t).mp h)) (fun h => h1 ((hcond1 t).mp h)) (iblk V c 0 t) (iblk V c 1 t) (iblk V c 2 t) (iblk V c 3 t) (iblk V c 4 t) (iblk V c 5 t) (iblk V c 6 t) (iblk V c 7 t) (accAt V c (t.val - 1) (Nat.lt_of_le_of_lt (Nat.sub_le _ _) t.isLt)))
      iexists _; iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point, -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- and after the last point the invariant gives it back. -/
theorem hout (c : Dev nD) : (dat V c).Φ (Fin.last cfg0.N) ⊢ (Pipeline.ΦA spec0 c : sProp 𝕄) :=
  Phi_out V c _ (by rw [Fin.val_last]; have : cfg0.N = 8 := N_0; omega)

end Cert.KernelIdeal.R0

end
-- ==== Proof.KI.Region1.lean ====
/-
  Region 1 of the kernel program (`y = θ M / 8192`, `w = y·Ww + bw`, and the column sums of `w` and `w²`
  carried across the grid), at the buffer contents `V` the region is entered from.
-/
import proofs.«131456_j40999757807684_1_alg».proof.Proof.Gen.KernelIdeal.Launch
import proofs.«131456_j40999757807684_1_alg».proof.Proof.Gen.KernelIdeal.Skeleton
import proofs.«131456_j40999757807684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the `w` output block holds after point `t`. -/
def wyBlk (c : Dev nD) (t : Fin cfg1.N) : Vec F S1024x512 .f32 :=
  k1_pay6 (iblk V c 0 t) (iblk V c 1 t) (iblk V c 2 t) (iblk V c 3 t)

/-- The running column sum after one more point. -/
def sumStep (c : Dev nD) (t : Fin cfg1.N) (acc : Vec F S1x512 .f32) : Vec F S1x512 .f32 :=
  k1_pay7 (iblk V c 0 t) (iblk V c 1 t) (iblk V c 2 t) (iblk V c 3 t) acc
/-- The running column sum of squares after one more point. -/
def sqStep (c : Dev nD) (t : Fin cfg1.N) (acc : Vec F S1x512 .f32) : Vec F S1x512 .f32 :=
  k1_pay1 (k1_pay8 (iblk V c 0 t) (iblk V c 1 t) (iblk V c 2 t) (iblk V c 3 t) acc)

/-- The two carried accumulators after point `n`: zeroed at the first point, then one block's column sums per point. -/
def sumAt (c : Dev nD) : (n : ℕ) → n < cfg1.N → Vec F S1x512 .f32
  | 0, hn => sumStep V c ⟨0, hn⟩ (k1_pay4 (F := F))
  | n + 1, hn => sumStep V c ⟨n + 1, hn⟩ (sumAt c n (Nat.lt_of_succ_lt hn))
def sqAt (c : Dev nD) : (n : ℕ) → n < cfg1.N → Vec F S1x512 .f32
  | 0, hn => sqStep V c ⟨0, hn⟩ (k1_pay5 (F := F))
  | n + 1, hn => sqStep V c ⟨n + 1, hn⟩ (sqAt c n (Nat.lt_of_succ_lt hn))

/-! ## The body's two branch conditions, decided over the grid -/

/-- The first `scf.if` of the body: the grid coordinate is 0 (the scratch is reset there). -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val = 0 :=
  (by decide +kernel : ∀ t : Fin grid1.N, isFirst (grid1.coords t) ↔ t.val = 0)

/-- The second `scf.if` of the body: the grid coordinate is 7 (the two statistics are stored there). -/
abbrev isLast (i : grid1.Coords) : Prop := k1_cond2 i = 1#1
/-- It holds at point 7 only. -/
theorem isLast_iff : ∀ t : Fin cfg1.N, isLast (grid1.coords t) ↔ t.val = 7 :=
  (by decide +kernel : ∀ t : Fin grid1.N, isLast (grid1.coords t) ↔ t.val = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Away from the last point the two statistics' windows are idle and are not written back. -/
theorem idle_5 : ∀ t : Fin cfg1.N, ¬isLast (grid1.coords t) → cfg1.idle 5 (grid1.coords t) = true := by decide +kernel
theorem noFlush_5 : ∀ t : Fin cfg1.N, ¬isLast (grid1.coords t) → (cfg1.win 5).flush t = false := by decide +kernel
theorem idle_6 : ∀ t : Fin cfg1.N, ¬isLast (grid1.coords t) → cfg1.idle 6 (grid1.coords t) = true := by decide +kernel
theorem noFlush_6 : ∀ t : Fin cfg1.N, ¬isLast (grid1.coords t) → (cfg1.win 6).flush t = false := by decide +kernel
/-- At the last point they are live. -/
theorem live_5 : ∀ t : Fin cfg1.N, isLast (grid1.coords t) → cfg1.idle 5 (grid1.coords t) = false := by decide +kernel
theorem live_6 : ∀ t : Fin cfg1.N, isLast (grid1.coords t) → cfg1.idle 6 (grid1.coords t) = false := by decide +kernel

/-! ## The body on any staging memrefs, case by case: the pieces each buffer ends with are what the run finds -/

set_option maxHeartbeats 4000000 in
/-- CASE A (the first point: the scratch is reset, nothing stored into the statistics' windows). On whole memrefs —
    the four inputs' at their contents, the `w` block's at anything, the two idle windows' at contents handed back
    untouched, both scratch buffers at anything — the body runs to the continuation holding the inputs' as they were, the
    `w` block's buffer and both scratch buffers with their stores written. -/
noncomputable def kernelRun_A (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    Σ' (L4 : List (View.Piece (Elt F) S1024x512 .f32)) (LS0 : List (View.Piece (Elt F) S1x512 .f32)), { LS1 : List (View.Piece (Elt F) S1x512 .f32) //
      ∀ (xi5 xi6 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- CASE B (a point strictly between the first and the last: no reset, nothing stored into the statistics' windows).
    As case A, with both scratch buffers at the contents the point before left. -/
noncomputable def kernelRun_B (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    Σ' (L4 : List (View.Piece (Elt F) S1024x512 .f32)) (LS0 : List (View.Piece (Elt F) S1x512 .f32)), { LS1 : List (View.Piece (Elt F) S1x512 .f32) //
      ∀ (xi5 xi6 : Vec F S1x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg6.eq_unread hf5; obtain rfl := harg7.eq_unread hf6
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 4000000 in
/-- CASE C (the last point: no reset; the mean and the reciprocal standard deviation are stored). The two statistics'
    buffers come at anything and end with their stores written; both scratch buffers come at the contents the point
    before left. -/
noncomputable def kernelRun_C (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    Σ' (L4 : List (View.Piece (Elt F) S1024x512 .f32)) (L5 : List (View.Piece (Elt F) S1x512 .f32)) (L6 : List (View.Piece (Elt F) S1x512 .f32)) (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__wy_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__wy_kernel_eq_skeleton]; unfold cc1__wy_kernel_skel; simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

/-! ## The staging and scratch memrefs, by their literal types -/

/-- One staging buffer of each output window, through which its contents are stated (the choice does not matter:
    a covering list of writes reads the same through any view). -/
abbrev VO4 : View sig .tc .vmem S1024x512 .f32 := (Memref.whole cc1_stg4_0 : Memref sig .tc .vmem S1024x512 .f32).view
abbrev VO5 : View sig .tc .vmem S1x512 .f32 := (Memref.whole cc1_stg5_0 : Memref sig .tc .vmem S1x512 .f32).view
abbrev VO6 : View sig .tc .vmem S1x512 .f32 := (Memref.whole cc1_stg6_0 : Memref sig .tc .vmem S1x512 .f32).view
/-- Each window's current staging memref at point `t`, spelled as the pipeline passes it, and its wholeness. -/
abbrev ms_0 (t : Fin cfg1.N) : Memref sig .tc .vmem S1024x256 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S256x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x512 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x512 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x512 .f32 := win1_6.stage (cfg1.slots t 6)
abbrev hs_6 (t : Fin cfg1.N) : (ms_6 t).IsWhole := hstage1_6 ((cfg1.slots t 6).cast nbuf1_6)
/-- The two scratch operands the kernel carries between points: the running column sum and the running column sum of
    squares, whole scoped buffers of the call's own. -/
abbrev scM0 : Memref sig .tc .vmem S1x512 .f32 := Memref.whole cc1_scratch0
abbrev scM1 : Memref sig .tc .vmem S1x512 .f32 := Memref.whole cc1_scratch1
abbrev VS0 : View sig .tc .vmem S1x512 .f32 := scM0.view
abbrev VS1 : View sig .tc .vmem S1x512 .f32 := scM1.view

/-- Every scoped buffer that is neither a staging buffer of this call nor one of its two scratch operands: the other
    calls' staging buffers and scratch, which this region never opens. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class invariant with this call's two scratch operands split out of the scoped rest, each a whole memref owned
    at some contents. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest1_split]; simp only [scM0, scM1, owns_whole]; try rfl

/-! ## What each case leaves in each buffer: the found pieces read back -/

/-- At the first point the pieces stored into window 4's buffer tile its block, so they cover it. -/
theorem cover_A_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1024x512.Idx) :
    ∃ pc ∈ (kernelRun_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).1 S1024x512.size (by sl_kernel_rfl) y
/-- What the first point leaves in window 4's staging buffer: its pieces read back. -/
def out_A_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1024x512 .f32 :=
  VO4.read (Elt F) (VO4.writes (Elt F) VO4.junk (kernelRun_A c i arg1 harg1 arg2 harg2 arg3 harg3 arg4 harg4 arg5 harg5 arg6 harg6 arg7 harg7 arg8 harg8 arg9 harg9 hc0 hc1 x0 x1 x2 x3).1)

/-- At the first point the pieces stored into scratch 0 cover it. -/
theorem scover_A_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1x512.Idx) :
    ∃ pc ∈ (kernelRun_A c i arg1 harg1 arg2 harg2 arg3 harg3 arg4 harg4 arg5 harg5 arg6 harg6 arg7 harg7 arg8 harg8 arg9 harg9 hc0 hc1 x0 x1 x2 x3).2.1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).2.1 S1x512.size (by sl_kernel_rfl) y
/-- What the first point leaves in scratch 0: its pieces read back. -/
def sout_A_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1x512 .f32 :=
  VS0.read (Elt F) (VS0.writes (Elt F) VS0.junk (kernelRun_A c i arg1 harg1 arg2 harg2 arg3 harg3 arg4 harg4 arg5 harg5 arg6 harg6 arg7 harg7 arg8 harg8 arg9 harg9 hc0 hc1 x0 x1 x2 x3).2.1)

/-- At the first point the pieces stored into scratch 1 cover it. -/
theorem scover_A_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) (y : S1x512.Idx) :
    ∃ pc ∈ (kernelRun_A c i arg1 harg1 arg2 harg2 arg3 harg3 arg4 harg4 arg5 harg5 arg6 harg6 arg7 harg7 arg8 harg8 arg9 harg9 hc0 hc1 x0 x1 x2 x3).2.2.1, y ∈ pc.1.set :=
  View.cover_of_tiledL (kernelRun_A c i arg1 harg1 arg2 harg2 arg3 harg3 arg4 harg4 arg5 harg5 arg6 harg6 arg7 harg7 arg8 harg8 arg9 harg9 hc0 hc1 x0 x1 x2 x3).2.2.1 S1x512.size (by sl_kernel_rfl) y
/-- What the first point leaves in scratch 1: its pieces read back. -/
def sout_A_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) : Vec F S1x512 .f32 :=
  VS1.read (Elt F) (VS1.writes (Elt F) VS1.junk (kernelRun_A c i arg1 harg1 arg2 harg2 arg3 harg3 arg4 harg4 arg5 harg5 arg6 harg6 arg7 harg7 arg8 harg8 arg9 harg9 hc0 hc1 x0 x1 x2 x3).2.2.1)

/-- At a middle point the pieces stored into window 4's buffer tile its block, so they cover it. -/
theorem cover_B_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1024x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).1 S1024x512.size (by sl_kernel_rfl) y
/-- What a middle point leaves in window 4's staging buffer: its pieces read back. -/
def out_B_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1024x512 .f32 :=
  VO4.read (Elt F) (VO4.writes (Elt F) VO4.junk (kernelRun_B c i arg1 harg1 arg2 harg2 arg3 harg3 arg4 harg4 arg5 harg5 arg6 harg6 arg7 harg7 arg8 harg8 arg9 harg9 hc0 hc1 x0 x1 x2 x3 xs0 xs1).1)

/-- At a middle point the pieces stored into scratch 0 cover it. -/
theorem scover_B_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).2.1 S1x512.size (by sl_kernel_rfl) y
/-- What a middle point leaves in scratch 0: its pieces read back. -/
def sout_B_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1x512 .f32 :=
  VS0.read (Elt F) (VS0.writes (Elt F) VS0.junk (kernelRun_B c i arg1 harg1 arg2 harg2 arg3 harg3 arg4 harg4 arg5 harg5 arg6 harg6 arg7 harg7 arg8 harg8 arg9 harg9 hc0 hc1 x0 x1 x2 x3 xs0 xs1).2.1)

/-- At a middle point the pieces stored into scratch 1 cover it. -/
theorem scover_B_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_B c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_B c i arg1 harg1 arg2 harg2 arg3 harg3 arg4 harg4 arg5 harg5 arg6 harg6 arg7 harg7 arg8 harg8 arg9 harg9 hc0 hc1 x0 x1 x2 x3 xs0 xs1).2.2.1 S1x512.size (by sl_kernel_rfl) y
/-- What a middle point leaves in scratch 1: its pieces read back. -/
def sout_B_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) : Vec F S1x512 .f32 :=
  VS1.read (Elt F) (VS1.writes (Elt F) VS1.junk (kernelRun_B c i arg1 harg1 arg2 harg2 arg3 harg3 arg4 harg4 arg5 harg5 arg6 harg6 arg7 harg7 arg8 harg8 arg9 harg9 hc0 hc1 x0 x1 x2 x3 xs0 xs1).2.2.1)

/-- At the last point the pieces stored into window 4's buffer tile its block, so they cover it. -/
theorem cover_C_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1024x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).1 S1024x512.size (by sl_kernel_rfl) y
/-- What the last point leaves in window 4's staging buffer: its pieces read back. -/
def out_C_4 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1024x512 .f32 :=
  VO4.read (Elt F) (VO4.writes (Elt F) VO4.junk (kernelRun_C c i arg1 harg1 arg2 harg2 arg3 harg3 arg4 harg4 arg5 harg5 arg6 harg6 arg7 harg7 arg8 harg8 arg9 harg9 hc0 hc1 x0 x1 x2 x3 xs0 xs1).1)

/-- At the last point the pieces stored into window 5's buffer tile its block, so they cover it. -/
theorem cover_C_5 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.1 S1x512.size (by sl_kernel_rfl) y
/-- What the last point leaves in window 5's staging buffer: its pieces read back. -/
def out_C_5 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VO5.read (Elt F) (VO5.writes (Elt F) VO5.junk (kernelRun_C c i arg1 harg1 arg2 harg2 arg3 harg3 arg4 harg4 arg5 harg5 arg6 harg6 arg7 harg7 arg8 harg8 arg9 harg9 hc0 hc1 x0 x1 x2 x3 xs0 xs1).2.1)

/-- At the last point the pieces stored into window 6's buffer tile its block, so they cover it. -/
theorem cover_C_6 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.1 S1x512.size (by sl_kernel_rfl) y
/-- What the last point leaves in window 6's staging buffer: its pieces read back. -/
def out_C_6 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VO6.read (Elt F) (VO6.writes (Elt F) VO6.junk (kernelRun_C c i arg1 harg1 arg2 harg2 arg3 harg3 arg4 harg4 arg5 harg5 arg6 harg6 arg7 harg7 arg8 harg8 arg9 harg9 hc0 hc1 x0 x1 x2 x3 xs0 xs1).2.2.1)

/-- At the last point the pieces stored into scratch 0 cover it. -/
theorem scover_C_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.2.1 S1x512.size (by sl_kernel_rfl) y
/-- What the last point leaves in scratch 0: its pieces read back. -/
def sout_C_0 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VS0.read (Elt F) (VS0.writes (Elt F) VS0.junk (kernelRun_C c i arg1 harg1 arg2 harg2 arg3 harg3 arg4 harg4 arg5 harg5 arg6 harg6 arg7 harg7 arg8 harg8 arg9 harg9 hc0 hc1 x0 x1 x2 x3 xs0 xs1).2.2.2.1)

/-- At the last point the pieces stored into scratch 1 cover it. -/
theorem scover_C_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) (y : S1x512.Idx) :
    ∃ pc ∈ (kernelRun_C c i arg1 harg1 arg2 harg2 arg3 harg3 arg4 harg4 arg5 harg5 arg6 harg6 arg7 harg7 arg8 harg8 arg9 harg9 hc0 hc1 x0 x1 x2 x3 xs0 xs1).2.2.2.2.1, y ∈ pc.1.set :=
  View.cover_of_tiledL (kernelRun_C c i arg1 harg1 arg2 harg2 arg3 harg3 arg4 harg4 arg5 harg5 arg6 harg6 arg7 harg7 arg8 harg8 arg9 harg9 hc0 hc1 x0 x1 x2 x3 xs0 xs1).2.2.2.2.1 S1x512.size (by sl_kernel_rfl) y
/-- What the last point leaves in scratch 1: its pieces read back. -/
def sout_C_1 (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) : Vec F S1x512 .f32 :=
  VS1.read (Elt F) (VS1.writes (Elt F) VS1.junk (kernelRun_C c i arg1 harg1 arg2 harg2 arg3 harg3 arg4 harg4 arg5 harg5 arg6 harg6 arg7 harg7 arg8 harg8 arg9 harg9 hc0 hc1 x0 x1 x2 x3 xs0 xs1).2.2.2.2.1)

/-- The contents named for a statistics window at a point where it is idle: nothing consults them (there the window is
    neither written back nor read at the next point). -/
def idleHold : Vec F S1x512 .f32 := VO5.read (Elt F) (VO5.writes (Elt F) VO5.junk [])

/-! ## The found pieces are the named payload terms -/

/-- The whole-block rectangle's offsets are zero. -/
theorem hz : (![0, 0] : Fin 2 → ℕ) = fun _ => 0 := by funext a; fin_cases a <;> rfl

/-- The one store into the `w` block's buffer holds the block's payload over the four input blocks as loaded. -/
theorem out_A_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    out_A_4 c i arg1 harg1 arg2 harg2 arg3 harg3 arg4 harg4 arg5 harg5 arg6 harg6 arg7 harg7 arg8 harg8 arg9 harg9 hc0 hc1 x0 x1 x2 x3 = k1_pay6 x0 x1 x2 x3 := by
  unfold out_A_4
  rw [View.read_writes_eq_canon _ _ _ (cover_A_4 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the first point: the update over the reset value, the later store covering the reset. -/
theorem sout_A_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    sout_A_0 c i arg1 harg1 arg2 harg2 arg3 harg3 arg4 harg4 arg5 harg5 arg6 harg6 arg7 harg7 arg8 harg8 arg9 harg9 hc0 hc1 x0 x1 x2 x3 = k1_pay7 x0 x1 x2 x3 (k1_pay4 (F := F)) := by
  unfold sout_A_0
  rw [View.read_writes_eq_canon _ _ _ (scover_A_0 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the first point, likewise over its reset value. -/
theorem sout_A_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : isFirst i) (hc1 : ¬isLast i)
    (x0 : Vec F S1024x256 .f32) (x1 : Vec F S256x256 .f32) (x2 : Vec F S256x512 .f32) (x3 : Vec F S1x512 .f32) :
    sout_A_1 c i arg1 harg1 arg2 harg2 arg3 harg3 arg4 harg4 arg5 harg5 arg6 harg6 arg7 harg7 arg8 harg8 arg9 harg9 hc0 hc1 x0 x1 x2 x3 = k1_pay1 (k1_pay8 x0 x1 x2 x3 (k1_pay5 (F := F))) := by
  unfold sout_A_1
  rw [View.read_writes_eq_canon _ _ _ (scover_A_1 c i arg1 harg1 arg2 harg2 arg3 harg3 arg4 harg4 arg5 harg5 arg6 harg6 arg7 harg7 arg8 harg8 arg9 harg9 hc0 hc1 x0 x1 x2 x3)]
  unfold kernelRun_A
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The one store into the `w` block's buffer holds the block's payload over the four input blocks as loaded. -/
theorem out_B_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    out_B_4 c i arg1 harg1 arg2 harg2 arg3 harg3 arg4 harg4 arg5 harg5 arg6 harg6 arg7 harg7 arg8 harg8 arg9 harg9 hc0 hc1 x0 x1 x2 x3 xs0 xs1 = k1_pay6 x0 x1 x2 x3 := by
  unfold out_B_4
  rw [View.read_writes_eq_canon _ _ _ (cover_B_4 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the point: the update over what the point before left, loaded back. -/
theorem sout_B_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    sout_B_0 c i arg1 harg1 arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout_B_0
  rw [View.read_writes_eq_canon _ _ _ (scover_B_0 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the point, likewise. -/
theorem sout_B_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : ¬isLast i)
    (x0 : Vec F S1024x256 .f32) (x1 : Vec F S256x256 .f32) (x2 : Vec F S256x512 .f32) (x3 : Vec F S1x512 .f32) (xs0 xs1 : Vec F S1x512 .f32) :
    sout_B_1 c i arg1 harg1 arg2 harg2 arg3 harg3 arg4 harg4 arg5 harg5 arg6 harg6 arg7 harg7 arg8 harg8 arg9 harg9 hc0 hc1 x0 x1 x2 x3 xs0 xs1 = k1_pay1 (k1_pay8 x0 x1 x2 x3 xs1) := by
  unfold sout_B_1
  rw [View.read_writes_eq_canon _ _ _ (scover_B_1 c i arg1 harg1 arg2 harg2 arg3 harg3 arg4 harg4 arg5 harg5 arg6 harg6 arg7 harg7 arg8 harg8 arg9 harg9 hc0 hc1 x0 x1 x2 x3 xs0 xs1)]
  unfold kernelRun_B
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The one store into the `w` block's buffer holds the block's payload over the four input blocks as loaded. -/
theorem out_C_4_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_4 c i arg1 harg1 arg2 harg2 arg3 harg3 arg4 harg4 arg5 harg5 arg6 harg6 arg7 harg7 arg8 harg8 arg9 harg9 hc0 hc1 x0 x1 x2 x3 xs0 xs1 = k1_pay6 x0 x1 x2 x3 := by
  unfold out_C_4
  rw [View.read_writes_eq_canon _ _ _ (cover_C_4 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1024x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum after the point: the update over what the point before left, loaded back. -/
theorem sout_C_0_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    sout_C_0 c i arg1 harg1 arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout_C_0
  rw [View.read_writes_eq_canon _ _ _ (scover_C_0 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The running sum of squares after the point, likewise. -/
theorem sout_C_1_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    sout_C_1 c i arg1 harg1 arg2 harg2 arg3 harg3 arg4 harg4 arg5 harg5 arg6 harg6 arg7 harg7 arg8 harg8 arg9 harg9 hc0 hc1 x0 x1 x2 x3 xs0 xs1 = k1_pay1 (k1_pay8 x0 x1 x2 x3 xs1) := by
  unfold sout_C_1
  rw [View.read_writes_eq_canon _ _ _ (scover_C_1 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The mean's store at the last point: over the running sum loaded back after this point's update. -/
theorem out_C_5_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_5 c i arg1 harg1 arg2 harg2 arg3 harg3 arg4 harg4 arg5 harg5 arg6 harg6 arg7 harg7 arg8 harg8 arg9 harg9 hc0 hc1 x0 x1 x2 x3 xs0 xs1 = k1_pay2 (k1_pay7 x0 x1 x2 x3 xs0) := by
  unfold out_C_5
  rw [View.read_writes_eq_canon _ _ _ (cover_C_5 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-- The reciprocal standard deviation's store at the last point: over both accumulators loaded back after this point's updates. -/
theorem out_C_6_eq (c : Dev nD) (i : grid1.Coords) (arg1 : Memref sig .tc .vmem S1024x256 .f32) (harg1 : arg1.IsWhole) (arg2 : Memref sig .tc .vmem S256x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (hc0 : ¬isFirst i) (hc1 : isLast i)
    (x0 : Vec F S1024x256 .f32) (x1 : Vec F S256x256 .f32) (x2 : Vec F S256x512 .f32) (x3 : Vec F S1x512 .f32) (xs0 xs1 : Vec F S1x512 .f32) :
    out_C_6 c i arg1 harg1 arg2 harg2 arg3 harg3 arg4 harg4 arg5 harg5 arg6 harg6 arg7 harg7 arg8 harg8 arg9 harg9 hc0 hc1 x0 x1 x2 x3 xs0 xs1 = k1_pay3 (k1_pay7 x0 x1 x2 x3 xs0) (k1_pay1 (k1_pay8 x0 x1 x2 x3 xs1)) := by
  unfold out_C_6
  rw [View.read_writes_eq_canon _ _ _ (cover_C_6 c i arg1 harg1 arg2 harg2 arg3 harg3 arg4 harg4 arg5 harg5 arg6 harg6 arg7 harg7 arg8 harg8 arg9 harg9 hc0 hc1 x0 x1 x2 x3 xs0 xs1)]
  unfold kernelRun_C
  dsimp only
  sl_unfold_words
  rw [View.canon_cons_unit_zero (S := S1x512) hz]
  simp only [View.readAt_eq_ld, harg1.read_unread, harg2.read_unread, harg3.read_unread, harg4.read_unread, harg8.read_unread, harg9.read_unread,
    View.ld_unit_zero (S := S1024x256) hz, View.ld_unit_zero (S := S256x256) hz, View.ld_unit_zero (S := S256x512) hz, View.ld_unit_zero (S := S1x512) hz,
    View.readCov_unit_zero (S := S1x512) _ hz]

/-! ## What the outputs and the two carried accumulators hold after each point -/

/-- THE ACCUMULATION. What the three output windows' staging buffers and the two scratch buffers hold after the body at
    position `n` (the outputs in window order, then the scratch): the case the position selects, run at the point's
    memrefs and input blocks, the scratch entering at what position `n - 1` left. -/
def outsAt (c : Dev nD) : (n : ℕ) → n < cfg1.N → Vec F S1024x512 .f32 × Vec F S1x512 .f32 × Vec F S1x512 .f32 × Vec F S1x512 .f32 × Vec F S1x512 .f32
  | 0, hn => (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), idleHold, idleHold, sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩))
  | n + 1, hn =>
    if h1 : n + 1 = 7 then
      (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, out_C_6 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2)
    else
      (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, idleHold, idleHold, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.1 (outsAt c n (Nat.lt_of_succ_lt hn)).2.2.2.2)

/-- `outsAt` at the first point: the reset case's contents. -/
theorem outsAt_A (c : Dev nD) (t : Fin cfg1.N) (h0 : t.val = 0) (h1 : ¬t.val = 7) :
    outsAt V c t.val t.isLt = (out_A_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t), idleHold, idleHold, sout_A_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t), sout_A_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t)) := by
  obtain ⟨n, hn⟩ := t
  cases n with
  | zero => exact rfl
  | succ n => exact absurd h0 (Nat.succ_ne_zero n)

/-- `outsAt` at a middle point: that case's contents, over what the point before left in the scratch. -/
theorem outsAt_B (c : Dev nD) (t : Fin cfg1.N) (h0 : ¬t.val = 0) (h1 : ¬t.val = 7) :
    outsAt V c t.val t.isLt = (out_B_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, idleHold, idleHold, sout_B_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_B_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt` at the last point: that case's contents, over what the point before left in the scratch. -/
theorem outsAt_C (c : Dev nD) (t : Fin cfg1.N) (h0 : ¬t.val = 0) (h1 : t.val = 7) :
    outsAt V c t.val t.isLt = (out_C_4 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The region invariant before position `n`: before the first point the class's (every scoped buffer that is no staging
    buffer at anything, the generator register at some state); afterwards the two carried accumulators at what the point
    before left in them, the other scoped buffers unopened, the generator register at some state. -/
def PhiS (c : Dev nD) : (n : ℕ) → n ≤ cfg1.N → sProp 𝕄
  | 0, _ => Pipeline.ΦA spec1 c
  | n + 1, hn => iprop(iprop(iprop(owns (c : Thread nD τ) scM0 fullShare (outsAt V c n hn).2.2.2.1 ∗ owns (c : Thread nD τ) scM1 fullShare (outsAt V c n hn).2.2.2.2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (outsAt V c n hn).2.2.2.1 ∗ owns (c : Thread nD τ) scM1 fullShare (outsAt V c n hn).2.2.2.2) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (outsAt V c (n - 1) (by omega)).2.2.2.1 ∗ owns (c : Thread nD τ) scM1 fullShare (outsAt V c (n - 1) (by omega)).2.2.2.2) ∗ restBut (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and each output's at `outsAt`'s component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := by
  dsimp only [dat]
theorem owed_eq (c : Dev nD) (t : Fin (cfg1.N + 1)) : (dat V c).owed t = 0 := by
  dsimp only [dat]
theorem recorded_eq (c : Dev nD) (t : Fin (cfg1.N + 1)) : (dat V c).recorded t = Set.univ := by
  dsimp only [dat]

/-- The invariant at a point's start, restated at the point's position. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_in_0 (c : Dev nD) (t : Fin cfg1.N) : (dat V c).after 0 t = iblk V c 0 t := by dsimp only [dat]
theorem after_in_1 (c : Dev nD) (t : Fin cfg1.N) : (dat V c).after 1 t = iblk V c 1 t := by dsimp only [dat]
theorem after_in_2 (c : Dev nD) (t : Fin cfg1.N) : (dat V c).after 2 t = iblk V c 2 t := by dsimp only [dat]
theorem after_in_3 (c : Dev nD) (t : Fin cfg1.N) : (dat V c).after 3 t = iblk V c 3 t := by dsimp only [dat]
theorem after_out_4 (c : Dev nD) (t : Fin cfg1.N) : (dat V c).after 4 t = (outsAt V c t.val t.isLt).1 := by dsimp only [dat]
theorem after_out_5 (c : Dev nD) (t : Fin cfg1.N) : (dat V c).after 5 t = (outsAt V c t.val t.isLt).2.1 := by dsimp only [dat]
theorem after_out_6 (c : Dev nD) (t : Fin cfg1.N) : (dat V c).after 6 t = (outsAt V c t.val t.isLt).2.2.1 := by dsimp only [dat]

/-- Each input's current staging buffer holds its block at every point, fetched there or not: unfetched, the block
    index has not moved, and the body leaves the block in place. -/
theorem before_in_0 (c : Dev nD) (t : Fin cfg1.N) (d) : (dat V c).before 0 t d = iblk V c 0 t :=
  ((dat V c).before_in_eq_fetched 0 rfl (fun _ => rfl) (fun _ _ _ => rfl) (fun t => by rw [after_in_0]; unfold Dat.blockOf iblk; rw [A_eq]; try rfl) t d).trans
    (by unfold Dat.fetched Dat.blockOf iblk; rw [A_eq]; try rfl)
theorem before_in_1 (c : Dev nD) (t : Fin cfg1.N) (d) : (dat V c).before 1 t d = iblk V c 1 t :=
  ((dat V c).before_in_eq_fetched 1 rfl (fun _ => rfl) (fun _ _ _ => rfl) (fun t => by rw [after_in_1]; unfold Dat.blockOf iblk; rw [A_eq]; try rfl) t d).trans
    (by unfold Dat.fetched Dat.blockOf iblk; rw [A_eq]; try rfl)
theorem before_in_2 (c : Dev nD) (t : Fin cfg1.N) (d) : (dat V c).before 2 t d = iblk V c 2 t :=
  ((dat V c).before_in_eq_fetched 2 rfl (fun _ => rfl) (fun _ _ _ => rfl) (fun t => by rw [after_in_2]; unfold Dat.blockOf iblk; rw [A_eq]; try rfl) t d).trans
    (by unfold Dat.fetched Dat.blockOf iblk; rw [A_eq]; try rfl)
theorem before_in_3 (c : Dev nD) (t : Fin cfg1.N) (d) : (dat V c).before 3 t d = iblk V c 3 t :=
  ((dat V c).before_in_eq_fetched 3 rfl (fun _ => rfl) (fun _ _ _ => rfl) (fun t => by rw [after_in_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-! ## The accumulation, step by step -/

theorem outsAt_zero (c : Dev nD) (hn : 0 < cfg1.N) :
    outsAt V c 0 hn = (out_A_4 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), idleHold, idleHold, sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩), sout_A_1 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)) := rfl
theorem outsAt_succ_B (c : Dev nD) (n : ℕ) (hn : n + 1 < cfg1.N) (h1 : ¬n + 1 = 7) :
    outsAt V c (n + 1) hn = (out_B_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, idleHold, idleHold, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_B_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2) :=
  (dif_neg h1).trans rfl
theorem outsAt_succ_C (c : Dev nD) (n : ℕ) (hn : n + 1 < cfg1.N) (h1 : n + 1 = 7) :
    outsAt V c (n + 1) hn = (out_C_4 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, out_C_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, out_C_6 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2, sout_C_1 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (outsAt V c n (Nat.lt_of_succ_lt hn)).2.2.2.1 (outsAt V c n (Nat.lt_of_succ_lt hn)).2.2.2.2) :=
  (dif_pos h1).trans rfl

theorem sumAt_zero (c : Dev nD) (hn : 0 < cfg1.N) :
    sumAt V c 0 hn = k1_pay7 (iblk V c 0 ⟨0, hn⟩) (iblk V c 1 ⟨0, hn⟩) (iblk V c 2 ⟨0, hn⟩) (iblk V c 3 ⟨0, hn⟩) (k1_pay4 (F := F)) := rfl
theorem sumAt_succ (c : Dev nD) (n : ℕ) (hn : n + 1 < cfg1.N) :
    sumAt V c (n + 1) hn = k1_pay7 (iblk V c 0 ⟨n + 1, hn⟩) (iblk V c 1 ⟨n + 1, hn⟩) (iblk V c 2 ⟨n + 1, hn⟩) (iblk V c 3 ⟨n + 1, hn⟩) (sumAt V c n (Nat.lt_of_succ_lt hn)) := rfl
theorem sqAt_zero (c : Dev nD) (hn : 0 < cfg1.N) :
    sqAt V c 0 hn = k1_pay1 (k1_pay8 (iblk V c 0 ⟨0, hn⟩) (iblk V c 1 ⟨0, hn⟩) (iblk V c 2 ⟨0, hn⟩) (iblk V c 3 ⟨0, hn⟩) (k1_pay5 (F := F))) := rfl
theorem sqAt_succ (c : Dev nD) (n : ℕ) (hn : n + 1 < cfg1.N) :
    sqAt V c (n + 1) hn = k1_pay1 (k1_pay8 (iblk V c 0 ⟨n + 1, hn⟩) (iblk V c 1 ⟨n + 1, hn⟩) (iblk V c 2 ⟨n + 1, hn⟩) (iblk V c 3 ⟨n + 1, hn⟩) (sqAt V c n (Nat.lt_of_succ_lt hn))) := rfl

/-- After every point the two carried accumulators hold the running column sum and the running column sum of squares:
    by induction on the point, each step the case's two scratch pieces over what the point before left. -/
theorem carried_eq (c : Dev nD) (n : ℕ) : ∀ hn : n < cfg1.N,
    (outsAt V c n hn).2.2.2.1 = sumAt V c n hn ∧ (outsAt V c n hn).2.2.2.2 = sqAt V c n hn := by
  induction n with
  | zero =>
    intro hn
    rw [outsAt_zero V c hn]; dsimp only
    exact ⟨(sout_A_0_eq (F := F) c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)).trans (sumAt_zero V c hn).symm,
      (sout_A_1_eq (F := F) c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) scM0 (Memref.isWhole_whole _) scM1 (Memref.isWhole_whole _) ((isFirst_iff ⟨0, hn⟩).mpr rfl) (fun h => (fun h' : (0 : ℕ) = 7 => absurd h' (by decide)) ((isLast_iff ⟨0, hn⟩).mp h)) (iblk V c 0 ⟨0, hn⟩) (iblk V c 1 ⟨0, hn⟩) (iblk V c 2 ⟨0, hn⟩) (iblk V c 3 ⟨0, hn⟩)).trans (sqAt_zero V c hn).symm⟩
  | succ n ih =>
    intro hn
    obtain ⟨ih0, ih1⟩ := ih (Nat.lt_of_succ_lt hn)
    by_cases h1 : n + 1 = 7
    · rw [outsAt_succ_C V c n hn h1]; dsimp only
      rw [ih0, ih1]
      exact ⟨(sout_C_0_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sumAt_succ V c n hn).symm,
        (sout_C_1_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sqAt_succ V c n hn).symm⟩
    · rw [outsAt_succ_B V c n hn h1]; dsimp only
      rw [ih0, ih1]
      exact ⟨(sout_B_0_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sumAt_succ V c n hn).symm,
        (sout_B_1_eq (F := F) c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) scM0 (Memref.isWhole_whole _) scM1 (Memref.isWhole_whole _) (fun h => Nat.succ_ne_zero n ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (sumAt V c n (Nat.lt_of_succ_lt hn)) (sqAt V c n (Nat.lt_of_succ_lt hn))).trans (sqAt_succ V c n hn).symm⟩

/-! ## What the three output windows hold -/

theorem after_4 (c : Dev nD) (t : Fin cfg1.N) : (dat V c).after 4 t = wyBlk V c t := by
  rw [after_out_4]; unfold wyBlk
  have hN : t.val < 8 := lt_of_lt_of_eq t.isLt (show cfg1.N = 8 from N_1)
  by_cases h0 : t.val = 0
  · have h1 : ¬t.val = 7 := by omega
    rw [outsAt_A V c t h0 h1]; dsimp only
    exact out_A_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) ((isFirst_iff t).mpr h0) (fun h => h1 ((isLast_iff t).mp h)) (iblk V c 0 t) (iblk V c 1 t) (iblk V c 2 t) (iblk V c 3 t)
  by_cases h1 : t.val = 7
  · rw [outsAt_C V c t h0 h1]; dsimp only
    exact out_C_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2
  · rw [outsAt_B V c t h0 h1]; dsimp only
    exact out_B_4_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) (fun h => h1 ((isLast_iff t).mp h)) (iblk V c 0 t) (iblk V c 1 t) (iblk V c 2 t) (iblk V c 3 t) (outsAt V c (t.val - 1) (Nat.lt_of_le_of_lt (Nat.sub_le _ _) t.isLt)).2.2.2.1 (outsAt V c (t.val - 1) (Nat.lt_of_le_of_lt (Nat.sub_le _ _) t.isLt)).2.2.2.2

/-- The running sums at a point after the first, one step back. -/
theorem sumAt_pos (c : Dev nD) (t : Fin cfg1.N) (h0 : ¬t.val = 0) :
    sumAt V c t.val t.isLt = k1_pay7 (iblk V c 0 t) (iblk V c 1 t) (iblk V c 2 t) (iblk V c 3 t) (sumAt V c (t.val - 1) (Nat.lt_of_le_of_lt (Nat.sub_le _ _) t.isLt)) := by
  obtain ⟨n, hn⟩ := t
  cases n with
  | zero => exact absurd rfl h0
  | succ n => rfl
theorem sqAt_pos (c : Dev nD) (t : Fin cfg1.N) (h0 : ¬t.val = 0) :
    sqAt V c t.val t.isLt = k1_pay1 (k1_pay8 (iblk V c 0 t) (iblk V c 1 t) (iblk V c 2 t) (iblk V c 3 t) (sqAt V c (t.val - 1) (Nat.lt_of_le_of_lt (Nat.sub_le _ _) t.isLt))) := by
  obtain ⟨n, hn⟩ := t
  cases n with
  | zero => exact absurd rfl h0
  | succ n => rfl
/-- They depend on the position only. -/
theorem sumAt_congr (c : Dev nD) {n m : ℕ} (h : n = m) (hn : n < cfg1.N) (hm : m < cfg1.N) : sumAt V c n hn = sumAt V c m hm := by
  subst h; rfl
theorem sqAt_congr (c : Dev nD) {n m : ℕ} (h : n = m) (hn : n < cfg1.N) (hm : m < cfg1.N) : sqAt V c n hn = sqAt V c m hm := by
  subst h; rfl

set_option maxHeartbeats 1000000 in
/-- The mean and the reciprocal standard deviation, written back at the last point only. -/
theorem after_5_last (c : Dev nD) (t : Fin cfg1.N) (ht : t.val = 7) :
    (dat V c).after 5 t = k1_pay2 (sumAt V c 7 (by rw [show cfg1.N = 8 from N_1]; omega)) := by
  have h0 : ¬t.val = 0 := by omega
  have h1 : t.val = 7 := ht
  rw [after_out_5, outsAt_C V c t h0 h1]; dsimp only
  rw [(carried_eq V c (t.val - 1) (Nat.lt_of_le_of_lt (Nat.sub_le _ _) t.isLt)).1, (carried_eq V c (t.val - 1) (Nat.lt_of_le_of_lt (Nat.sub_le _ _) t.isLt)).2]
  refine (out_C_5_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (sumAt V c (t.val - 1) (Nat.lt_of_le_of_lt (Nat.sub_le _ _) t.isLt)) (sqAt V c (t.val - 1) (Nat.lt_of_le_of_lt (Nat.sub_le _ _) t.isLt))).trans ?_
  exact congrArg k1_pay2 ((sumAt_pos V c t h0).symm.trans (sumAt_congr V c ht _ _))
set_option maxHeartbeats 1000000 in
theorem after_6_last (c : Dev nD) (t : Fin cfg1.N) (ht : t.val = 7) :
    (dat V c).after 6 t = k1_pay3 (sumAt V c 7 (by rw [show cfg1.N = 8 from N_1]; omega)) (sqAt V c 7 (by rw [show cfg1.N = 8 from N_1]; omega)) := by
  have h0 : ¬t.val = 0 := by omega
  have h1 : t.val = 7 := ht
  rw [after_out_6, outsAt_C V c t h0 h1]; dsimp only
  rw [(carried_eq V c (t.val - 1) (Nat.lt_of_le_of_lt (Nat.sub_le _ _) t.isLt)).1, (carried_eq V c (t.val - 1) (Nat.lt_of_le_of_lt (Nat.sub_le _ _) t.isLt)).2]
  refine (out_C_6_eq (F := F) c (grid1.coords t) (ms_0 t) (hs_0 t) (ms_1 t) (hs_1 t) (ms_2 t) (hs_2 t) (ms_3 t) (hs_3 t) (ms_4 t) (hs_4 t) (ms_5 t) (hs_5 t) (ms_6 t) (hs_6 t) scM0 (Memref.isWhole_whole _) scM1 (Memref.isWhole_whole _) (fun h => h0 ((isFirst_iff t).mp h)) ((isLast_iff t).mpr h1) (iblk V c 0 t) (iblk V c 1 t) (iblk V c 2 t) (iblk V c 3 t) (sumAt V c (t.val - 1) (Nat.lt_of_le_of_lt (Nat.sub_le _ _) t.isLt)) (sqAt V c (t.val - 1) (Nat.lt_of_le_of_lt (Nat.sub_le _ _) t.isLt))).trans ?_
  exact congrArg₂ k1_pay3 ((sumAt_pos V c t h0).symm.trans (sumAt_congr V c ht _ _)) ((sqAt_pos V c t h0).symm.trans (sqAt_congr V c ht _ _))

set_option maxHeartbeats 8000000 in
/-- The body at any point. The inputs' memrefs hold their blocks; the position says which case the point is in, so
    that case's run applies; the invariant hands the body the two carried accumulators at what the point before left
    (at anything at the first point), the other scoped buffers and the generator register pass through unopened, and
    it takes the accumulators back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in_0, before_in_1, before_in_2, before_in_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0 t], after_in_0]
  rw [show (dat V c).leavesExact 1 t = owns (c : Thread nD τ) (ms_1 t) fullShare ((dat V c).after 1 t) from by
    unfold Dat.leavesExact; rw [live_1 t], after_in_1]
  rw [show (dat V c).leavesExact 2 t = owns (c : Thread nD τ) (ms_2 t) fullShare ((dat V c).after 2 t) from by
    unfold Dat.leavesExact; rw [live_2 t], after_in_2]
  rw [show (dat V c).leavesExact 3 t = owns (c : Thread nD τ) (ms_3 t) fullShare ((dat V c).after 3 t) from by
    unfold Dat.leavesExact; rw [live_3 t], after_in_3]
  rw [show (dat V c).leavesExact 4 t = owns (c : Thread nD τ) (ms_4 t) fullShare ((dat V c).after 4 t) from by
    unfold Dat.leavesExact; rw [live_4 t], after_out_4]
  have hN : t.val < 8 := lt_of_lt_of_eq t.isLt (show cfg1.N = 8 from N_1)
  by_cases h0 : t.val = 0
  · -- the first point: the accumulators come at anything and are reset
    have h1 : ¬t.val = 7 := by omega
    rw [Dat.leavesExact_idle (dat V c) 5 t (idle_5 t (fun h => h1 ((isLast_iff t).mp h))) (noFlush_5 t (fun h => h1 ((isLast_iff t).mp h)))]
    rw [Dat.leavesExact_idle (dat V c) 6 t (idle_6 t (fun h => h1 ((isLast_iff t).mp h))) (noFlush_6 t (fun h => h1 ((isLast_iff t).mp h)))]
    rw [outsAt_A V c t h0 h1]
    unfold out_A_4 sout_A_0 sout_A_1; (try dsimp only)
    rw [PhiS_castSucc V c t, PhiS_zero V c _ _ h0, PhiA_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_A c _ _ _ _ _ _ _ _ _ _ _ _ _ _ _ _ _ _ _ ((isFirst_iff t).mpr h0) (fun h => h1 ((isLast_iff t).mp h)) (iblk V c 0 t) (iblk V c 1 t) (iblk V c 2 t) (iblk V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _)
          · unfold owns; iexists _; isplitr
            swap; · iexact HS1
            ipureintro; exact View.read_writes_of_cover _ _ _ _ _ (scover_A_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _ _ _ _ _ _)
    isplitl [H5]; · iexists _; iexact H5
    iexists _; iexact H6
  by_cases h1 : t.val = 7
  · -- the last point: the two statistics are stored
    rw [show (dat V c).leavesExact 5 t = owns (c : Thread nD τ) (ms_5 t) fullShare ((dat V c).after 5 t) from by
      unfold Dat.leavesExact; rw [live_5 t ((isLast_iff t).mpr h1)], after_out_5]
    rw [show (dat V c).leavesExact 6 t = owns (c : Thread nD τ) (ms_6 t) fullShare ((dat V c).after 6 t) from by
      unfold Dat.leavesExact; rw [live_6 t ((isLast_iff t).mpr h1)], after_out_6]
    rw [outsAt_C V c t h0 h1]
    unfold out_C_4 out_C_5 out_C_6 sout_C_0 sout_C_1; (try dsimp only)
    rw [PhiS_castSucc V c t, PhiS_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_C c _ _ _ _ _ _ _ _ _ _ _ _ _ _ _ _ _ _ _ (fun h => h0 ((isFirst_iff t).mp h)) ((isLast_iff t).mpr h1) (iblk V c 0 t) (iblk V c 1 t) (iblk V c 2 t) (iblk V c 3 t) _ _).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, ⟨%e4, H4⟩, ⟨%e5, H5⟩, ⟨%e6, H6⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _)
          · unfold owns; iexists _; isplitr
            swap; · iexact HS1
            ipureintro; exact View.read_writes_of_cover _ _ _ _ _ (scover_C_1 c _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_C_4 c _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover_C_5 c _ _ _ _ _ _ _ _ _ _ _ _ _ _ _ _ _ _ _ _ _ _ _ _ _ _ _)
    unfold owns; iexists _; isplitr
    swap; · iexact H6
    ipureintro; exact View.read_writes_of_cover _ _ _ _ _ (cover_C_6 c _ _ _ _ _ _ _ _ _ _ _ _ _ _ _ _ _ _ _ _ _ _ _ _ _ _ _)
  · -- a point in between
    rw [Dat.leavesExact_idle (dat V c) 5 t (idle_5 t (fun h => h1 ((isLast_iff t).mp h))) (noFlush_5 t (fun h => h1 ((isLast_iff t).mp h)))]
    rw [Dat.leavesExact_idle (dat V c) 6 t (idle_6 t (fun h => h1 ((isLast_iff t).mp h))) (noFlush_6 t (fun h => h1 ((isLast_iff t).mp h)))]
    rw [outsAt_B V c t h0 h1]
    unfold out_B_4 sout_B_0 sout_B_1; (try dsimp only)
    rw [PhiS_castSucc V c t, PhiS_pos V c _ _ h0]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun_B c _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) _ _).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _)
          · unfold owns; iexists _; isplitr
            swap; · iexact HS1
            ipureintro; exact View.read_writes_of_cover _ _ _ _ _ (scover_B_1 c _ _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_4 c _ _ _ _ _ _ _ _ _ _ _ _ _ _ _ _ _ _ _ _ _ _ _ _ _ _ _)
    isplitl [H5]; · iexists _; iexact H5
    iexists _; iexact H6

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

theorem hout (c : Dev nD) : (dat V c).Φ (Fin.last cfg1.N) ⊢ (Pipeline.ΦA spec1 c : sProp 𝕄) :=
  Phi_out V c _ (by rw [Fin.val_last]; have : cfg1.N = 8 := N_1; omega)

end Cert.KernelIdeal.R1

end
-- ==== Proof.KI.Region2.lean ====
/-
  Region 2 of the kernel program (the normalisation and the residual, block by block), at the buffer contents
  `V` the region is entered from.
-/
import proofs.«131456_j40999757807684_1_alg».proof.Proof.Gen.KernelIdeal.Launch
import proofs.«131456_j40999757807684_1_alg».proof.Proof.Gen.KernelIdeal.Skeleton
import proofs.«131456_j40999757807684_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output block holds after point `t`. -/
def zBlk (c : Dev nD) (t : Fin cfg2.N) : Vec F S1024x512 .f32 :=
  k2_pay1 (iblk V c 0 t) (iblk V c 1 t) (iblk V c 2 t) (iblk V c 3 t) (iblk V c 4 t) (iblk V c 5 t)

/-! ## What the body finds in each input window's buffer

An input window's staging buffer holds the window's block at every point: where the pipeline fetched it, by the
fetch; where it did not (the four rows, after the first point), the block index has not moved since the point
before and the body left the buffer as it found it. Stated for ANY proof data over the region-entry arrays whose
body leaves the block in place. -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [1024×512] staging buffer, as the rectangle the body loads and stores it through. -/
abbrev rBlk : Rect S1024x512 := Rect.unit (s := S1024x512) ![0, 0] S1024x512.size inb_S1024x512_S1024x512_0_0
/-- The whole [1×512] staging buffer of a row. -/
abbrev rRow : Rect S1x512 := Rect.unit (s := S1x512) ![0, 0] S1x512.size inb_S1x512_S1x512_0_0

/-- Both rectangles sit at offset zero. -/
theorem hz : (![0, 0] : Fin 2 → Nat) = fun _ => 0 := funext fun a => by fin_cases a <;> rfl

/-! ## What the body leaves in the output window's buffer -/

/-- The output window's staging buffer after the body, from the six input buffers' contents: its one store as a
    piece, the payload over what the loads read. -/
def out_6 (x0 x1 : Vec F S1024x512 .f32) (x2 x3 x4 x5 : Vec F S1x512 .f32) : Vec F S1024x512 .f32 :=
  View.canon [⟨rBlk, k2_pay1 (View.ld x0 rBlk) (View.ld x1 rBlk) (View.ld x2 rRow) (View.ld x3 rRow) (View.ld x4 rRow) (View.ld x5 rRow)⟩]

/-- The one store is through the whole buffer, so it covers it. -/
theorem cover_6 (p0 : Vec F S1024x512 .f32) (y : S1024x512.Idx) :
    ∃ pc ∈ ([⟨rBlk, p0⟩] : List (View.Piece (Elt F) S1024x512 .f32)), y ∈ pc.1.set :=
  ⟨_, List.mem_singleton_self _, View.mem_set_unit_zero hz inb_S1024x512_S1024x512_0_0 y⟩

/-- A store through the whole buffer leaves its payload, and a load through the whole buffer reads the contents: the
    buffer ends at the payload of the six contents themselves. -/
theorem out_6_eq (x0 x1 : Vec F S1024x512 .f32) (x2 x3 x4 x5 : Vec F S1x512 .f32) :
    out_6 x0 x1 x2 x3 x4 x5 = k2_pay1 x0 x1 x2 x3 x4 x5 := by
  unfold out_6
  rw [View.canon_unit_zero hz]
  simp only [View.ld_unit_zero (S := S1024x512) hz, View.ld_unit_zero (S := S1x512) hz]

/-! ## The body's triple -/

set_option maxHeartbeats 1000000 in
/-- The kernel body on whole staging memrefs, the inputs' at read contents `x0 … x5` and the output's at anything,
    runs to the continuation holding the inputs' as they were and the output's at `out_6` of them: six loads of the
    inputs, a load of the output buffer whose value nothing reads, and the one store. -/
theorem sound_kernel (c : Dev nD) (E : Set ℕ) (i : grid2.Coords)
    (arg1 : Memref sig .tc .vmem S1024x512 .f32) (harg1 : arg1.IsWhole) (arg2 : Memref sig .tc .vmem S1024x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S1x512 .f32) (harg6 : arg6.IsWhole)
    (arg7 : Memref sig .tc .vmem S1024x512 .f32) (harg7 : arg7.IsWhole)
    (x0 x1 : Vec F S1024x512 .f32) (x2 x3 x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_6 _)

/-! ## The pipeline's proof data -/

/-- The proof data of pipeline 2 on core `c`: the arrays as the region finds them; after the body at point `t` each
    input's buffer at its block and the output's at the payload of the six blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => zBlk V c t
  Φ _ := Pipeline.ΦA spec2 c
  q _ := fullShare
  owed _ := 0

theorem A_eq (c : Dev nD) (w : Fin cfg2.W) : (dat V c).A w = V c (Pipeline.arrRef spec2 w) := by
  dsimp only [dat]
theorem q_eq (c : Dev nD) (w : Fin cfg2.W) : (dat V c).q w = fullShare := by
  dsimp only [dat]
theorem owed_eq (c : Dev nD) (t : Fin (cfg2.N + 1)) : (dat V c).owed t = 0 := by
  dsimp only [dat]
theorem recorded_eq (c : Dev nD) (t : Fin (cfg2.N + 1)) : (dat V c).recorded t = Set.univ := by
  dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = zBlk V c t := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the inputs' memrefs hold their blocks, so the body's triple applies; the invariant and
    the core's debt pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold zBlk
  rw [← out_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid2.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W2, bigSep_W2]
  exact sound_body V c t

/-- The invariant at the first and at the last point is the class's own: the scoped rest and the generator
    register. -/
theorem hin (c : Dev nD) : (Pipeline.ΦA spec2 c : sProp 𝕄) ⊢ (dat V c).Φ 0 := .rfl
theorem hout (c : Dev nD) : (dat V c).Φ (Fin.last cfg2.N) ⊢ (Pipeline.ΦA spec2 c : sProp 𝕄) := .rfl

end Cert.KernelIdeal.R2

end
-- ==== Proof.KI.Bounds.lean ====
/-
  The kernel program is three kernel regions between two stretches of host reshapes.  This module names what the
  unscoped buffers hold at each boundary — the launch contents, then the reshapes, then each region's output
  arrays at what its write-backs leave — and says which buffers each region leaves alone.
-/
import proofs.«131456_j40999757807684_1_alg».proof.Proof.KI.Region0
import proofs.«131456_j40999757807684_1_alg».proof.Proof.KI.Region1
import proofs.«131456_j40999757807684_1_alg».proof.Proof.KI.Region2
import proofs.«131456_j40999757807684_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At region 0's entry: the launch contents after the first stretch of reshapes. -/
abbrev E1 (c : Dev nD) (b : Ref sig .tc) : Buf (Elt F) ((c : Thread nD τ).loc b) := V1 m c b

/-- What region 0 leaves in its two output arrays: θ (every block written back) and the 256 × 256 matrix
    (written back once, at the last point). -/
def X80 (c : Dev nD) : Buf (Elt F) ((c : Thread nD τ).loc main_v8_0) := (R0.dat (E1 m) c).arrAt 8 cfg0.N
def X81 (c : Dev nD) : Buf (Elt F) ((c : Thread nD τ).loc main_v8_1) := (R0.dat (E1 m) c).arrAt 9 cfg0.N

/-- At region 1's entry. -/
abbrev E2v (c : Dev nD) : Valuation τ sig (Elt F) :=
  Function.update (Function.update (V1 m c) main_v8_0 (X80 m c)) main_v8_1 (X81 m c)
abbrev E2 (c : Dev nD) (b : Ref sig .tc) : Buf (Elt F) ((c : Thread nD τ).loc b) := E2v m c b

/-- What region 1 leaves in its three output arrays: w, the column mean, the reciprocal standard deviation. -/
def X90 (c : Dev nD) : Buf (Elt F) ((c : Thread nD τ).loc main_v9_0) := (R1.dat (E2 m) c).arrAt 4 cfg1.N
def X91 (c : Dev nD) : Buf (Elt F) ((c : Thread nD τ).loc main_v9_1) := (R1.dat (E2 m) c).arrAt 5 cfg1.N
def X92 (c : Dev nD) : Buf (Elt F) ((c : Thread nD τ).loc main_v9_2) := (R1.dat (E2 m) c).arrAt 6 cfg1.N

/-- At region 2's entry. -/
abbrev E3v (c : Dev nD) : Valuation τ sig (Elt F) :=
  Function.update (Function.update (Function.update (E2v m c) main_v9_0 (X90 m c)) main_v9_1 (X91 m c)) main_v9_2 (X92 m c)
abbrev E3 (c : Dev nD) (b : Ref sig .tc) : Buf (Elt F) ((c : Thread nD τ).loc b) := E3v m c b

/-- What region 2 leaves in its output array. -/
def X10 (c : Dev nD) : Buf (Elt F) ((c : Thread nD τ).loc main_v10) := (R2.dat (E3 m) c).arrAt 6 cfg2.N

/-- After region 2. -/
abbrev E4v (c : Dev nD) : Valuation τ sig (Elt F) := Function.update (E3v m c) main_v10 (X10 m c)
abbrev E4 (c : Dev nD) (b : Ref sig .tc) : Buf (Elt F) ((c : Thread nD τ).loc b) := E4v m c b

/-- The regions' output arrays after each region, as one table. -/
def outs : Outs (F := F) := fun _ r c =>
  if h : r = main_v8_0 then h ▸ X80 m c
  else if h : r = main_v8_1 then h ▸ X81 m c
  else if h : r = main_v9_0 then h ▸ X90 m c
  else if h : r = main_v9_1 then h ▸ X91 m c
  else if h : r = main_v9_2 then h ▸ X92 m c
  else if h : r = main_v10 then h ▸ X10 m c
  else V0 m c r

theorem outs_80 (J : ℕ) (c : Dev nD) : outs m J main_v8_0 c = X80 m c := by
  unfold outs; rw [dif_pos rfl]
theorem outs_81 (J : ℕ) (c : Dev nD) : outs m J main_v8_1 c = X81 m c := by
  unfold outs; rw [dif_neg (by decide), dif_pos rfl]
theorem outs_90 (J : ℕ) (c : Dev nD) : outs m J main_v9_0 c = X90 m c := by
  unfold outs; rw [dif_neg (by decide), dif_neg (by decide), dif_pos rfl]
theorem outs_91 (J : ℕ) (c : Dev nD) : outs m J main_v9_1 c = X91 m c := by
  unfold outs; rw [dif_neg (by decide), dif_neg (by decide), dif_neg (by decide), dif_pos rfl]
theorem outs_92 (J : ℕ) (c : Dev nD) : outs m J main_v9_2 c = X92 m c := by
  unfold outs; rw [dif_neg (by decide), dif_neg (by decide), dif_neg (by decide), dif_neg (by decide), dif_pos rfl]
theorem outs_10 (J : ℕ) (c : Dev nD) : outs m J main_v10 c = X10 m c := by
  unfold outs; rw [dif_neg (by decide), dif_neg (by decide), dif_neg (by decide), dif_neg (by decide), dif_neg (by decide), dif_pos rfl]

theorem V2_eq (c : Dev nD) : V2 m (outs m) c = E2v m c := by
  show Function.update (Function.update (V1 m c) main_v8_0 (outs m 2 main_v8_0 c)) main_v8_1 (outs m 2 main_v8_1 c) = _
  rw [outs_80, outs_81]
theorem V3_eq (c : Dev nD) : V3 m (outs m) c = E3v m c := by
  show Function.update (Function.update (Function.update (V2 m (outs m) c) main_v9_0 (outs m 3 main_v9_0 c)) main_v9_1 (outs m 3 main_v9_1 c)) main_v9_2 (outs m 3 main_v9_2 c) = _
  rw [outs_90, outs_91, outs_92, V2_eq]
theorem V4_eq (c : Dev nD) : V4 m (outs m) c = E4v m c := by
  show Function.update (V3 m (outs m) c) main_v10 (outs m 4 main_v10 c) = _
  rw [outs_10, V3_eq]

/-! ## What a region leaves alone, and what it leaves in its arrays -/

theorem E2_of (c : Dev nD) (r : Ref sig .tc) (h : r ∉ ([main_v8_0, main_v8_1] : List (Ref sig .tc))) : E2 m c r = E1 m c r := by
  rw [show E2 m c r = V2 m (outs m) c r from by rw [V2_eq]]; exact V2_of m (outs m) c r h
theorem E3_of (c : Dev nD) (r : Ref sig .tc) (h : r ∉ ([main_v9_0, main_v9_1, main_v9_2] : List (Ref sig .tc))) : E3 m c r = E2 m c r := by
  rw [show E3 m c r = V3 m (outs m) c r from by rw [V3_eq], show E2 m c r = V2 m (outs m) c r from by rw [V2_eq]]; exact V3_of m (outs m) c r h
theorem E4_of (c : Dev nD) (r : Ref sig .tc) (h : r ∉ ([main_v10] : List (Ref sig .tc))) : E4 m c r = E3 m c r := by
  rw [show E4 m c r = V4 m (outs m) c r from by rw [V4_eq], show E3 m c r = V3 m (outs m) c r from by rw [V3_eq]]; exact V4_of m (outs m) c r h

theorem E2_80 (c : Dev nD) : E2 m c main_v8_0 = X80 m c :=
  (Function.update_of_ne (StableHlo.devRef_ne_of_ne (by decide : (main_v8_0 : Ref sig .tc) ≠ main_v8_1)) _ _).trans (Function.update_self _ _ _)
theorem E2_81 (c : Dev nD) : E2 m c main_v8_1 = X81 m c := Function.update_self _ _ _
theorem E3_90 (c : Dev nD) : E3 m c main_v9_0 = X90 m c :=
  (Function.update_of_ne (StableHlo.devRef_ne_of_ne (by decide : (main_v9_0 : Ref sig .tc) ≠ main_v9_2)) _ _).trans
    ((Function.update_of_ne (StableHlo.devRef_ne_of_ne (by decide : (main_v9_0 : Ref sig .tc) ≠ main_v9_1)) _ _).trans (Function.update_self _ _ _))
theorem E3_91 (c : Dev nD) : E3 m c main_v9_1 = X91 m c :=
  (Function.update_of_ne (StableHlo.devRef_ne_of_ne (by decide : (main_v9_1 : Ref sig .tc) ≠ main_v9_2)) _ _).trans (Function.update_self _ _ _)
theorem E3_92 (c : Dev nD) : E3 m c main_v9_2 = X92 m c := Function.update_self _ _ _
theorem E4_10 (c : Dev nD) : E4 m c main_v10 = X10 m c := Function.update_self _ _ _

/-- After region 0 each of its arrays holds what the pipeline leaves: an input as entered, an output its write-backs. -/
theorem hF0 (c : Dev nD) : ∀ w : Fin 10, (R0.dat (E1 m) c).arrAt w cfg0.N = E2 m c (Pipeline.arrRef spec0 w)
  | ⟨0, _⟩ => ((R0.dat (E1 m) c).arrAt_in 0 rfl _).trans ((R0.A_eq (E1 m) c 0).trans (E2_of m c _ (by decide)).symm)
  | ⟨1, _⟩ => ((R0.dat (E1 m) c).arrAt_in 1 rfl _).trans ((R0.A_eq (E1 m) c 1).trans (E2_of m c _ (by decide)).symm)
  | ⟨2, _⟩ => ((R0.dat (E1 m) c).arrAt_in 2 rfl _).trans ((R0.A_eq (E1 m) c 2).trans (E2_of m c _ (by decide)).symm)
  | ⟨3, _⟩ => ((R0.dat (E1 m) c).arrAt_in 3 rfl _).trans ((R0.A_eq (E1 m) c 3).trans (E2_of m c _ (by decide)).symm)
  | ⟨4, _⟩ => ((R0.dat (E1 m) c).arrAt_in 4 rfl _).trans ((R0.A_eq (E1 m) c 4).trans (E2_of m c _ (by decide)).symm)
  | ⟨5, _⟩ => ((R0.dat (E1 m) c).arrAt_in 5 rfl _).trans ((R0.A_eq (E1 m) c 5).trans (E2_of m c _ (by decide)).symm)
  | ⟨6, _⟩ => ((R0.dat (E1 m) c).arrAt_in 6 rfl _).trans ((R0.A_eq (E1 m) c 6).trans (E2_of m c _ (by decide)).symm)
  | ⟨7, _⟩ => ((R0.dat (E1 m) c).arrAt_in 7 rfl _).trans ((R0.A_eq (E1 m) c 7).trans (E2_of m c _ (by decide)).symm)
  | ⟨8, _⟩ => (E2_80 m c).symm
  | ⟨9, _⟩ => (E2_81 m c).symm
theorem hrest0 (c : Dev nD) : ∀ b, b ∉ Finset.univ.image (Pipeline.arrRef spec0) → E2 m c b = E1 m c b := fun b hb =>
  E2_of m c b fun hm => hb (by
    simp only [List.mem_cons, List.mem_nil_iff, or_false] at hm
    rcases hm with rfl | rfl
    · exact Finset.mem_image.mpr ⟨8, Finset.mem_univ _, rfl⟩
    · exact Finset.mem_image.mpr ⟨9, Finset.mem_univ _, rfl⟩)

theorem hF1 (c : Dev nD) : ∀ w : Fin 7, (R1.dat (E2 m) c).arrAt w cfg1.N = E3 m c (Pipeline.arrRef spec1 w)
  | ⟨0, _⟩ => ((R1.dat (E2 m) c).arrAt_in 0 rfl _).trans ((R1.A_eq (E2 m) c 0).trans (E3_of m c _ (by decide)).symm)
  | ⟨1, _⟩ => ((R1.dat (E2 m) c).arrAt_in 1 rfl _).trans ((R1.A_eq (E2 m) c 1).trans (E3_of m c _ (by decide)).symm)
  | ⟨2, _⟩ => ((R1.dat (E2 m) c).arrAt_in 2 rfl _).trans ((R1.A_eq (E2 m) c 2).trans (E3_of m c _ (by decide)).symm)
  | ⟨3, _⟩ => ((R1.dat (E2 m) c).arrAt_in 3 rfl _).trans ((R1.A_eq (E2 m) c 3).trans (E3_of m c _ (by decide)).symm)
  | ⟨4, _⟩ => (E3_90 m c).symm
  | ⟨5, _⟩ => (E3_91 m c).symm
  | ⟨6, _⟩ => (E3_92 m c).symm
theorem hrest1 (c : Dev nD) : ∀ b, b ∉ Finset.univ.image (Pipeline.arrRef spec1) → E3 m c b = E2 m c b := fun b hb =>
  E3_of m c b fun hm => hb (by
    simp only [List.mem_cons, List.mem_nil_iff, or_false] at hm
    rcases hm with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

theorem hF2 (c : Dev nD) : ∀ w : Fin 7, (R2.dat (E3 m) c).arrAt w cfg2.N = E4 m c (Pipeline.arrRef spec2 w)
  | ⟨0, _⟩ => ((R2.dat (E3 m) c).arrAt_in 0 rfl _).trans ((R2.A_eq (E3 m) c 0).trans (E4_of m c _ (by decide)).symm)
  | ⟨1, _⟩ => ((R2.dat (E3 m) c).arrAt_in 1 rfl _).trans ((R2.A_eq (E3 m) c 1).trans (E4_of m c _ (by decide)).symm)
  | ⟨2, _⟩ => ((R2.dat (E3 m) c).arrAt_in 2 rfl _).trans ((R2.A_eq (E3 m) c 2).trans (E4_of m c _ (by decide)).symm)
  | ⟨3, _⟩ => ((R2.dat (E3 m) c).arrAt_in 3 rfl _).trans ((R2.A_eq (E3 m) c 3).trans (E4_of m c _ (by decide)).symm)
  | ⟨4, _⟩ => ((R2.dat (E3 m) c).arrAt_in 4 rfl _).trans ((R2.A_eq (E3 m) c 4).trans (E4_of m c _ (by decide)).symm)
  | ⟨5, _⟩ => ((R2.dat (E3 m) c).arrAt_in 5 rfl _).trans ((R2.A_eq (E3 m) c 5).trans (E4_of m c _ (by decide)).symm)
  | ⟨6, _⟩ => (E4_10 m c).symm
theorem hrest2 (c : Dev nD) : ∀ b, b ∉ Finset.univ.image (Pipeline.arrRef spec2) → E4 m c b = E3 m c b := fun b hb =>
  E4_of m c b fun hm => hb (by
    simp only [List.mem_cons, List.mem_nil_iff, or_false] at hm
    rcases hm with rfl
    exact Finset.mem_image.mpr ⟨6, Finset.mem_univ _, rfl⟩)

end Cert.KernelIdeal.Run

end
-- ==== Proof.KI.Run.lean ====
/-
  The kernel program's run: @main as five items — the reshapes, three kernel regions, the last reshape —, each
  region entered from every unscoped buffer at the boundary's contents and left at the next boundary's, so that
  the run ends with the result buffer at a named term and every argument as launched.
-/
import proofs.«131456_j40999757807684_1_alg».proof.Proof.KI.Bounds

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => R0.dat (E1 m) c
  | ⟨1, _⟩ => fun c => R1.dat (E2 m) c
  | ⟨2, _⟩ => fun c => R2.dat (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item of @main: the core's generator register at some state and its
    debts, none. -/
abbrev Rst (c : Dev nD) : sProp 𝕄 := iprop((∃ r, prngReg c r) ∗ ∃ W, owes (c : Thread nD τ) (0 : CellTallies nD τ sig Unit) W)

/-! ## The regions as segments -/

-- the library's lemmas are stated over `pin pcs a p`: unification must unfold plain definitions in a metavariable's type
set_option backward.isDefEq.respectTransparency.types false in
/-- Region 0 as a segment of @main: entered from every unscoped buffer at the boundary's contents, left at the next
    boundary's; its arrays split out of the unscoped buffers and put back at what the write-backs leave; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun c t => R0.owed_eq (E1 m) c t
  pre c := iprop(StableHlo.held (c : Thread nD τ) (Pipeline.ucRefs τ sig) (V1 m c) ∗ Rst c)
  post c := iprop(StableHlo.held (c : Thread nD τ) (Pipeline.ucRefs τ sig) (E2v m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun w => R0.q_eq (E1 m) c w) (E1 m c) fun w => R0.A_eq (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from R0.owed_eq (E1 m) c 0]
      icases HO with ⟨%W, HO⟩; iexists W; isplitr; · ipureintro; exact fun _ _ => Or.inl (by rw [show (pdats m 0 c).recorded 0 = Set.univ from R0.recorded_eq (E1 m) c 0]; trivial)
      iexact HO
    isplitl [Hp]; · iexact Hp
    iexact Hrest
  hin c := by
    refine BIBase.Entails.trans ?_ (R0.hin (E1 m) c)
    unfold Pipeline.ΦA
    iintro ⟨Hp, -, Hr⟩
    isplitl [Hr]; · iexact Hr
    iexact Hp
  hout c := by
    rw [Pipeline.ownSems0_none]
    refine BIBase.Entails.trans (R0.hout (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => R0.q_eq (E1 m) c w)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from R0.owed_eq (E1 m) c _]
    icases HO with ⟨%W, -, HO⟩; iexists W; iexact HO

-- the library's lemmas are stated over `pin pcs a p`: unification must unfold plain definitions in a metavariable's type
set_option backward.isDefEq.respectTransparency.types false in
/-- Region 1 as a segment of @main: entered from every unscoped buffer at the boundary's contents, left at the next
    boundary's; its arrays split out of the unscoped buffers and put back at what the write-backs leave; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (E2 m) c).loose
  hwaits := Pipeline.hwaits_of_owed_zero _ _ _ _ L lv 1 fun c t => R1.owed_eq (E2 m) c t
  pre c := iprop(StableHlo.held (c : Thread nD τ) (Pipeline.ucRefs τ sig) (E2v m c) ∗ Rst c)
  post c := iprop(StableHlo.held (c : Thread nD τ) (Pipeline.ucRefs τ sig) (E3v m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun w => R1.q_eq (E2 m) c w) (E2 m c) fun w => R1.A_eq (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from R1.owed_eq (E2 m) c 0]
      icases HO with ⟨%W, HO⟩; iexists W; isplitr; · ipureintro; exact fun _ _ => Or.inl (by rw [show (pdats m 1 c).recorded 0 = Set.univ from R1.recorded_eq (E2 m) c 0]; trivial)
      iexact HO
    isplitl [Hp]; · iexact Hp
    iexact Hrest
  hin c := by
    refine BIBase.Entails.trans ?_ (R1.hin (E2 m) c)
    unfold Pipeline.ΦA
    iintro ⟨Hp, -, Hr⟩
    isplitl [Hr]; · iexact Hr
    iexact Hp
  hout c := by
    rw [Pipeline.ownSems0_none]
    refine BIBase.Entails.trans (R1.hout (E2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => R1.q_eq (E2 m) c w)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from R1.owed_eq (E2 m) c _]
    icases HO with ⟨%W, -, HO⟩; iexists W; iexact HO

-- the library's lemmas are stated over `pin pcs a p`: unification must unfold plain definitions in a metavariable's type
set_option backward.isDefEq.respectTransparency.types false in
/-- Region 2 as a segment of @main: entered from every unscoped buffer at the boundary's contents, left at the next
    boundary's; its arrays split out of the unscoped buffers and put back at what the write-backs leave; the generator
    register into the region's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (E3 m) c).loose
  hwaits := Pipeline.hwaits_of_owed_zero _ _ _ _ L lv 2 fun c t => R2.owed_eq (E3 m) c t
  pre c := iprop(StableHlo.held (c : Thread nD τ) (Pipeline.ucRefs τ sig) (E3v m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun w => R2.q_eq (E3 m) c w) (E3 m c) fun w => R2.A_eq (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from R2.owed_eq (E3 m) c 0]
      icases HO with ⟨%W, HO⟩; iexists W; isplitr; · ipureintro; exact fun _ _ => Or.inl (by rw [show (pdats m 2 c).recorded 0 = Set.univ from R2.recorded_eq (E3 m) c 0]; trivial)
      iexact HO
    isplitl [Hp]; · iexact Hp
    iexact Hrest
  hin c := by
    refine BIBase.Entails.trans ?_ (R2.hin (E3 m) c)
    unfold Pipeline.ΦA
    iintro ⟨Hp, -, Hr⟩
    isplitl [Hr]; · iexact Hr
    iexact Hp
  hout c := by
    rw [Pipeline.ownSems0_none]
    refine BIBase.Entails.trans (R2.hout (E3 m) c) ?_
    unfold Pipeline.ΦA
    iintro ⟨Hr, Hp⟩
    isplitl [Hp]; · iexact Hp
    isplitr; · iempintro
    iexact Hr
  hexit c := by
    rw [V4_eq m c]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => R2.q_eq (E3 m) c w)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from R2.owed_eq (E3 m) c _]
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents — the reshape of what region 2 leaves — and every argument as
    launched. -/
theorem run_main : θ_run defs (onTc (τ := τ) (main (F := F))) ⟨m, fun _ => 0, ρ⟩ (fun r => ∀ c : Dev nD,
      r.2.mem ((c.tc : Thread nD τ).loc main_v11) = V5 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m) (reg2 m))
    (fun c Q => by
      rewrite [main_chain c, Pipeline.Seg.run_eq_chain,
        show (segs m (outs m) 𝒱₀ L lv (fun _ => Rst) () (pdats m) (reg0 m) (reg1 m) (reg2 m) c).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl,
      sep_mono .rfl (by iintro ⟨-, H⟩; iexact H)⟩)
    (hinit := ?_) (QY := fun c s => s.mem ((c.tc : Thread nD τ).loc main_v11) = V5 m (outs m) c main_v11
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: each core's unscoped buffers are held at the launch contents; the generator register and the debts ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result and each argument read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c),
        (h (Proc.devRef .tc main_arg9) (Finset.mem_filter.mpr ⟨StableHlo.devRef_mem_tcRefs main_arg9, by decide⟩)).trans (V5_main_arg9 m (outs m) c),
        (h (Proc.devRef .tc main_arg10) (Finset.mem_filter.mpr ⟨StableHlo.devRef_mem_tcRefs main_arg10, by decide⟩)).trans (V5_main_arg10 m (outs m) c),
        (h (Proc.devRef .tc main_arg11) (Finset.mem_filter.mpr ⟨StableHlo.devRef_mem_tcRefs main_arg11, by decide⟩)).trans (V5_main_arg11 m (outs m) c)⟩
    · iexact HSI

end Cert.KernelIdeal.Run

end
-- ==== Proof.Spec.lean ====
/-
  The mathematics of the certificate, with no program in sight.

  Twelve inputs: two activations, already laid out as matrices of 8192 rows (`xh`: 512 columns, `xl`: 256
  columns), and the weights and biases of four linear layers and of a batch normalisation.  Everything is an
  extended real; every operation is the exact one.

  Both programs compute, with `θ = xh·Wθ + bθ`, `φ = xl·Wφ + bφ`, `g = xl·Wg + bg` (each 8192 × 256),

      y  = (θ φᵀ / 8192) g            (the reference: an 8192 × 8192 intermediate)
      y  = θ (φᵀ g) · (1/8192)        (the kernel: a 256 × 256 intermediate, summed over all 8192 rows)

  then `w = y·Ww + bw` (8192 × 512), the column mean `μ` and variance `σ²` of `w` over the 8192 rows

      σ² = mean ((w − μ)²)            (the reference)
      σ² = mean (w²) − μ²             (the kernel)

  and `z = (w − μ) · rsqrt (σ² + ε) · γ + β + xh`.  Over real inputs the two readings agree: the first by
  moving the finite sums across one another (distributivity, which is where finiteness is used), the second by
  the usual expansion of the square.
-/
import Idealize.ShloMosaic.PureOps.Ideal
import Idealize.ShloMosaic.PureOps.Ideal.Laws

noncomputable section

namespace Cert.Spec

open Idealize.ShloMosaic

/-- The reciprocal of the row count, `1/8192 = 2⁻¹³`: the kernel's literal multiplier, and what the reference's
    division by `8192` is on every extended real. -/
abbrev inv : EReal := ((1 / 8192 : ℝ) : EReal)

/-- The batch normalisation's `ε`: the one binary32 word both programs spell. It is never evaluated. -/
abbrev eps : EReal := Ideal.ofBits .f32 0x3727C5AC#32

/-- A linear layer: row `i` of `x` against column `a` of `w`, plus the bias. -/
def lin {R K N : ℕ} (x : Fin R → Fin K → EReal) (w : Fin K → Fin N → EReal) (b : Fin N → EReal)
    (i : Fin R) (a : Fin N) : EReal :=
  (∑ k : Fin K, x i k * w k a) + b a

/-- `pᵀ g`: entry `(a, c)` sums `p j a · g j c` over all rows `j`. -/
def gram {R A C : ℕ} (p : Fin R → Fin A → EReal) (g : Fin R → Fin C → EReal) (a : Fin A) (c : Fin C) : EReal :=
  ∑ j : Fin R, p j a * g j c

/-- The kernel's `y·Ww + bw` from `θ` and the small matrix `M = φᵀ g`: `y = (θ M) · (1/8192)`. -/
def wyOf {R : ℕ} (th : Fin R → Fin 256 → EReal) (M : Fin 256 → Fin 256 → EReal) (ww : Fin 256 → Fin 512 → EReal)
    (wb : Fin 512 → EReal) (i : Fin R) (d : Fin 512) : EReal :=
  (∑ c : Fin 256, ((∑ a : Fin 256, th i a * M a c) * inv) * ww c d) + wb d

/-- Column mean over the 8192 rows, as a sum times `1/8192`. -/
def meanOf (w : Fin 8192 → Fin 512 → EReal) (d : Fin 512) : EReal := (∑ i : Fin 8192, w i d) * inv

/-- Column variance, the kernel's way: mean of squares minus square of the mean. -/
def varOf (w : Fin 8192 → Fin 512 → EReal) (d : Fin 512) : EReal :=
  (∑ i : Fin 8192, w i d * w i d) * inv - meanOf w d * meanOf w d

/-- Column variance, the reference's way: mean of the squared deviations. -/
def varDev (w : Fin 8192 → Fin 512 → EReal) (d : Fin 512) : EReal :=
  (∑ i : Fin 8192, (w i d - meanOf w d) * (w i d - meanOf w d)) * inv

/-- The normalisation and the residual, given the column statistics. -/
def normOf (w : Fin 8192 → Fin 512 → EReal) (mu rstd gamma beta : Fin 512 → EReal) (xh : Fin 8192 → Fin 512 → EReal)
    (i : Fin 8192) (d : Fin 512) : EReal :=
  (w i d - mu d) * rstd d * gamma d + beta d + xh i d

/-- The twelve inputs, the two activations as matrices of 8192 rows. -/
structure Args where
  xh : Fin 8192 → Fin 512 → EReal
  xl : Fin 8192 → Fin 256 → EReal
  gw : Fin 256 → Fin 256 → EReal
  gb : Fin 256 → EReal
  thw : Fin 512 → Fin 256 → EReal
  thb : Fin 256 → EReal
  phw : Fin 256 → Fin 256 → EReal
  phb : Fin 256 → EReal
  ww : Fin 256 → Fin 512 → EReal
  wb : Fin 512 → EReal
  gamma : Fin 512 → EReal
  beta : Fin 512 → EReal

namespace Args
variable (A : Args)

def gx : Fin 8192 → Fin 256 → EReal := lin A.xl A.gw A.gb
def thx : Fin 8192 → Fin 256 → EReal := lin A.xh A.thw A.thb
def phx : Fin 8192 → Fin 256 → EReal := lin A.xl A.phw A.phb

/-! ### The kernel's reading -/

/-- `M = φᵀ g`, 256 × 256. -/
def Mk : Fin 256 → Fin 256 → EReal := gram A.phx A.gx
def wyk : Fin 8192 → Fin 512 → EReal := wyOf A.thx A.Mk A.ww A.wb
def zk : Fin 8192 → Fin 512 → EReal :=
  normOf A.wyk (meanOf A.wyk) (fun d => Ideal.rsqrt (varOf A.wyk d + eps)) A.gamma A.beta A.xh

/-! ### The reference's reading -/

/-- `θ φᵀ`, 8192 × 8192. -/
def en (i j : Fin 8192) : EReal := ∑ a : Fin 256, A.thx i a * A.phx j a
/-- `(θ φᵀ / 8192) g`. -/
def yr (i : Fin 8192) (c : Fin 256) : EReal := ∑ j : Fin 8192, (A.en i j * inv) * A.gx j c
def wyr : Fin 8192 → Fin 512 → EReal := lin A.yr A.ww A.wb
def zr : Fin 8192 → Fin 512 → EReal :=
  normOf A.wyr (meanOf A.wyr) (fun d => Ideal.rsqrt (varDev A.wyr d + eps)) A.gamma A.beta A.xh

end Args

/-- Real-valued inputs. -/
structure RArgs where
  xh : Fin 8192 → Fin 512 → ℝ
  xl : Fin 8192 → Fin 256 → ℝ
  gw : Fin 256 → Fin 256 → ℝ
  gb : Fin 256 → ℝ
  thw : Fin 512 → Fin 256 → ℝ
  thb : Fin 256 → ℝ
  phw : Fin 256 → Fin 256 → ℝ
  phb : Fin 256 → ℝ
  ww : Fin 256 → Fin 512 → ℝ
  wb : Fin 512 → ℝ
  gamma : Fin 512 → ℝ
  beta : Fin 512 → ℝ

/-- Real inputs read as extended reals. -/
def RArgs.toE (R : RArgs) : Args where
  xh i k := (R.xh i k : EReal)
  xl i k := (R.xl i k : EReal)
  gw k a := (R.gw k a : EReal)
  gb a := (R.gb a : EReal)
  thw k a := (R.thw k a : EReal)
  thb a := (R.thb a : EReal)
  phw k a := (R.phw k a : EReal)
  phb a := (R.phb a : EReal)
  ww c d := (R.ww c d : EReal)
  wb d := (R.wb d : EReal)
  gamma d := (R.gamma d : EReal)
  beta d := (R.beta d : EReal)

end Cert.Spec

end
-- ==== Proof.KI.Value0.lean ====
/-
  Region 0 of the kernel program at the extended reals: what its two output arrays hold after the region,
  index by index.  The θ array is the first projection `xh·Wθ + bθ`, row block by row block; the 256 × 256
  array is the Gram matrix `φᵀ g` of the two other projections, summed over all 8192 rows eight blocks of
  1024 rows at a time.
-/
import proofs.«131456_j40999757807684_1_alg».proof.Proof.KI.Region0
import proofs.«131456_j40999757807684_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The blocks the region reads, at coordinates

A block's coordinate in its array is the block index times the block's size plus the coordinate inside the
block.  The windows' index maps are decided over the eight grid points. -/

/-- The windows' index maps over the grid: the two activations and the θ output move one row block per point,
    every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = 0 ∧ win0_9.index t (1 : Fin 2) = 0 :=
  (by decide +kernel : ∀ t : Fin grid0.N, _)

/-- The grid has eight points. -/
theorem point_lt (t : Fin cfg0.N) : t.val < 8 := lt_of_lt_of_eq t.isLt (show cfg0.N = 8 from N_0)

/-- The `xh` block at point `t` holds rows `1024 t … 1024 t + 1023` of the array. -/
theorem iblk0_apply (c : Dev nD) (t : Fin cfg0.N) (p : Fin 1024) (q : Fin 512) :
    (iblk V c 0 t : Vec Ideal S1024x512 .f32) (ix2 p q)
      = (V c main_v0 : S8192x512.Idx → EReal) (ix2 ⟨1024 * t.val + p.val, by have := point_lt t; omega⟩ q) := by
  obtain ⟨e0, e1, -⟩ := idx_facts t
  unfold iblk
  rw [View.read_apply]
  show V c main_v0 _ = V c main_v0 _
  congr 1
  funext a
  apply Fin.ext
  match a with
  | ⟨0, _⟩ => show win0_0.index t (0 : Fin 2) * 1024 + 1 * p.val = 1024 * t.val + p.val; omega
  | ⟨1, _⟩ => show win0_0.index t (1 : Fin 2) * 512 + 1 * q.val = q.val; omega

/-- The `xl` block at point `t` holds rows `1024 t … 1024 t + 1023` of the array. -/
theorem iblk1_apply (c : Dev nD) (t : Fin cfg0.N) (p : Fin 1024) (q : Fin 256) :
    (iblk V c 1 t : Vec Ideal S1024x256 .f32) (ix2 p q)
      = (V c main_v1 : S8192x256.Idx → EReal) (ix2 ⟨1024 * t.val + p.val, by have := point_lt t; omega⟩ q) := by
  obtain ⟨-, -, e0, e1, -⟩ := idx_facts t
  unfold iblk
  rw [View.read_apply]
  show V c main_v1 _ = V c main_v1 _
  congr 1
  funext a
  apply Fin.ext
  match a with
  | ⟨0, _⟩ => show win0_1.index t (0 : Fin 2) * 1024 + 1 * p.val = 1024 * t.val + p.val; omega
  | ⟨1, _⟩ => show win0_1.index t (1 : Fin 2) * 256 + 1 * q.val = q.val; omega

/-- The `g` weights are one block: the whole array at every point. -/
theorem iblk2_eq (c : Dev nD) (t : Fin cfg0.N) :
    (iblk V c 2 t : Vec Ideal S256x256 .f32) = (V c main_arg2 : S256x256.Idx → EReal) := by
  obtain ⟨-, -, -, -, e0, e1, -⟩ := idx_facts t
  funext j
  unfold iblk
  rw [View.read_apply]
  show V c main_arg2 _ = V c main_arg2 _
  congr 1
  funext a
  apply Fin.ext
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- The `g` bias, as one row, is one block. -/
theorem iblk3_eq (c : Dev nD) (t : Fin cfg0.N) :
    (iblk V c 3 t : Vec Ideal S1x256 .f32) = (V c main_v2 : S1x256.Idx → EReal) := by
  obtain ⟨-, -, -, -, -, -, e0, e1, -⟩ := idx_facts t
  funext j
  unfold iblk
  rw [View.read_apply]
  show V c main_v2 _ = V c main_v2 _
  congr 1
  funext a
  apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- The `θ` weights are one block. -/
theorem iblk4_eq (c : Dev nD) (t : Fin cfg0.N) :
    (iblk V c 4 t : Vec Ideal S512x256 .f32) = (V c main_arg4 : S512x256.Idx → EReal) := by
  obtain ⟨-, -, -, -, -, -, -, -, e0, e1, -⟩ := idx_facts t
  funext j
  unfold iblk
  rw [View.read_apply]
  show V c main_arg4 _ = V c main_arg4 _
  congr 1
  funext a
  apply Fin.ext
  match a with
  | ⟨0, _⟩ => show win0_4.index t (0 : Fin 2) * 512 + 1 * (j 0).val = (j 0).val; omega
  | ⟨1, _⟩ => show win0_4.index t (1 : Fin 2) * 256 + 1 * (j 1).val = (j 1).val; omega

/-- The `θ` bias, as one row, is one block. -/
theorem iblk5_eq (c : Dev nD) (t : Fin cfg0.N) :
    (iblk V c 5 t : Vec Ideal S1x256 .f32) = (V c main_v3 : S1x256.Idx → EReal) := by
  obtain ⟨-, -, -, -, -, -, -, -, -, -, e0, e1, -⟩ := idx_facts t
  funext j
  unfold iblk
  rw [View.read_apply]
  show V c main_v3 _ = V c main_v3 _
  congr 1
  funext a
  apply Fin.ext
  match a with
  | ⟨0, _⟩ => show win0_5.index t (0 : Fin 2) * 1 + 1 * (j 0).val = (j 0).val; omega
  | ⟨1, _⟩ => show win0_5.index t (1 : Fin 2) * 256 + 1 * (j 1).val = (j 1).val; omega

/-- The `φ` weights are one block. -/
theorem iblk6_eq (c : Dev nD) (t : Fin cfg0.N) :
    (iblk V c 6 t : Vec Ideal S256x256 .f32) = (V c main_arg6 : S256x256.Idx → EReal) := by
  obtain ⟨-, -, -, -, -, -, -, -, -, -, -, -, e0, e1, -⟩ := idx_facts t
  funext j
  unfold iblk
  rw [View.read_apply]
  show V c main_arg6 _ = V c main_arg6 _
  congr 1
  funext a
  apply Fin.ext
  match a with
  | ⟨0, _⟩ => show win0_6.index t (0 : Fin 2) * 256 + 1 * (j 0).val = (j 0).val; omega
  | ⟨1, _⟩ => show win0_6.index t (1 : Fin 2) * 256 + 1 * (j 1).val = (j 1).val; omega

/-- The `φ` bias, as one row, is one block. -/
theorem iblk7_eq (c : Dev nD) (t : Fin cfg0.N) :
    (iblk V c 7 t : Vec Ideal S1x256 .f32) = (V c main_v4 : S1x256.Idx → EReal) := by
  obtain ⟨-, -, -, -, -, -, -, -, -, -, -, -, -, -, e0, e1, -⟩ := idx_facts t
  funext j
  unfold iblk
  rw [View.read_apply]
  show V c main_v4 _ = V c main_v4 _
  congr 1
  funext a
  apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega

/-! ## The three matrix products at an index

Each contracts one axis; the operand indices at an output index and a contraction position are read axis by
axis off the dimension numbers. -/

theorem lhs_xw512_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_xw512_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_xw512_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_xw512_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

theorem lhs_xw256_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_xw256_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_xw256_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_xw256_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

theorem lhs_gram_0 (i : S256x256.Idx) (q : dot_S1024x256_S1024x256_S256x256_0_0_1_1_n_n.contr.Idx) :
    (dot_S1024x256_S1024x256_S256x256_0_0_1_1_n_n.lhsIdx i q 0).val = (q ⟨0, by decide⟩).val :=
  dot_S1024x256_S1024x256_S256x256_0_0_1_1_n_n.lhsIdx_val_of_single rfl i q
theorem lhs_gram_1 (i : S256x256.Idx) (q : dot_S1024x256_S1024x256_S256x256_0_0_1_1_n_n.contr.Idx) :
    (dot_S1024x256_S1024x256_S256x256_0_0_1_1_n_n.lhsIdx i q 1).val = (i 0).val := by
  unfold DotDims.lhsIdx
  rw [dif_neg (show ¬(1 : Fin S1024x256.rank) ∈ dot_S1024x256_S1024x256_S256x256_0_0_1_1_n_n.lhsBatch by decide), dif_pos (show (1 : Fin S1024x256.rank) ∈ dot_S1024x256_S1024x256_S256x256_0_0_1_1_n_n.lhsNonContracting by decide)]
  rfl
theorem rhs_gram_0 (i : S256x256.Idx) (q : dot_S1024x256_S1024x256_S256x256_0_0_1_1_n_n.contr.Idx) :
    (dot_S1024x256_S1024x256_S256x256_0_0_1_1_n_n.rhsIdx i q 0).val = (q ⟨0, by decide⟩).val :=
  dot_S1024x256_S1024x256_S256x256_0_0_1_1_n_n.rhsIdx_val_of_single rfl i q
theorem rhs_gram_1 (i : S256x256.Idx) (q : dot_S1024x256_S1024x256_S256x256_0_0_1_1_n_n.contr.Idx) :
    (dot_S1024x256_S1024x256_S256x256_0_0_1_1_n_n.rhsIdx i q 1).val = (i 1).val := by
  unfold DotDims.rhsIdx
  rw [dif_neg (show ¬(1 : Fin S1024x256.rank) ∈ dot_S1024x256_S1024x256_S256x256_0_0_1_1_n_n.rhsBatch by decide), dif_pos (show (1 : Fin S1024x256.rank) ∈ dot_S1024x256_S1024x256_S256x256_0_0_1_1_n_n.rhsNonContracting by decide)]
  rfl

/-- A [1024,512] × [512,256] product into the zero accumulator, at `(p, a)`: the sum over the 512 contracted columns. -/
theorem matmul_xw512_apply (l : FVec Ideal S1024x512 .bf16) (r : FVec Ideal S512x256 .bf16) (p : Fin 1024) (a : Fin 256) :
    matmul dot_S1024x512_S512x256_S1024x256_1_0_0_1_n_n none l r (constant (F := Ideal) S1024x256 .f32 0x00000000#32) (ix2 p a)
      = ∑ k : Fin 512, l (ix2 p k) * r (ix2 k a) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p a) ((contrEquiv1 dot_S1024x512_S512x256_S1024x256_1_0_0_1_n_n 512 rfl rfl).symm k) = ix2 p k := funext fun x => Fin.ext (by
    match x with
    | ⟨0, _⟩ => exact lhs_xw512_0 _ _
    | ⟨1, _⟩ => exact (lhs_xw512_1 _ _).trans hk)
  have er : dot_S1024x512_S512x256_S1024x256_1_0_0_1_n_n.rhsIdx (ix2 p a) ((contrEquiv1 dot_S1024x512_S512x256_S1024x256_1_0_0_1_n_n 512 rfl rfl).symm k) = ix2 k a := funext fun x => Fin.ext (by
    match x with
    | ⟨0, _⟩ => exact (rhs_xw512_0 _ _).trans hk
    | ⟨1, _⟩ => exact rhs_xw512_1 _ _)
  rw [el, er]

/-- A [1024,256] × [256,256] product into the zero accumulator, at `(p, a)`: the sum over the 256 contracted columns. -/
theorem matmul_xw256_apply (l : FVec Ideal S1024x256 .bf16) (r : FVec Ideal S256x256 .bf16) (p : Fin 1024) (a : Fin 256) :
    matmul dot_S1024x256_S256x256_S1024x256_1_0_0_1_n_n none l r (constant (F := Ideal) S1024x256 .f32 0x00000000#32) (ix2 p a)
      = ∑ k : Fin 256, l (ix2 p k) * r (ix2 k a) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p a) ((contrEquiv1 dot_S1024x256_S256x256_S1024x256_1_0_0_1_n_n 256 rfl rfl).symm k) = ix2 p k := funext fun x => Fin.ext (by
    match x with
    | ⟨0, _⟩ => exact lhs_xw256_0 _ _
    | ⟨1, _⟩ => exact (lhs_xw256_1 _ _).trans hk)
  have er : dot_S1024x256_S256x256_S1024x256_1_0_0_1_n_n.rhsIdx (ix2 p a) ((contrEquiv1 dot_S1024x256_S256x256_S1024x256_1_0_0_1_n_n 256 rfl rfl).symm k) = ix2 k a := funext fun x => Fin.ext (by
    match x with
    | ⟨0, _⟩ => exact (rhs_xw256_0 _ _).trans hk
    | ⟨1, _⟩ => exact rhs_xw256_1 _ _)
  rw [el, er]

/-- The transposed product `lᵀ r` of two [1024,256] blocks on top of an accumulator, at `(a, c')`: the
    accumulator there plus the sum over the 1024 contracted rows. -/
theorem matmul_gram_apply (l : FVec Ideal S1024x256 .bf16) (r : FVec Ideal S1024x256 .bf16) (acc : FVec Ideal S256x256 .f32)
    (a : Fin 256) (c' : Fin 256) :
    matmul dot_S1024x256_S1024x256_S256x256_0_0_1_1_n_n none l r acc (ix2 a c')
      = acc (ix2 a c') + ∑ k : Fin 1024, l (ix2 k a) * r (ix2 k c') := by
  simp only [matmul]
  rw [Ideal.matmul_apply, ← Equiv.sum_comp (contrEquiv1 dot_S1024x256_S1024x256_S256x256_0_0_1_1_n_n 1024 rfl rfl).symm]
  refine congrArg (acc (ix2 a c') + ·) (Finset.sum_congr rfl fun k _ => ?_)
  have hk := contrEquiv1_symm_val dot_S1024x256_S1024x256_S256x256_0_0_1_1_n_n 1024 rfl rfl k
  have el : dot_S1024x256_S1024x256_S256x256_0_0_1_1_n_n.lhsIdx (ix2 a c') ((contrEquiv1 dot_S1024x256_S1024x256_S256x256_0_0_1_1_n_n 1024 rfl rfl).symm k) = ix2 k a := funext fun x => Fin.ext (by
    match x with
    | ⟨0, _⟩ => exact (lhs_gram_0 _ _).trans hk
    | ⟨1, _⟩ => exact lhs_gram_1 _ _)
  have er : dot_S1024x256_S1024x256_S256x256_0_0_1_1_n_n.rhsIdx (ix2 a c') ((contrEquiv1 dot_S1024x256_S1024x256_S256x256_0_0_1_1_n_n 1024 rfl rfl).symm k) = ix2 k c' := funext fun x => Fin.ext (by
    match x with
    | ⟨0, _⟩ => exact (rhs_gram_0 _ _).trans hk
    | ⟨1, _⟩ => exact rhs_gram_1 _ _)
  rw [el, er]

/-! ## The payloads at an index

A change of float format is the identity at the extended reals; a product into the zero splat is the plain
sum; the bias row broadcast over the 1024 rows reads the bias at its one row. -/

/-- One linear layer of a row block: `x·w + b` at `(p, a)`. -/
theorem pay4_apply (x : Vec Ideal S1024x512 .f32) (w : Vec Ideal S512x256 .f32) (b : Vec Ideal S1x256 .f32)
    (p : Fin 1024) (a : Fin 256) :
    k0_pay4 x w b (ix2 p a) = (∑ k : Fin 512, x (ix2 p k) * w (ix2 k a)) + b (ix2 (0 : Fin 1) a) := by
  unfold k0_pay4
  rw [addf_apply, matmul_xw512_apply, broadcastTo_1b_ab_apply]
  simp only [truncf_apply, shapeCast_self]

/-- The `φ` projection of a row block of `xl`, at `(p, a)`. -/
theorem pay5_apply (x : Vec Ideal S1024x256 .f32) (w : Vec Ideal S256x256 .f32) (b : Vec Ideal S1x256 .f32)
    (p : Fin 1024) (a : Fin 256) :
    k0_pay5 x w b (ix2 p a) = (∑ k : Fin 256, x (ix2 p k) * w (ix2 k a)) + b (ix2 (0 : Fin 1) a) := by
  unfold k0_pay5 k0_pay3
  dsimp only
  rw [truncf_apply, addf_apply, matmul_xw256_apply, broadcastTo_1b_ab_apply]
  simp only [truncf_apply, shapeCast_self]

/-- The `g` projection of a row block of `xl`, at `(p, a)`. -/
theorem pay6_apply (x : Vec Ideal S1024x256 .f32) (w : Vec Ideal S256x256 .f32) (b : Vec Ideal S1x256 .f32)
    (p : Fin 1024) (a : Fin 256) :
    k0_pay6 x w b (ix2 p a) = (∑ k : Fin 256, x (ix2 p k) * w (ix2 k a)) + b (ix2 (0 : Fin 1) a) := by
  unfold k0_pay6 k0_pay3
  dsimp only
  rw [truncf_apply, addf_apply, matmul_xw256_apply, broadcastTo_1b_ab_apply]
  simp only [truncf_apply, shapeCast_self]

/-- The accumulator's update at `(a, c')`: what it held plus the block's `φᵀ g` there. -/
theorem pay1_apply (l r : FVec Ideal S1024x256 .bf16) (acc : Vec Ideal S256x256 .f32) (a c' : Fin 256) :
    k0_pay1 l r (constant (F := Ideal) S256x256 .f32 0x00000000#32) acc (ix2 a c')
      = acc (ix2 a c') + ∑ k : Fin 1024, l (ix2 k a) * r (ix2 k c') := by
  unfold k0_pay1
  rw [shapeCast_self, addf_apply, matmul_gram_apply, constant_apply, Ideal.ofBits_zero_f32, zero_add]

/-- The accumulator's reset is zero everywhere. -/
theorem pay2_apply (j : S256x256.Idx) : (k0_pay2 (F := Ideal)) j = 0 := by
  unfold k0_pay2
  rw [shapeCast_self, broadcast_apply]
  exact Ideal.ofBits_zero_f32

/-! ## The θ array: block `t` is rows `1024 t … 1024 t + 1023` of `xh·Wθ + bθ` -/

/-- What the θ array ends holding: the linear layer of `xh`, row by row. -/
def thetaArr (c : Dev nD) : S8192x256.Idx → EReal := fun j =>
  Cert.Spec.lin (fun i k => V c main_v0 (ix2 i k)) (fun k a => V c main_arg4 (ix2 k a)) (fun a => V c main_v3 (ix2 0 a)) (j 0) (j 1)

/-- The θ block of point `t` at `(p, a)` is the array's row `1024 t + p` there. -/
theorem thetaBlk_apply (c : Dev nD) (t : Fin cfg0.N) (p : Fin 1024) (a : Fin 256) :
    thetaBlk V c t (ix2 p a) = thetaArr V c (ix2 ⟨1024 * t.val + p.val, by have := point_lt t; omega⟩ a) := by
  unfold thetaBlk
  refine (pay4_apply (iblk V c 0 t) (iblk V c 4 t) (iblk V c 5 t) p a).trans ?_
  rw [iblk4_eq V c t, iblk5_eq V c t]
  simp only [iblk0_apply V c t]
  rfl

/-- What point `t` writes back to the θ array is block `t` of `thetaArr`. -/
theorem flushed8_eq (c : Dev nD) (t : Fin cfg0.N) :
    (dat V c).flushed 8 t = ((cfg0.win 8).blk t).view.read (Elt Ideal) (thetaArr V c) := by
  obtain ⟨-, -, -, -, -, -, -, -, -, -, -, -, -, -, -, -, e0, e1, -⟩ := idx_facts t
  show (cfg0.win 8).cut (grid0.coords t) ((dat V c).after 8 t) = _
  rw [after_8]
  funext y
  obtain ⟨p, a, rfl⟩ : ∃ (p : Fin 1024) (a : Fin 256), y = ix2 p a := ⟨y 0, y 1, eq_ix2 y⟩
  rw [View.read_apply]
  show thetaBlk V c t (ix2 p a) = thetaArr V c (((cfg0.win 8).blk t).view.emb (ix2 p a))
  rw [thetaBlk_apply]
  congr 1
  funext x
  apply Fin.ext
  match x with
  | ⟨0, _⟩ => show 1024 * t.val + p.val = win0_8.index t (0 : Fin 2) * 1024 + 1 * p.val; omega
  | ⟨1, _⟩ => show a.val = win0_8.index t (1 : Fin 2) * 256 + 1 * a.val; omega

/-- An index of the θ array is in point `t`'s block iff each coordinate is in the block's range on its axis. -/
theorem mem_blk8 (t : Fin cfg0.N) (i : S8192x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v8_0).slice (win0_8.rect t)).set ↔ _
  rw [View.set_slice_whole, Rect.mem_set_unit]
  exact Iff.rfl

/-- Every row lies in a block: row `r` in the block of point `r / 1024`. -/
theorem cover8 (i : S8192x256.Idx) :
    ∃ t : Fin cfg0.N, (cfg0.win 8).flush t = true ∧ i ∈ ((cfg0.win 8).blk t).view.set := by
  have hi0 : (i 0).val < 8192 := (i 0).isLt
  have hi1 : (i 1).val < 256 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, -, -, -, -, -, -, -, -, -, -, e0, e1, -⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- The θ array after the region. -/
theorem arr8_eq (c : Dev nD) : (dat V c).arrAt 8 cfg0.N = thetaArr V c :=
  (dat V c).arrAt_eq_of_cover 8 (thetaArr V c) (fun t _ => flushed8_eq V c t) cover8

/-- The θ array after the region, index by index: `xh·Wθ + bθ`. -/
theorem arr_theta (c : Dev nD) (i : Fin 8192) (a : Fin 256) :
    (dat (F := Ideal) V c).arrAt 8 cfg0.N (ValueIdx.ix2 i a)
      = Cert.Spec.lin (fun i k => V c main_v0 (ValueIdx.ix2 i k)) (fun k a => V c main_arg4 (ValueIdx.ix2 k a)) (fun a => V c main_v3 (ValueIdx.ix2 0 a)) i a := by
  rw [arr8_eq]
  rfl

/-! ## The accumulator: eight row blocks of `φᵀ g`, summed -/

/-- The `φ` projection of `xl`, all 8192 rows. -/
def phiArr (c : Dev nD) : Fin 8192 → Fin 256 → EReal :=
  Cert.Spec.lin (fun i k => V c main_v1 (ix2 i k)) (fun k a => V c main_arg6 (ix2 k a)) (fun a => V c main_v4 (ix2 0 a))

/-- The `g` projection of `xl`, all 8192 rows. -/
def gArr (c : Dev nD) : Fin 8192 → Fin 256 → EReal :=
  Cert.Spec.lin (fun i k => V c main_v1 (ix2 i k)) (fun k a => V c main_arg2 (ix2 k a)) (fun a => V c main_v2 (ix2 0 a))

/-- Row block `t`'s share of `(φᵀ g)[a, c']`: the sum over its 1024 rows. -/
def blockGram (c : Dev nD) (a c' : Fin 256) (t : ℕ) (ht : t < 8) : EReal :=
  ∑ r : Fin 1024, phiArr V c ⟨1024 * t + r.val, by omega⟩ a * gArr V c ⟨1024 * t + r.val, by omega⟩ c'

/-- One point adds its row block's share to what the accumulator held. -/
theorem accStep_apply (c : Dev nD) (t : Fin cfg0.N) (acc : Vec Ideal S256x256 .f32) (a c' : Fin 256) :
    accStep V c t acc (ix2 a c') = acc (ix2 a c') + blockGram V c a c' t.val (point_lt t) := by
  unfold accStep
  refine (pay1_apply (k0_pay5 (iblk V c 1 t) (iblk V c 6 t) (iblk V c 7 t))
    (k0_pay6 (iblk V c 1 t) (iblk V c 2 t) (iblk V c 3 t)) acc a c').trans ?_
  refine congrArg (acc (ix2 a c') + ·) (Finset.sum_congr rfl fun r _ => ?_)
  rw [pay5_apply (iblk V c 1 t) (iblk V c 6 t) (iblk V c 7 t) r a,
    pay6_apply (iblk V c 1 t) (iblk V c 2 t) (iblk V c 3 t) r c',
    iblk6_eq V c t, iblk7_eq V c t, iblk2_eq V c t, iblk3_eq V c t]
  simp only [iblk1_apply V c t]
  rfl

/-- After the last point the accumulator holds the eight shares, added in point order onto zero. -/
theorem accAt7_apply (c : Dev nD) (a c' : Fin 256) (h : 7 < cfg0.N) :
    accAt V c 7 h (ix2 a c') = ∑ t : Fin 8, blockGram V c a c' t.val t.isLt := by
  rw [Fin.sum_univ_eight]
  show accStep V c ⟨7, _⟩ (accStep V c ⟨6, _⟩ (accStep V c ⟨5, _⟩ (accStep V c ⟨4, _⟩ (accStep V c ⟨3, _⟩
    (accStep V c ⟨2, _⟩ (accStep V c ⟨1, _⟩ (accStep V c ⟨0, _⟩ (k0_pay2 (F := Ideal))))))))) (ix2 a c') = _
  rw [accStep_apply, accStep_apply, accStep_apply, accStep_apply, accStep_apply, accStep_apply, accStep_apply,
    accStep_apply, pay2_apply, zero_add]
  rfl

/-- The 8192 rows are eight blocks of 1024: row `1024 t + r` is row `r` of block `t`. -/
theorem gram_eq_blocks (c : Dev nD) (a c' : Fin 256) :
    Cert.Spec.gram (phiArr V c) (gArr V c) a c' = ∑ t : Fin 8, blockGram V c a c' t.val t.isLt := by
  unfold Cert.Spec.gram blockGram
  refine (Equiv.sum_comp ((finProdFinEquiv : Fin 8 × Fin 1024 ≃ Fin (8 * 1024)).trans (finCongr (show 8 * 1024 = 8192 from rfl)))
    (fun j : Fin 8192 => phiArr V c j a * gArr V c j c')).symm.trans ?_
  rw [Fintype.sum_prod_type]
  refine Finset.sum_congr rfl fun t _ => Finset.sum_congr rfl fun r _ => ?_
  have e : ((finProdFinEquiv : Fin 8 × Fin 1024 ≃ Fin (8 * 1024)).trans (finCongr (show 8 * 1024 = 8192 from rfl))) (t, r)
      = (⟨1024 * t.val + r.val, by omega⟩ : Fin 8192) :=
    Fin.ext (by show r.val + 1024 * t.val = 1024 * t.val + r.val; omega)
  rw [e]

/-! ## The 256 × 256 array: one block, written back once, after the last point -/

/-- What the 256 × 256 array ends holding: `φᵀ g`. -/
def gramArr (c : Dev nD) : S256x256.Idx → EReal := fun j =>
  Cert.Spec.gram (phiArr V c) (gArr V c) (j 0) (j 1)

/-- The one point that writes the accumulator back writes `φᵀ g`. -/
theorem flushed9_eq (c : Dev nD) (t : Fin cfg0.N) (hf : (cfg0.win 9).flush t = true) :
    (dat V c).flushed 9 t = ((cfg0.win 9).blk t).view.read (Elt Ideal) (gramArr V c) := by
  have ht : t.val = 7 := by have h1 := (flush0_9 t).mp hf; have h2 := point_lt t; omega
  obtain ⟨-, -, -, -, -, -, -, -, -, -, -, -, -, -, -, -, -, -, e0, e1⟩ := idx_facts t
  show (cfg0.win 9).cut (grid0.coords t) ((dat V c).after 9 t) = _
  rw [after_9_last V c t ht]
  funext y
  obtain ⟨a, c', rfl⟩ : ∃ (a : Fin 256) (c' : Fin 256), y = ix2 a c' := ⟨y 0, y 1, eq_ix2 y⟩
  rw [View.read_apply]
  show accAt V c 7 _ (ix2 a c') = gramArr V c (((cfg0.win 9).blk t).view.emb (ix2 a c'))
  rw [accAt7_apply, ← gram_eq_blocks]
  show gramArr V c (ix2 a c') = _
  congr 1
  funext x
  apply Fin.ext
  match x with
  | ⟨0, _⟩ => show a.val = win0_9.index t (0 : Fin 2) * 256 + 1 * a.val; omega
  | ⟨1, _⟩ => show c'.val = win0_9.index t (1 : Fin 2) * 256 + 1 * c'.val; omega

/-- An index of the 256 × 256 array is in point `t`'s block iff each coordinate is in the block's range. -/
theorem mem_blk9 (t : Fin cfg0.N) (i : S256x256.Idx) :
    i ∈ ((cfg0.win 9).blk t).view.set ↔ ∀ a : Fin 2, win0_9.index t a * S256x256.size a ≤ (i a).val ∧ (i a).val < win0_9.index t a * S256x256.size a + S256x256.size a := by
  show i ∈ ((View.whole main_v8_1).slice (win0_9.rect t)).set ↔ _
  rw [View.set_slice_whole, Rect.mem_set_unit]
  exact Iff.rfl

/-- The last point's block is the whole array. -/
theorem cover9 (i : S256x256.Idx) :
    ∃ t : Fin cfg0.N, (cfg0.win 9).flush t = true ∧ i ∈ ((cfg0.win 9).blk t).view.set := by
  have hi0 : (i 0).val < 256 := (i 0).isLt
  have hi1 : (i 1).val < 256 := (i 1).isLt
  obtain ⟨t, ht⟩ : ∃ t : Fin cfg0.N, t.val = 7 := ⟨⟨7, by rw [show cfg0.N = 8 from N_0]; omega⟩, rfl⟩
  obtain ⟨-, -, -, -, -, -, -, -, -, -, -, -, -, -, -, -, -, -, e0, e1⟩ := idx_facts t
  refine ⟨t, (flush0_9 t).mpr (by rw [ht]), ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 256 ≤ (i 1).val ∧ (i 1).val < win0_9.index t (1 : Fin 2) * 256 + 256; omega

/-- The 256 × 256 array after the region. -/
theorem arr9_eq (c : Dev nD) : (dat V c).arrAt 9 cfg0.N = gramArr V c :=
  (dat V c).arrAt_eq_of_cover 9 (gramArr V c) (fun t hf => flushed9_eq V c t hf) cover9

/-- The 256 × 256 array after the region, index by index: `φᵀ g` over all 8192 rows. -/
theorem arr_M (c : Dev nD) (a c' : Fin 256) :
    (dat (F := Ideal) V c).arrAt 9 cfg0.N (ValueIdx.ix2 a c')
      = Cert.Spec.gram (Cert.Spec.lin (fun i k => V c main_v1 (ValueIdx.ix2 i k)) (fun k a => V c main_arg6 (ValueIdx.ix2 k a)) (fun a => V c main_v4 (ValueIdx.ix2 0 a)))
                       (Cert.Spec.lin (fun i k => V c main_v1 (ValueIdx.ix2 i k)) (fun k a => V c main_arg2 (ValueIdx.ix2 k a)) (fun a => V c main_v2 (ValueIdx.ix2 0 a))) a c' := by
  rw [arr9_eq]
  rfl

end Cert.KernelIdeal.R0

end
-- ==== Proof.Consts.lean ====
/-
  The float constants the kernel program spells, as the extended reals their bit patterns denote.
  One module states them all, so that no other module unfolds the decoding of a pattern.
-/
import Idealize.ShloMosaic.PureOps.Ideal
import proofs.«131456_j40999757807684_1_alg».proof.Proof.Spec

noncomputable section

namespace Cert.Consts

open Idealize.ShloMosaic

/-- `+0.0` denotes `0`. -/
theorem ofBits_zero : Ideal.ofBits .f32 0#32 = 0 := by
  simp [Ideal.ofBits, Ideal.ieee]

/-- `2⁻¹³`, the kernel's multiplier, denotes the reciprocal of the row count. -/
theorem ofBits_inv : Ideal.ofBits .f32 0x39000000#32 = Cert.Spec.inv := by
  simp [Ideal.ofBits, Ideal.ieee, -EReal.coe_mul]; norm_num

/-- `2¹³`, the reference's divisor, denotes the row count `8192`. -/
theorem ofBits_8192 : Ideal.ofBits .f32 0x46000000#32 = ((8192 : ℝ) : EReal) := by
  simp [Ideal.ofBits, Ideal.ieee, -EReal.coe_mul]; norm_num

end Cert.Consts

end
-- ==== Proof.KI.Value1.lean ====
/-
  What region 1's output arrays hold after the region, index by index, at the ideal values: the matrix
  `w = ((θ M) · 2⁻¹³) Ww + bw`, its column mean, and the reciprocal standard deviation of its columns.
-/
import proofs.«131456_j40999757807684_1_alg».proof.Proof.KI.Region1
import proofs.«131456_j40999757807684_1_alg».proof.Proof.Spec
import proofs.«131456_j40999757807684_1_alg».proof.Proof.Consts
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The matrix `w` as the function of the four arrays the region reads. -/
abbrev W (c : Dev nD) : Fin 8192 → Fin 512 → EReal :=
  Cert.Spec.wyOf (fun i a => V c main_v8_0 (ix2 i a)) (fun a c' => V c main_v8_1 (ix2 a c'))
    (fun c' d => V c main_arg8 (ix2 c' d)) (fun d => V c main_v5 (ix2 0 d))

namespace Value1

/-- The block index maps, decided over the grid: `θ`'s and `w`'s row block moves with the point, every other
    block is the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of `θ`'s block at point `t` is row `1024 t + p` of the array. -/
theorem iblk0_apply (c : Dev nD) (t : Fin cfg1.N) (p : Fin 1024) (a : Fin 256) (i : Fin 8192)
    (hi : i.val = 1024 * t.val + p.val) :
    (iblk V c 0 t : Vec Ideal S1024x256 .f32) (ix2 p a) = V c main_v8_0 (ix2 i a) := by
  obtain ⟨e0, e1, -⟩ := idx_facts t
  unfold iblk
  rw [View.read_apply]
  show V c main_v8_0 _ = V c main_v8_0 _
  congr 1
  funext b
  apply Fin.ext
  match b with
  | ⟨0, _⟩ => show win1_0.index t (0 : Fin 2) * 1024 + 1 * p.val = i.val; rw [e0, hi]; omega
  | ⟨1, _⟩ => show win1_0.index t (1 : Fin 2) * 256 + 1 * a.val = a.val; rw [e1]; omega

theorem lhs_thM_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_thM_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_thM_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_thM_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A product into the zero accumulator, read at `(p, e)`: row `p` of the left factor against column `e` of the right. -/
theorem matmul_thM_apply (x : FVec Ideal S1024x256 .bf16) (y : FVec Ideal S256x256 .bf16) (p : Fin 1024) (e : Fin 256) :
    matmul dot_S1024x256_S256x256_S1024x256_1_0_0_1_n_n none x y (constant (F := Ideal) S1024x256 .f32 0x00000000#32) (ix2 p e)
      = ∑ k : Fin 256, x (ix2 p k) * y (ix2 k e) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p e) ((contrEquiv1 dot_S1024x256_S256x256_S1024x256_1_0_0_1_n_n 256 rfl rfl).symm k) = ix2 p k := funext fun a => Fin.ext (by
    match a with
    | ⟨0, _⟩ => exact lhs_thM_0 _ _
    | ⟨1, _⟩ => exact (lhs_thM_1 _ _).trans hk)
  have er : dot_S1024x256_S256x256_S1024x256_1_0_0_1_n_n.rhsIdx (ix2 p e) ((contrEquiv1 dot_S1024x256_S256x256_S1024x256_1_0_0_1_n_n 256 rfl rfl).symm k) = ix2 k e := funext fun a => Fin.ext (by
    match a with
    | ⟨0, _⟩ => exact (rhs_thM_0 _ _).trans hk
    | ⟨1, _⟩ => exact rhs_thM_1 _ _)
  rw [el, er]

theorem lhs_yW_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_yW_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_yW_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_yW_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A product into the zero accumulator, read at `(p, e)`: row `p` of the left factor against column `e` of the right. -/
theorem matmul_yW_apply (x : FVec Ideal S1024x256 .bf16) (y : FVec Ideal S256x512 .bf16) (p : Fin 1024) (e : Fin 512) :
    matmul dot_S1024x256_S256x512_S1024x512_1_0_0_1_n_n none x y (constant (F := Ideal) S1024x512 .f32 0x00000000#32) (ix2 p e)
      = ∑ k : Fin 256, x (ix2 p k) * y (ix2 k e) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p e) ((contrEquiv1 dot_S1024x256_S256x512_S1024x512_1_0_0_1_n_n 256 rfl rfl).symm k) = ix2 p k := funext fun a => Fin.ext (by
    match a with
    | ⟨0, _⟩ => exact lhs_yW_0 _ _
    | ⟨1, _⟩ => exact (lhs_yW_1 _ _).trans hk)
  have er : dot_S1024x256_S256x512_S1024x512_1_0_0_1_n_n.rhsIdx (ix2 p e) ((contrEquiv1 dot_S1024x256_S256x512_S1024x512_1_0_0_1_n_n 256 rfl rfl).symm k) = ix2 k e := funext fun a => Fin.ext (by
    match a with
    | ⟨0, _⟩ => exact (rhs_yW_0 _ _).trans hk
    | ⟨1, _⟩ => exact rhs_yW_1 _ _)
  rw [el, er]

/-- The `w` block at `(p, d)`: `((θ M)[p, ·] · 2⁻¹³)` against column `d` of `Ww`, plus the bias. A change of float
    format is the identity on the ideal values, and both products start from the zero accumulator. -/
theorem pay6_apply (x0 : Vec Ideal S1024x256 .f32) (x1 : Vec Ideal S256x256 .f32) (x2 : Vec Ideal S256x512 .f32)
    (x3 : Vec Ideal S1x512 .f32) (p : Fin 1024) (d : Fin 512) :
    k1_pay6 x0 x1 x2 x3 (ix2 p d)
      = (∑ c' : Fin 256, ((∑ a : Fin 256, x0 (ix2 p a) * x1 (ix2 a c')) * Cert.Spec.inv) * x2 (ix2 c' d)) + x3 (ix2 0 d) := by
  unfold k1_pay6
  rw [addf_apply, matmul_yW_apply, broadcastTo_1b_ab_apply, shapeCast_self x3]
  congr 1
  refine Finset.sum_congr rfl fun c' _ => ?_
  rw [truncf_apply, truncf_apply, mulf_apply, broadcast_apply, matmul_thM_apply, Ideal.ofBits_def, Cert.Consts.ofBits_inv]
  congr 2
  refine Finset.sum_congr rfl fun a _ => ?_
  simp only [truncf_apply, shapeCast_self]

/-- The blocks of the three arrays the region holds whole are the arrays. -/
theorem iblk1_apply (c : Dev nD) (t : Fin cfg1.N) (a : Fin 256) (e : Fin 256) :
    (iblk V c 1 t : Vec Ideal S256x256 .f32) (ix2 a e) = V c main_v8_1 (ix2 a e) := by
  obtain ⟨-, -, e0, e1, -⟩ := idx_facts t
  unfold iblk
  rw [View.read_apply]
  show V c main_v8_1 _ = V c main_v8_1 _
  congr 1
  funext b
  apply Fin.ext
  match b with
  | ⟨0, _⟩ => show win1_1.index t (0 : Fin 2) * 256 + 1 * a.val = a.val; rw [e0]; omega
  | ⟨1, _⟩ => show win1_1.index t (1 : Fin 2) * 256 + 1 * e.val = e.val; rw [e1]; omega

theorem iblk2_apply (c : Dev nD) (t : Fin cfg1.N) (a : Fin 256) (d : Fin 512) :
    (iblk V c 2 t : Vec Ideal S256x512 .f32) (ix2 a d) = V c main_arg8 (ix2 a d) := by
  obtain ⟨-, -, -, -, e0, e1, -⟩ := idx_facts t
  unfold iblk
  rw [View.read_apply]
  show V c main_arg8 _ = V c main_arg8 _
  congr 1
  funext b
  apply Fin.ext
  match b with
  | ⟨0, _⟩ => show win1_2.index t (0 : Fin 2) * 256 + 1 * a.val = a.val; rw [e0]; omega
  | ⟨1, _⟩ => show win1_2.index t (1 : Fin 2) * 512 + 1 * d.val = d.val; rw [e1]; omega

theorem iblk3_apply (c : Dev nD) (t : Fin cfg1.N) (d : Fin 512) :
    (iblk V c 3 t : Vec Ideal S1x512 .f32) (ix2 0 d) = V c main_v5 (ix2 0 d) := by
  obtain ⟨-, -, -, -, -, -, e0, e1, -⟩ := idx_facts t
  unfold iblk
  rw [View.read_apply]
  show V c main_v5 _ = V c main_v5 _
  congr 1
  funext b
  apply Fin.ext
  match b with
  | ⟨0, _⟩ => show win1_3.index t (0 : Fin 2) * 1 + 1 * 0 = 0; rw [e0]
  | ⟨1, _⟩ => show win1_3.index t (1 : Fin 2) * 512 + 1 * d.val = d.val; rw [e1]; omega

/-- Row `p` of the `w` block of point `t` is row `1024 t + p` of `w`. -/
theorem wyBlk_apply (c : Dev nD) (t : Fin cfg1.N) (p : Fin 1024) (d : Fin 512) (i : Fin 8192)
    (hi : i.val = 1024 * t.val + p.val) :
    wyBlk V c t (ix2 p d) = W V c i d := by
  unfold wyBlk
  refine (pay6_apply (iblk V c 0 t) (iblk V c 1 t) (iblk V c 2 t) (iblk V c 3 t) p d).trans ?_
  show _ = Cert.Spec.wyOf _ _ _ _ i d
  unfold Cert.Spec.wyOf
  rw [iblk3_apply]
  refine congrArg (· + _) (Finset.sum_congr rfl fun c' _ => ?_)
  rw [iblk2_apply]
  refine congrArg (· * _) (congrArg (· * _) (Finset.sum_congr rfl fun a _ => ?_))
  rw [iblk0_apply V c t p a i hi, iblk1_apply]

/-- The sum over the 1024 rows of a block, laid out as a row, read at lane `d`. -/
theorem laneSum_apply (src : FVec Ideal S1024x512 .f32) (d : Fin 512) :
    shapeCast S1x512 (multiReduction (F := Ideal) .add [0] S512 src 0x00000000#32 reduces_S1024x512_S512 (.inl rfl) rfl)
        shapeCasts_S512_S1x512 (ix2 0 d)
      = ∑ p : Fin 1024, src (ix2 p d) := by
  rw [shapeCast_a_1a_apply]
  refine (Ideal.multiReduction_add_single src 0x00000000#32 reduces_S1024x512_S512 (.inl rfl) rfl (ix1 d)).trans ?_
  refine Finset.sum_congr rfl fun p _ => congrArg src ?_
  funext a
  apply Fin.ext
  match a with
  | ⟨0, _⟩ => rfl
  | ⟨1, _⟩ => rfl

/-- One more point of the running column sum: the block's column sums added on. -/
theorem pay7_apply (x0 : Vec Ideal S1024x256 .f32) (x1 : Vec Ideal S256x256 .f32) (x2 : Vec Ideal S256x512 .f32)
    (x3 : Vec Ideal S1x512 .f32) (acc : Vec Ideal S1x512 .f32) (d : Fin 512) :
    k1_pay7 x0 x1 x2 x3 acc (ix2 0 d) = acc (ix2 0 d) + ∑ p : Fin 1024, k1_pay6 x0 x1 x2 x3 (ix2 p d) := by
  unfold k1_pay7
  refine (congrFun (shapeCast_self _ shapeCasts_S1x512_S1x512) (ix2 0 d)).trans ?_
  refine (addf_apply _ _ _).trans ?_
  exact congrArg (acc (ix2 0 d) + ·) (laneSum_apply _ d)

/-- One more point of the running column sum of squares. -/
theorem pay8_raw (x0 : Vec Ideal S1024x256 .f32) (x1 : Vec Ideal S256x256 .f32) (x2 : Vec Ideal S256x512 .f32)
    (x3 : Vec Ideal S1x512 .f32) (acc : Vec Ideal S1x512 .f32) (d : Fin 512) :
    k1_pay8 x0 x1 x2 x3 acc (ix2 0 d)
      = acc (ix2 0 d) + ∑ p : Fin 1024, k1_pay6 x0 x1 x2 x3 (ix2 p d) * k1_pay6 x0 x1 x2 x3 (ix2 p d) := by
  unfold k1_pay8
  refine (addf_apply _ _ _).trans ?_
  refine congrArg (acc (ix2 0 d) + ·) ((laneSum_apply _ d).trans ?_)
  exact Finset.sum_congr rfl fun p _ => mulf_apply _ _ _
theorem pay8_apply (x0 : Vec Ideal S1024x256 .f32) (x1 : Vec Ideal S256x256 .f32) (x2 : Vec Ideal S256x512 .f32)
    (x3 : Vec Ideal S1x512 .f32) (acc : Vec Ideal S1x512 .f32) (d : Fin 512) :
    k1_pay1 (k1_pay8 x0 x1 x2 x3 acc) (ix2 0 d)
      = acc (ix2 0 d) + ∑ p : Fin 1024, k1_pay6 x0 x1 x2 x3 (ix2 p d) * k1_pay6 x0 x1 x2 x3 (ix2 p d) := by
  unfold k1_pay1
  exact (congrFun (shapeCast_self _ shapeCasts_S1x512_S1x512) (ix2 0 d)).trans (pay8_raw x0 x1 x2 x3 acc d)

/-- Both accumulators start from zero. -/
theorem pay4_apply (d : Fin 512) : (k1_pay4 (F := Ideal)) (ix2 0 d) = (0 : EReal) := by
  unfold k1_pay4
  rw [shapeCast_self, broadcast_apply, Ideal.ofBits_def, Ideal.ofBits_zero_f32]
theorem pay5_apply (d : Fin 512) : (k1_pay5 (F := Ideal)) (ix2 0 d) = (0 : EReal) := by
  unfold k1_pay5
  rw [shapeCast_self, broadcast_apply, Ideal.ofBits_def, Ideal.ofBits_zero_f32]

theorem sumStep_apply (c : Dev nD) (t : Fin cfg1.N) (acc : Vec Ideal S1x512 .f32) (d : Fin 512) :
    sumStep V c t acc (ix2 0 d) = acc (ix2 0 d) + ∑ p : Fin 1024, wyBlk V c t (ix2 p d) := by
  unfold sumStep wyBlk
  exact pay7_apply _ _ _ _ acc d
theorem sqStep_apply (c : Dev nD) (t : Fin cfg1.N) (acc : Vec Ideal S1x512 .f32) (d : Fin 512) :
    sqStep V c t acc (ix2 0 d) = acc (ix2 0 d) + ∑ p : Fin 1024, wyBlk V c t (ix2 p d) * wyBlk V c t (ix2 p d) := by
  unfold sqStep wyBlk
  exact pay8_apply _ _ _ _ acc d

/-- A column of 8192 entries as a function of every natural, zero past the rows: sums over blocks of rows
    are then sums over ranges of naturals, which concatenate. -/
def colExt (f : Fin 8192 → EReal) (n : ℕ) : EReal := if h : n < 8192 then f ⟨n, h⟩ else 0

theorem colExt_val (f : Fin 8192 → EReal) (i : Fin 8192) : colExt f i.val = f i := by
  unfold colExt
  rw [dif_pos i.isLt]

theorem sum_colExt (f : Fin 8192 → EReal) : ∑ m ∈ Finset.range 8192, colExt f m = ∑ i : Fin 8192, f i := by
  rw [← Fin.sum_univ_eq_sum_range]
  exact Finset.sum_congr rfl fun i _ => colExt_val f i

theorem N1_eq : cfg1.N = 8 := N_1

/-- The column sums of block `s` are the column's entries `1024 s … 1024 s + 1023`, summed. -/
theorem blockSum (c : Dev nD) (s : ℕ) (hs : s < cfg1.N) (d : Fin 512) :
    ∑ p : Fin 1024, wyBlk V c ⟨s, hs⟩ (ix2 p d)
      = ∑ p ∈ Finset.range 1024, colExt (fun i => W V c i d) (1024 * s + p) := by
  rw [← Fin.sum_univ_eq_sum_range (fun p => colExt (fun i => W V c i d) (1024 * s + p)) 1024]
  refine Finset.sum_congr rfl fun p _ => ?_
  have hs8 : s < 8 := by rw [N1_eq] at hs; exact hs
  have hlt : 1024 * s + p.val < 8192 := by have := p.isLt; omega
  rw [wyBlk_apply V c ⟨s, hs⟩ p d ⟨1024 * s + p.val, hlt⟩ rfl]
  exact (colExt_val (fun i => W V c i d) ⟨1024 * s + p.val, hlt⟩).symm
theorem blockSq (c : Dev nD) (s : ℕ) (hs : s < cfg1.N) (d : Fin 512) :
    ∑ p : Fin 1024, wyBlk V c ⟨s, hs⟩ (ix2 p d) * wyBlk V c ⟨s, hs⟩ (ix2 p d)
      = ∑ p ∈ Finset.range 1024, colExt (fun i => W V c i d * W V c i d) (1024 * s + p) := by
  rw [← Fin.sum_univ_eq_sum_range (fun p => colExt (fun i => W V c i d * W V c i d) (1024 * s + p)) 1024]
  refine Finset.sum_congr rfl fun p _ => ?_
  have hs8 : s < 8 := by rw [N1_eq] at hs; exact hs
  have hlt : 1024 * s + p.val < 8192 := by have := p.isLt; omega
  rw [wyBlk_apply V c ⟨s, hs⟩ p d ⟨1024 * s + p.val, hlt⟩ rfl]
  exact (colExt_val (fun i => W V c i d * W V c i d) ⟨1024 * s + p.val, hlt⟩).symm

/-- After point `n` the running column sum is the sum of the column's first `1024 (n + 1)` entries. -/
theorem sumAt_apply (c : Dev nD) (d : Fin 512) : ∀ (n : ℕ) (hn : n < cfg1.N),
    sumAt V c n hn (ix2 0 d) = ∑ m ∈ Finset.range (1024 * (n + 1)), colExt (fun i => W V c i d) m
  | 0, hn => by
    show sumStep V c ⟨0, hn⟩ (k1_pay4 (F := Ideal)) (ix2 0 d) = _
    rw [sumStep_apply, pay4_apply, zero_add, blockSum]
    simp only [Nat.mul_zero, Nat.zero_add, Nat.mul_one]
  | n + 1, hn => by
    show sumStep V c ⟨n + 1, hn⟩ (sumAt V c n (Nat.lt_of_succ_lt hn)) (ix2 0 d) = _
    rw [sumStep_apply, sumAt_apply c d n (Nat.lt_of_succ_lt hn), blockSum,
      show 1024 * (n + 1 + 1) = 1024 * (n + 1) + 1024 by omega, Finset.sum_range_add]
theorem sqAt_apply (c : Dev nD) (d : Fin 512) : ∀ (n : ℕ) (hn : n < cfg1.N),
    sqAt V c n hn (ix2 0 d) = ∑ m ∈ Finset.range (1024 * (n + 1)), colExt (fun i => W V c i d * W V c i d) m
  | 0, hn => by
    show sqStep V c ⟨0, hn⟩ (k1_pay5 (F := Ideal)) (ix2 0 d) = _
    rw [sqStep_apply, pay5_apply, zero_add, blockSq]
    simp only [Nat.mul_zero, Nat.zero_add, Nat.mul_one]
  | n + 1, hn => by
    show sqStep V c ⟨n + 1, hn⟩ (sqAt V c n (Nat.lt_of_succ_lt hn)) (ix2 0 d) = _
    rw [sqStep_apply, sqAt_apply c d n (Nat.lt_of_succ_lt hn), blockSq,
      show 1024 * (n + 1 + 1) = 1024 * (n + 1) + 1024 by omega, Finset.sum_range_add]

/-- After the last point: the whole column, and the whole column of squares. -/
theorem sumAt_last (c : Dev nD) (d : Fin 512) (h7 : 7 < cfg1.N) :
    sumAt V c 7 h7 (ix2 0 d) = ∑ i : Fin 8192, W V c i d := by
  rw [sumAt_apply V c d 7 h7]
  exact sum_colExt (fun i => W V c i d)
theorem sqAt_last (c : Dev nD) (d : Fin 512) (h7 : 7 < cfg1.N) :
    sqAt V c 7 h7 (ix2 0 d) = ∑ i : Fin 8192, W V c i d * W V c i d := by
  rw [sqAt_apply V c d 7 h7]
  exact sum_colExt (fun i => W V c i d * W V c i d)

/-- The mean: the column sum times `2⁻¹³`. -/
theorem pay2_apply (s : Vec Ideal S1x512 .f32) (d : Fin 512) :
    k1_pay2 s (ix2 0 d) = s (ix2 0 d) * Cert.Spec.inv := by
  unfold k1_pay2
  rw [mulf_apply, broadcast_apply, Ideal.ofBits_def, Cert.Consts.ofBits_inv]

/-- The reciprocal standard deviation: mean of squares less square of the mean, plus `ε`, under the reciprocal root. -/
theorem pay3_apply (s q : Vec Ideal S1x512 .f32) (d : Fin 512) :
    k1_pay3 s q (ix2 0 d)
      = Ideal.rsqrt ((q (ix2 0 d) * Cert.Spec.inv - (s (ix2 0 d) * Cert.Spec.inv) * (s (ix2 0 d) * Cert.Spec.inv)) + Cert.Spec.eps) := by
  unfold k1_pay3
  show Ideal.rsqrt (addf (subf (mulf q _) (mulf (k1_pay2 s) (k1_pay2 s))) (broadcast S1x512 _) (ix2 0 d)) = _
  rw [addf_apply, subf_apply, mulf_apply, mulf_apply, pay2_apply, broadcast_apply, broadcast_apply, Ideal.ofBits_def,
    Ideal.ofBits_def, Cert.Consts.ofBits_inv]

/-- Entries named by indices with equal coordinates are equal. -/
theorem W_congr (c : Dev nD) (i i' : Fin 8192) (d d' : Fin 512) (hi : i.val = i'.val) (hd : d.val = d'.val) :
    W V c i d = W V c i' d' := by
  obtain rfl : i = i' := Fin.ext hi
  obtain rfl : d = d' := Fin.ext hd
  rfl

/-! ## From the blocks to the arrays -/

/-- What the three output arrays end holding, each as one function of its index. -/
def G4 (c : Dev nD) : S8192x512.Idx → EReal :=
  fun i => W V c ⟨(i 0).val, idx2_lt0 i⟩ ⟨(i 1).val, idx2_lt1 i⟩
def G5 (c : Dev nD) : S1x512.Idx → EReal :=
  fun i => Cert.Spec.meanOf (W V c) ⟨(i 1).val, idx2_lt1 i⟩
def G6 (c : Dev nD) : S1x512.Idx → EReal :=
  fun i => Ideal.rsqrt (Cert.Spec.varOf (W V c) ⟨(i 1).val, idx2_lt1 i⟩ + Cert.Spec.eps)

/-- Point `t` writes back rows `1024 t … 1024 t + 1023` of `w`. -/
theorem flushed4_eq (c : Dev nD) (t : Fin cfg1.N) :
    (dat V c).flushed 4 t = ((cfg1.win 4).blk t).view.read (Elt Ideal) (G4 V c) := by
  show (cfg1.win 4).cut (grid1.coords t) ((dat V c).after 4 t) = _
  rw [after_4]
  obtain ⟨-, -, -, -, -, -, -, -, e0, e1, -, -, -, -⟩ := idx_facts t
  have ht8 : t.val < 8 := lt_of_lt_of_eq t.isLt N1_eq
  funext j
  obtain ⟨p, d, rfl⟩ : ∃ (p : Fin 1024) (d : Fin 512), j = ix2 p d := ⟨j 0, j 1, eq_ix2 j⟩
  rw [View.read_apply]
  show wyBlk V c t (ix2 p d) = G4 V c (((cfg1.win 4).blk t).view.emb (ix2 p d))
  unfold G4
  have hlt : 1024 * t.val + p.val < 8192 := by have := p.isLt; omega
  refine (wyBlk_apply V c t p d ⟨1024 * t.val + p.val, hlt⟩ rfl).trans (W_congr V c _ _ _ _ ?_ ?_)
  · show 1024 * t.val + p.val = win1_4.index t (0 : Fin 2) * 1024 + 1 * p.val
    rw [e0]; omega
  · show d.val = win1_4.index t (1 : Fin 2) * 512 + 1 * d.val
    rw [e1]; omega

/-- An index of `w` is in point `t`'s block iff each coordinate is in the block's range on its axis. -/
theorem mem_blk4 (t : Fin cfg1.N) (i : S8192x512.Idx) :
    i ∈ ((cfg1.win 4).blk t).view.set ↔ ∀ a : Fin 2, win1_4.index t a * S1024x512.size a ≤ (i a).val
      ∧ (i a).val < win1_4.index t a * S1024x512.size a + S1024x512.size a := by
  show i ∈ ((View.whole main_v9_0).slice (win1_4.rect t)).set ↔ _
  rw [View.set_slice_whole, Rect.mem_set_unit]
  exact Iff.rfl

/-- Row `r` of `w` is written back by point `r / 1024`. -/
theorem cover4 (i : S8192x512.Idx) :
    ∃ t : Fin cfg1.N, (cfg1.win 4).flush t = true ∧ i ∈ ((cfg1.win 4).blk t).view.set := by
  have hi0 : (i 0).val < 8192 := (i 0).isLt
  have hi1 : (i 1).val < 512 := (i 1).isLt
  have ht : (i 0).val / 1024 < cfg1.N := by rw [N1_eq]; omega
  refine ⟨⟨(i 0).val / 1024, ht⟩, flush1_4 _, ?_⟩
  obtain ⟨-, -, -, -, -, -, -, -, e0, e1, -, -, -, -⟩ := idx_facts ⟨(i 0).val / 1024, ht⟩
  have e0' : win1_4.index ⟨(i 0).val / 1024, ht⟩ (0 : Fin 2) = (i 0).val / 1024 := e0
  rw [mem_blk4]
  intro a
  match a with
  | ⟨0, _⟩ =>
    show win1_4.index ⟨(i 0).val / 1024, ht⟩ (0 : Fin 2) * 1024 ≤ (i 0).val
      ∧ (i 0).val < win1_4.index ⟨(i 0).val / 1024, ht⟩ (0 : Fin 2) * 1024 + 1024
    rw [e0']; omega
  | ⟨1, _⟩ =>
    show win1_4.index ⟨(i 0).val / 1024, ht⟩ (1 : Fin 2) * 512 ≤ (i 1).val
      ∧ (i 1).val < win1_4.index ⟨(i 0).val / 1024, ht⟩ (1 : Fin 2) * 512 + 512
    rw [e1]; omega

theorem final4 (c : Dev nD) : (dat V c).arrAt 4 cfg1.N = G4 V c :=
  (dat V c).arrAt_eq_of_cover 4 (G4 V c) (fun t _ => flushed4_eq V c t) cover4

/-- The point that writes the two statistics back is the last one. -/
theorem last_of_flush (t : Fin cfg1.N) (h : t.val % 8 = 7) : t.val = 7 := by
  have := lt_of_lt_of_eq t.isLt N1_eq; omega

/-- The last point writes back the column means. -/
theorem flushed5_eq (c : Dev nD) (t : Fin cfg1.N) (hf : (cfg1.win 5).flush t = true) :
    (dat V c).flushed 5 t = ((cfg1.win 5).blk t).view.read (Elt Ideal) (G5 V c) := by
  have ht : t.val = 7 := last_of_flush t ((flush1_5 t).mp hf)
  show (cfg1.win 5).cut (grid1.coords t) ((dat V c).after 5 t) = _
  rw [after_5_last V c t ht]
  obtain ⟨-, -, -, -, -, -, -, -, -, -, e0, e1, -, -⟩ := idx_facts t
  funext j
  obtain ⟨p, d, rfl⟩ : ∃ (p : Fin 1) (d : Fin 512), j = ix2 p d := ⟨j 0, j 1, eq_ix2 j⟩
  obtain rfl : p = 0 := Fin.ext (by have := p.isLt; show p.val = 0; omega)
  rw [View.read_apply]
  show k1_pay2 (sumAt V c 7 _) (ix2 0 d) = G5 V c (((cfg1.win 5).blk t).view.emb (ix2 0 d))
  rw [pay2_apply, sumAt_last]
  unfold G5
  show Cert.Spec.meanOf (W V c) d = Cert.Spec.meanOf (W V c) _
  exact congrArg _ (Fin.ext (by
    show d.val = win1_5.index t (1 : Fin 2) * 512 + 1 * d.val
    rw [e1]; omega))

/-- The last point writes back the reciprocal standard deviations. -/
theorem flushed6_eq (c : Dev nD) (t : Fin cfg1.N) (hf : (cfg1.win 6).flush t = true) :
    (dat V c).flushed 6 t = ((cfg1.win 6).blk t).view.read (Elt Ideal) (G6 V c) := by
  have ht : t.val = 7 := last_of_flush t ((flush1_6 t).mp hf)
  show (cfg1.win 6).cut (grid1.coords t) ((dat V c).after 6 t) = _
  rw [after_6_last V c t ht]
  obtain ⟨-, -, -, -, -, -, -, -, -, -, -, -, e0, e1⟩ := idx_facts t
  funext j
  obtain ⟨p, d, rfl⟩ : ∃ (p : Fin 1) (d : Fin 512), j = ix2 p d := ⟨j 0, j 1, eq_ix2 j⟩
  obtain rfl : p = 0 := Fin.ext (by have := p.isLt; show p.val = 0; omega)
  rw [View.read_apply]
  show k1_pay3 (sumAt V c 7 _) (sqAt V c 7 _) (ix2 0 d) = G6 V c (((cfg1.win 6).blk t).view.emb (ix2 0 d))
  rw [pay3_apply, sumAt_last, sqAt_last]
  unfold G6
  show Ideal.rsqrt (Cert.Spec.varOf (W V c) d + Cert.Spec.eps) = Ideal.rsqrt (Cert.Spec.varOf (W V c) _ + Cert.Spec.eps)
  exact congrArg (fun d' => Ideal.rsqrt (Cert.Spec.varOf (W V c) d' + Cert.Spec.eps)) (Fin.ext (by
    show d.val = win1_6.index t (1 : Fin 2) * 512 + 1 * d.val
    rw [e1]; omega))

theorem mem_blk5 (t : Fin cfg1.N) (i : S1x512.Idx) :
    i ∈ ((cfg1.win 5).blk t).view.set ↔ ∀ a : Fin 2, win1_5.index t a * S1x512.size a ≤ (i a).val
      ∧ (i a).val < win1_5.index t a * S1x512.size a + S1x512.size a := by
  show i ∈ ((View.whole main_v9_1).slice (win1_5.rect t)).set ↔ _
  rw [View.set_slice_whole, Rect.mem_set_unit]
  exact Iff.rfl
theorem mem_blk6 (t : Fin cfg1.N) (i : S1x512.Idx) :
    i ∈ ((cfg1.win 6).blk t).view.set ↔ ∀ a : Fin 2, win1_6.index t a * S1x512.size a ≤ (i a).val
      ∧ (i a).val < win1_6.index t a * S1x512.size a + S1x512.size a := by
  show i ∈ ((View.whole main_v9_2).slice (win1_6.rect t)).set ↔ _
  rw [View.set_slice_whole, Rect.mem_set_unit]
  exact Iff.rfl

/-- The one block of each statistic is its whole array, written back at the last point. -/
theorem cover5 (i : S1x512.Idx) :
    ∃ t : Fin cfg1.N, (cfg1.win 5).flush t = true ∧ i ∈ ((cfg1.win 5).blk t).view.set := by
  have hi0 : (i 0).val < 1 := (i 0).isLt
  have hi1 : (i 1).val < 512 := (i 1).isLt
  have h7 : 7 < cfg1.N := by rw [N1_eq]; omega
  refine ⟨⟨7, h7⟩, (flush1_5 _).mpr rfl, ?_⟩
  obtain ⟨-, -, -, -, -, -, -, -, -, -, e0, e1, -, -⟩ := idx_facts ⟨7, h7⟩
  rw [mem_blk5]
  intro a
  match a with
  | ⟨0, _⟩ =>
    show win1_5.index ⟨7, h7⟩ (0 : Fin 2) * 1 ≤ (i 0).val ∧ (i 0).val < win1_5.index ⟨7, h7⟩ (0 : Fin 2) * 1 + 1
    rw [e0]; omega
  | ⟨1, _⟩ =>
    show win1_5.index ⟨7, h7⟩ (1 : Fin 2) * 512 ≤ (i 1).val ∧ (i 1).val < win1_5.index ⟨7, h7⟩ (1 : Fin 2) * 512 + 512
    rw [e1]; omega
theorem cover6 (i : S1x512.Idx) :
    ∃ t : Fin cfg1.N, (cfg1.win 6).flush t = true ∧ i ∈ ((cfg1.win 6).blk t).view.set := by
  have hi0 : (i 0).val < 1 := (i 0).isLt
  have hi1 : (i 1).val < 512 := (i 1).isLt
  have h7 : 7 < cfg1.N := by rw [N1_eq]; omega
  refine ⟨⟨7, h7⟩, (flush1_6 _).mpr rfl, ?_⟩
  obtain ⟨-, -, -, -, -, -, -, -, -, -, -, -, e0, e1⟩ := idx_facts ⟨7, h7⟩
  rw [mem_blk6]
  intro a
  match a with
  | ⟨0, _⟩ =>
    show win1_6.index ⟨7, h7⟩ (0 : Fin 2) * 1 ≤ (i 0).val ∧ (i 0).val < win1_6.index ⟨7, h7⟩ (0 : Fin 2) * 1 + 1
    rw [e0]; omega
  | ⟨1, _⟩ =>
    show win1_6.index ⟨7, h7⟩ (1 : Fin 2) * 512 ≤ (i 1).val ∧ (i 1).val < win1_6.index ⟨7, h7⟩ (1 : Fin 2) * 512 + 512
    rw [e1]; omega

theorem final5 (c : Dev nD) : (dat V c).arrAt 5 cfg1.N = G5 V c :=
  (dat V c).arrAt_eq_of_cover 5 (G5 V c) (flushed5_eq V c) cover5
theorem final6 (c : Dev nD) : (dat V c).arrAt 6 cfg1.N = G6 V c :=
  (dat V c).arrAt_eq_of_cover 6 (G6 V c) (flushed6_eq V c) cover6

end Value1

/-! ## The three output arrays after the region -/

/-- THE ARRAY `w` after the region. -/
theorem arr_wy (c : Dev nD) (i : Fin 8192) (d : Fin 512) :
    (dat (F := Ideal) V c).arrAt 4 cfg1.N (ix2 i d) = W V c i d := by
  rw [Value1.final4]
  unfold Value1.G4
  exact Value1.W_congr V c _ _ _ _ rfl rfl

/-- THE COLUMN MEANS after the region. -/
theorem arr_mean (c : Dev nD) (d : Fin 512) :
    (dat (F := Ideal) V c).arrAt 5 cfg1.N (ix2 0 d) = Cert.Spec.meanOf (W V c) d := by
  rw [Value1.final5]
  rfl

/-- THE RECIPROCAL STANDARD DEVIATIONS after the region. -/
theorem arr_rstd (c : Dev nD) (d : Fin 512) :
    (dat (F := Ideal) V c).arrAt 6 cfg1.N (ix2 0 d) = Ideal.rsqrt (Cert.Spec.varOf (W V c) d + Cert.Spec.eps) := by
  rw [Value1.final6]
  rfl

end Cert.KernelIdeal.R1

end
-- ==== Proof.KI.Value2.lean ====
/-
  Region 2 of the kernel program, read: at the exact instance, what the output array holds after the region, index
  by index.
-/
import proofs.«131456_j40999757807684_1_alg».proof.Proof.KI.Region2
import proofs.«131456_j40999757807684_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.R2

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The six arrays the region reads, as functions into the extended reals -/

/-- `w`, 8192 × 512. -/
abbrev aW (c : Dev nD) : S8192x512.Idx → EReal := V c main_v9_0
/-- The residual input, 8192 × 512. -/
abbrev aX (c : Dev nD) : S8192x512.Idx → EReal := V c main_v0
/-- The column means, one row. -/
abbrev aMu (c : Dev nD) : S1x512.Idx → EReal := V c main_v9_1
/-- The reciprocal standard deviations, one row. -/
abbrev aRs (c : Dev nD) : S1x512.Idx → EReal := V c main_v9_2
/-- The scale, one row. -/
abbrev aGa (c : Dev nD) : S1x512.Idx → EReal := V c main_v6
/-- The shift, one row. -/
abbrev aBe (c : Dev nD) : S1x512.Idx → EReal := V c main_v7

/-! ## The output array as one function of them -/

/-- Row `i`, column `d` of the result: `w` normalised by the column statistics, scaled and shifted, plus the
    residual — each of the four rows read at its one row `0`. -/
def G (c : Dev nD) : S8192x512.Idx → EReal := fun j =>
  Cert.Spec.normOf (fun i d => aW V c (ix2 i d)) (fun d => aMu V c (ix2 0 d)) (fun d => aRs V c (ix2 0 d))
    (fun d => aGa V c (ix2 0 d)) (fun d => aBe V c (ix2 0 d)) (fun i d => aX V c (ix2 i d)) (j 0) (j 1)

/-! ## The payload at an index -/

/-- The body's payload at row `p`, column `q` of the block: the shape casts are identities, a row broadcast reads
    its one row, and the arithmetic is the extended reals'. -/
theorem pay_apply (x0 x1 : Vec Ideal S1024x512 .f32) (x2 x3 x4 x5 : Vec Ideal S1x512 .f32) (p : Fin 1024) (q : Fin 512) :
    k2_pay1 x0 x1 x2 x3 x4 x5 (ix2 p q)
      = (x0 (ix2 p q) - x2 (ix2 0 q)) * x3 (ix2 0 q) * x4 (ix2 0 q) + x5 (ix2 0 q) + x1 (ix2 p q) := by
  unfold k2_pay1
  simp only [shapeCast_self]
  rw [addf_apply, addf_apply, mulf_apply, mulf_apply, subf_apply,
    broadcastTo_1b_ab_apply, broadcastTo_1b_ab_apply, broadcastTo_1b_ab_apply, broadcastTo_1b_ab_apply]

/-! ## The index maps, decided over the grid -/

/-- The two block windows move with the output's, block `t` of the rows at point `t`; the four rows' windows stay
    at their one block. -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! ## What a point writes back -/

/-- Point `t` writes back block `t` of `G`: the two block inputs are read where the output's rectangle says, the
    four rows at row `0` and the output's column. -/
theorem flushed_eq (c : Dev nD) (t : Fin cfg2.N) :
    (dat (F := Ideal) V c).flushed 6 t = ((cfg2.win 6).blk t).view.read (Elt Ideal) (G V c) := by
  show (cfg2.win 6).cut (grid2.coords t) ((dat (F := Ideal) V c).after 6 t) = _
  rw [after_6]
  unfold zBlk
  obtain ⟨e60, e61, e00, e01, e10, e11, e20, e21, e30, e31, e40, e41, e50, e51⟩ := idx_facts t
  funext j
  obtain ⟨p, q, rfl⟩ : ∃ (p : Fin 1024) (q : Fin 512), j = ix2 p q := ⟨j 0, j 1, eq_ix2 j⟩
  show k2_pay1 (iblk V c 0 t) (iblk V c 1 t) (iblk V c 2 t) (iblk V c 3 t) (iblk V c 4 t) (iblk V c 5 t) (ix2 p q)
      = G V c (((cfg2.win 6).blk t).view.emb (ix2 p q))
  rw [pay_apply]
  show (aW V c (((cfg2.win 0).blk t).view.emb (ix2 p q)) - aMu V c (((cfg2.win 2).blk t).view.emb (ix2 0 q)))
        * aRs V c (((cfg2.win 3).blk t).view.emb (ix2 0 q)) * aGa V c (((cfg2.win 4).blk t).view.emb (ix2 0 q))
        + aBe V c (((cfg2.win 5).blk t).view.emb (ix2 0 q)) + aX V c (((cfg2.win 1).blk t).view.emb (ix2 p q))
      = G V c (((cfg2.win 6).blk t).view.emb (ix2 p q))
  have hN : cfg2.N = 8 := N_2
  have hr : t.val * 1024 + p.val < 8192 := by have := t.isLt; have := p.isLt; omega
  have h0 : ((cfg2.win 0).blk t).view.emb (ix2 p q) = ix2 (⟨t.val * 1024 + p.val, hr⟩ : Fin 8192) q := by
    funext a; apply Fin.ext
    match a with
    | ⟨0, _⟩ => show win2_0.index t (0 : Fin 2) * 1024 + 1 * p.val = t.val * 1024 + p.val; omega
    | ⟨1, _⟩ => show win2_0.index t (1 : Fin 2) * 512 + 1 * q.val = q.val; omega
  have h1 : ((cfg2.win 1).blk t).view.emb (ix2 p q) = ix2 (⟨t.val * 1024 + p.val, hr⟩ : Fin 8192) q := by
    funext a; apply Fin.ext
    match a with
    | ⟨0, _⟩ => show win2_1.index t (0 : Fin 2) * 1024 + 1 * p.val = t.val * 1024 + p.val; omega
    | ⟨1, _⟩ => show win2_1.index t (1 : Fin 2) * 512 + 1 * q.val = q.val; omega
  have h6 : ((cfg2.win 6).blk t).view.emb (ix2 p q) = ix2 (⟨t.val * 1024 + p.val, hr⟩ : Fin 8192) q := by
    funext a; apply Fin.ext
    match a with
    | ⟨0, _⟩ => show win2_6.index t (0 : Fin 2) * 1024 + 1 * p.val = t.val * 1024 + p.val; omega
    | ⟨1, _⟩ => show win2_6.index t (1 : Fin 2) * 512 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 512 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 512 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 512 + 1 * q.val = q.val; omega
  have h5 : ((cfg2.win 5).blk t).view.emb (ix2 (0 : Fin 1) q) = ix2 (0 : Fin 1) q := by
    funext a; apply Fin.ext
    match a with
    | ⟨0, _⟩ => show win2_5.index t (0 : Fin 2) * 1 + 1 * 0 = 0; omega
    | ⟨1, _⟩ => show win2_5.index t (1 : Fin 2) * 512 + 1 * q.val = q.val; omega
  rw [h0, h1, h2, h3, h4, h5, h6]
  rfl

/-! ## The blocks cover the array -/

/-- An index of the array is in point `t`'s block iff each coordinate is in the block's range on its axis. -/
theorem mem_blk (t : Fin cfg2.N) (i : S8192x512.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v10).slice (win2_6.rect t)).set ↔ _
  rw [View.set_slice_whole, Rect.mem_set_unit]
  exact Iff.rfl

/-- Row `r` lies in the block of point `r / 1024`. -/
theorem cover (i : S8192x512.Idx) : ∃ t : Fin cfg2.N, (cfg2.win 6).flush t = true ∧ i ∈ ((cfg2.win 6).blk t).view.set := by
  have hi0 : (i 0).val < 8192 := (i 0).isLt
  have hi1 : (i 1).val < 512 := (i 1).isLt
  have hN : cfg2.N = 8 := N_2
  let t : Fin cfg2.N := ⟨(i 0).val / 1024, by rw [hN]; omega⟩
  obtain ⟨e60, e61, -⟩ := idx_facts t
  have ht : t.val = (i 0).val / 1024 := rfl
  refine ⟨t, flush2_6 t, ?_⟩
  rw [mem_blk]
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 512 ≤ (i 1).val ∧ (i 1).val < win2_6.index t (1 : Fin 2) * 512 + 512; omega

/-! ## The array after the region -/

/-- The output array ends holding `G`. -/
theorem arr_eq (c : Dev nD) : (dat (F := Ideal) V c).arrAt 6 cfg2.N = G V c :=
  (dat (F := Ideal) V c).arrAt_eq_of_cover 6 (G V c) (fun t _ => flushed_eq V c t) cover

/-- Index by index: the normalisation and the residual of the six arrays as the region finds them. -/
theorem arr_z (V : (c : Dev nD) → (b : Ref sig .tc) → Buf (Elt Ideal) ((c : Thread nD τ).loc b)) (c : Dev nD) (i : Fin 8192) (d : Fin 512) :
    (dat (F := Ideal) V c).arrAt 6 cfg2.N (ValueIdx.ix2 i d)
      = Cert.Spec.normOf (fun i d => V c main_v9_0 (ValueIdx.ix2 i d)) (fun d => V c main_v9_1 (ValueIdx.ix2 0 d)) (fun d => V c main_v9_2 (ValueIdx.ix2 0 d))
          (fun d => V c main_v6 (ValueIdx.ix2 0 d)) (fun d => V c main_v7 (ValueIdx.ix2 0 d)) (fun i d => V c main_v0 (ValueIdx.ix2 i d)) i d := by
  rw [arr_eq]
  rfl

end Cert.KernelIdeal.R2

end
-- ==== Proof.KI.Compose.lean ====
/-
  The three regions of the kernel program, chained.  Region 0 leaves `θ = xh·Wθ + bθ` and the 256 × 256 matrix
  `M = φᵀ g`; region 1 reads them and leaves `w = (θ M)·(1/8192)·Ww + bw` with its column mean and reciprocal
  standard deviation; region 2 reads those and leaves `z`.  Between the regions a buffer a region does not
  write keeps its contents, and the reshapes around them only re-index: a vector of length `n` read as a
  `1 × n` matrix at row `0` is the vector, and the two activations enter as matrices of 8192 rows.  So the
  result buffer holds the specification's kernel reading `zk` of the twelve argument arrays, laid out again
  as `8 × 1024 × 512`.
-/
import proofs.«131456_j40999757807684_1_alg».proof.Proof.KI.Bounds
import proofs.«131456_j40999757807684_1_alg».proof.Proof.KI.Value0
import proofs.«131456_j40999757807684_1_alg».proof.Proof.KI.Value1
import proofs.«131456_j40999757807684_1_alg».proof.Proof.KI.Value2
import proofs.«131456_j40999757807684_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Compose

open Cert.KernelIdeal Cert.KernelIdeal.Gen
open Idealize.ShloMosaic Idealize.ShloMosaic.TcCoe
open Idealize.ShloMosaic.ValueIdx

/-- The specification's inputs read off the twelve argument arrays. -/
def args (a0 : FVec Ideal S8x1024x512 .f32) (a1 : FVec Ideal S8x1024x256 .f32) (a2 : FVec Ideal S256x256 .f32)
    (a3 : FVec Ideal S256 .f32) (a4 : FVec Ideal S512x256 .f32) (a5 : FVec Ideal S256 .f32)
    (a6 : FVec Ideal S256x256 .f32) (a7 : FVec Ideal S256 .f32) (a8 : FVec Ideal S256x512 .f32)
    (a9 : FVec Ideal S512 .f32) (a10 : FVec Ideal S512 .f32) (a11 : FVec Ideal S512 .f32) : Cert.Spec.Args where
  xh i k := shapeCast S8192x512 a0 shapeCasts_S8x1024x512_S8192x512 (ix2 i k)
  xl i k := shapeCast S8192x256 a1 shapeCasts_S8x1024x256_S8192x256 (ix2 i k)
  gw k a := a2 (ix2 k a)
  gb a := a3 (ix1 a)
  thw k a := a4 (ix2 k a)
  thb a := a5 (ix1 a)
  phw k a := a6 (ix2 k a)
  phb a := a7 (ix1 a)
  ww c d := a8 (ix2 c d)
  wb d := a9 (ix1 d)
  gamma d := a10 (ix1 d)
  beta d := a11 (ix1 d)

variable (m : (ℓ : Loc nD τ sig) → Buf (Elt Ideal) ℓ) (c : Dev nD)

/-! ## The host reshapes before the first region -/

theorem v0_eq : V1 m c main_v0 = shapeCast S8192x512 (m ((c.tc : Thread nD τ).loc main_arg0)) shapeCasts_S8x1024x512_S8192x512 := by
  show StableHlo.after hostOps0 (V0 m c) (Proc.devRef .tc main_v0) = _
  after_results; rfl
theorem v1_eq : V1 m c main_v1 = shapeCast S8192x256 (m ((c.tc : Thread nD τ).loc main_arg1)) shapeCasts_S8x1024x256_S8192x256 := by
  show StableHlo.after hostOps0 (V0 m c) (Proc.devRef .tc main_v1) = _
  after_results; rfl
theorem v2_eq : V1 m c main_v2 = shapeCast S1x256 (m ((c.tc : Thread nD τ).loc main_arg3)) shapeCasts_S256_S1x256 := by
  show StableHlo.after hostOps0 (V0 m c) (Proc.devRef .tc main_v2) = _
  after_results; rfl
theorem v3_eq : V1 m c main_v3 = shapeCast S1x256 (m ((c.tc : Thread nD τ).loc main_arg5)) shapeCasts_S256_S1x256 := by
  show StableHlo.after hostOps0 (V0 m c) (Proc.devRef .tc main_v3) = _
  after_results; rfl
theorem v4_eq : V1 m c main_v4 = shapeCast S1x256 (m ((c.tc : Thread nD τ).loc main_arg7)) shapeCasts_S256_S1x256 := by
  show StableHlo.after hostOps0 (V0 m c) (Proc.devRef .tc main_v4) = _
  after_results; rfl
theorem v5_eq : V1 m c main_v5 = shapeCast S1x512 (m ((c.tc : Thread nD τ).loc main_arg9)) shapeCasts_S512_S1x512 := by
  show StableHlo.after hostOps0 (V0 m c) (Proc.devRef .tc main_v5) = _
  after_results; rfl
theorem v6_eq : V1 m c main_v6 = shapeCast S1x512 (m ((c.tc : Thread nD τ).loc main_arg10)) shapeCasts_S512_S1x512 := by
  show StableHlo.after hostOps0 (V0 m c) (Proc.devRef .tc main_v6) = _
  after_results; rfl
theorem v7_eq : V1 m c main_v7 = shapeCast S1x512 (m ((c.tc : Thread nD τ).loc main_arg11)) shapeCasts_S512_S1x512 := by
  show StableHlo.after hostOps0 (V0 m c) (Proc.devRef .tc main_v7) = _
  after_results; rfl

/-- The reshape after the last region. -/
theorem v11_eq : V5 m (Run.outs m) c main_v11 = shapeCast S8x1024x512 (V4 m (Run.outs m) c main_v10) shapeCasts_S8192x512_S8x1024x512 := by
  show StableHlo.after hostOps3 _ (Proc.devRef .tc main_v11) = _
  after_results; rfl

/-! ## The inputs as the regions find them -/

/-- The specification's inputs of core `c`'s launch contents. -/
abbrev margs : Cert.Spec.Args :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- A buffer no reshape writes holds its launch contents at the first region's entry. -/
theorem E1_arg (r : Ref sig .tc) (h : r ∉ hostOps0_W) : Run.E1 m c r = m ((c.tc : Thread nD τ).loc r) :=
  (V1_of m c r h).trans rfl

/-! Each argument function of the regions' value theorems, at the first region's entry, is a field of the
    specification's inputs: the two activations by the reshape itself, a bias or scale row by reading the
    `1 × n` reshape at row `0`, a weight matrix untouched. -/

theorem xh_fn : (fun (i : Fin 8192) (k : Fin 512) => Run.E1 m c main_v0 (ix2 i k)) = (margs m c).xh := by
  funext i k
  exact congrFun (v0_eq m c) (ix2 i k)
theorem xl_fn : (fun (i : Fin 8192) (k : Fin 256) => Run.E1 m c main_v1 (ix2 i k)) = (margs m c).xl := by
  funext i k
  exact congrFun (v1_eq m c) (ix2 i k)
theorem gb_fn : (fun (a : Fin 256) => Run.E1 m c main_v2 (ix2 0 a)) = (margs m c).gb := by
  funext a
  exact (congrFun (v2_eq m c) (ix2 0 a)).trans (shapeCast_a_1a_apply _ _ 0 a)
theorem thb_fn : (fun (a : Fin 256) => Run.E1 m c main_v3 (ix2 0 a)) = (margs m c).thb := by
  funext a
  exact (congrFun (v3_eq m c) (ix2 0 a)).trans (shapeCast_a_1a_apply _ _ 0 a)
theorem phb_fn : (fun (a : Fin 256) => Run.E1 m c main_v4 (ix2 0 a)) = (margs m c).phb := by
  funext a
  exact (congrFun (v4_eq m c) (ix2 0 a)).trans (shapeCast_a_1a_apply _ _ 0 a)
theorem wb_fn1 : (fun (d : Fin 512) => Run.E1 m c main_v5 (ix2 0 d)) = (margs m c).wb := by
  funext d
  exact (congrFun (v5_eq m c) (ix2 0 d)).trans (shapeCast_a_1a_apply _ _ 0 d)
theorem gamma_fn1 : (fun (d : Fin 512) => Run.E1 m c main_v6 (ix2 0 d)) = (margs m c).gamma := by
  funext d
  exact (congrFun (v6_eq m c) (ix2 0 d)).trans (shapeCast_a_1a_apply _ _ 0 d)
theorem beta_fn1 : (fun (d : Fin 512) => Run.E1 m c main_v7 (ix2 0 d)) = (margs m c).beta := by
  funext d
  exact (congrFun (v7_eq m c) (ix2 0 d)).trans (shapeCast_a_1a_apply _ _ 0 d)
theorem gw_fn : (fun (k a : Fin 256) => Run.E1 m c main_arg2 (ix2 k a)) = (margs m c).gw := by
  funext k a
  exact congrFun (E1_arg m c main_arg2 (by decide)) (ix2 k a)
theorem thw_fn : (fun (k : Fin 512) (a : Fin 256) => Run.E1 m c main_arg4 (ix2 k a)) = (margs m c).thw := by
  funext k a
  exact congrFun (E1_arg m c main_arg4 (by decide)) (ix2 k a)
theorem phw_fn : (fun (k a : Fin 256) => Run.E1 m c main_arg6 (ix2 k a)) = (margs m c).phw := by
  funext k a
  exact congrFun (E1_arg m c main_arg6 (by decide)) (ix2 k a)
theorem ww_fn1 : (fun (k : Fin 256) (d : Fin 512) => Run.E1 m c main_arg8 (ix2 k d)) = (margs m c).ww := by
  funext k d
  exact congrFun (E1_arg m c main_arg8 (by decide)) (ix2 k d)

/-! ## Region 0's arrays: θ and the 256 × 256 matrix -/

/-- θ, as region 1 finds it. -/
theorem theta_fn : (fun (i : Fin 8192) (a : Fin 256) => Run.E2 m c main_v8_0 (ix2 i a)) = (margs m c).thx := by
  funext i a
  refine (congrFun (Run.E2_80 m c) (ix2 i a)).trans ?_
  refine (R0.arr_theta (Run.E1 m) c i a).trans ?_
  rw [xh_fn, thw_fn, thb_fn]
  rfl
/-- `φᵀ g`, as region 1 finds it. -/
theorem M_fn : (fun (a c' : Fin 256) => Run.E2 m c main_v8_1 (ix2 a c')) = (margs m c).Mk := by
  funext a c'
  refine (congrFun (Run.E2_81 m c) (ix2 a c')).trans ?_
  refine (R0.arr_M (Run.E1 m) c a c').trans ?_
  rw [xl_fn, phw_fn, phb_fn, gw_fn, gb_fn]
  rfl
/-- Region 0 writes neither `Ww` nor the reshaped `bw`. -/
theorem ww_fn2 : (fun (k : Fin 256) (d : Fin 512) => Run.E2 m c main_arg8 (ix2 k d)) = (margs m c).ww := by
  rw [← ww_fn1 m c, Run.E2_of m c main_arg8 (by decide)]
theorem wb_fn2 : (fun (d : Fin 512) => Run.E2 m c main_v5 (ix2 0 d)) = (margs m c).wb := by
  rw [← wb_fn1 m c, Run.E2_of m c main_v5 (by decide)]

/-! ## Region 1's arrays: `w` and its column statistics -/

/-- Region 1's `w` of the arrays it is entered from is the specification's. -/
theorem W_fn : Cert.Spec.wyOf (fun (i : Fin 8192) (a : Fin 256) => Run.E2 m c main_v8_0 (ix2 i a))
      (fun (a c' : Fin 256) => Run.E2 m c main_v8_1 (ix2 a c')) (fun (c' : Fin 256) (d : Fin 512) => Run.E2 m c main_arg8 (ix2 c' d))
      (fun (d : Fin 512) => Run.E2 m c main_v5 (ix2 0 d)) = (margs m c).wyk := by
  rw [theta_fn, M_fn, ww_fn2, wb_fn2]
  rfl
/-- `w = y·Ww + bw`, as region 2 finds it. -/
theorem wy_fn : (fun (i : Fin 8192) (d : Fin 512) => Run.E3 m c main_v9_0 (ix2 i d)) = (margs m c).wyk := by
  funext i d
  exact ((congrFun (Run.E3_90 m c) (ix2 i d)).trans (R1.arr_wy (Run.E2 m) c i d)).trans (congrFun (congrFun (W_fn m c) i) d)
/-- The column means. -/
theorem mean_fn : (fun (d : Fin 512) => Run.E3 m c main_v9_1 (ix2 0 d)) = Cert.Spec.meanOf (margs m c).wyk := by
  funext d
  exact ((congrFun (Run.E3_91 m c) (ix2 0 d)).trans (R1.arr_mean (Run.E2 m) c d)).trans
    (congrArg (fun w => Cert.Spec.meanOf w d) (W_fn m c))
/-- The reciprocal standard deviations. -/
theorem rstd_fn : (fun (d : Fin 512) => Run.E3 m c main_v9_2 (ix2 0 d))
    = fun d => Ideal.rsqrt (Cert.Spec.varOf (margs m c).wyk d + Cert.Spec.eps) := by
  funext d
  exact ((congrFun (Run.E3_92 m c) (ix2 0 d)).trans (R1.arr_rstd (Run.E2 m) c d)).trans
    (congrArg (fun w => Ideal.rsqrt (Cert.Spec.varOf w d + Cert.Spec.eps)) (W_fn m c))
/-- Regions 0 and 1 write none of `γ`, `β`, `xh`. -/
theorem gamma_fn3 : (fun (d : Fin 512) => Run.E3 m c main_v6 (ix2 0 d)) = (margs m c).gamma := by
  rw [← gamma_fn1 m c, Run.E3_of m c main_v6 (by decide), Run.E2_of m c main_v6 (by decide)]
theorem beta_fn3 : (fun (d : Fin 512) => Run.E3 m c main_v7 (ix2 0 d)) = (margs m c).beta := by
  rw [← beta_fn1 m c, Run.E3_of m c main_v7 (by decide), Run.E2_of m c main_v7 (by decide)]
theorem xh_fn3 : (fun (i : Fin 8192) (k : Fin 512) => Run.E3 m c main_v0 (ix2 i k)) = (margs m c).xh := by
  rw [← xh_fn m c, Run.E3_of m c main_v0 (by decide), Run.E2_of m c main_v0 (by decide)]

/-! ## Region 2's array: the result as a matrix of 8192 rows -/

/-- Row `i`, column `d` of region 2's output array is the specification's `zk i d`. -/
theorem X10_apply (i : Fin 8192) (d : Fin 512) : Run.X10 m c (ix2 i d) = (margs m c).zk i d := by
  refine (R2.arr_z (Run.E3 m) c i d).trans ?_
  rw [wy_fn, mean_fn, rstd_fn, gamma_fn3, beta_fn3, xh_fn3]
  rfl
theorem X10_fn : Run.X10 m c = fun j => (margs m c).zk (j 0) (j 1) := by
  funext j
  exact (congrArg (fun k : S8192x512.Idx => Run.X10 m c k) (eq_ix2 j)).trans (X10_apply m c (j 0) (j 1))
/-- After region 2 the buffer the last reshape reads holds region 2's output array. -/
theorem v10_eq : V4 m (Run.outs m) c main_v10 = Run.X10 m c := by
  rw [Run.V4_eq]; exact Run.E4_10 m c

/-! ## The result buffer -/

/-- The result buffer holds `zk` of the twelve argument arrays, as `8 × 1024 × 512`. -/
theorem result_eq :
    V5 m (Run.outs m) c main_v11
      = shapeCast S8x1024x512 (fun j => (args (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11))).zk (j 0) (j 1)) shapeCasts_S8192x512_S8x1024x512 := by
  rw [v11_eq, v10_eq, X10_fn]
  rfl

end Cert.KernelIdeal.Compose

end
-- ==== Proof.RefRun.lean ====
import proofs.«131456_j40999757807684_1_alg».proof.Proof.Gen.ReferenceIdeal
import Idealize.ShloMosaic.Lib.StableHlo.Run

/-!
# The reference program's run, read back as one pure term

The reference is a straight line of host operations: four linear layers around an 8192 × 8192 product, then a
batch normalisation over the 8192 rows and a residual.  Its one call (the column variance, which itself calls
the three-line selection that guards a zero row count) runs the callee's operations on buffers of their own, so
the whole program is one list of seventy operations.  Each stage of the formula is named below as a function of
the argument arrays alone; the run theorem says that every execution ends with the result buffer at `out` of
the arguments' launch contents, and the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the formula

Rows are the 8192 positions (8 × 1024 flattened), columns the channels.  A bias, a column statistic or a scale
is a vector over the columns, made a matrix by repeating it down the rows: first as a single row
(`broadcastInDim S1xN ![1]`), then over all rows (`broadcastInDim S8192xN ![0, 1]`). -/

section Stages

variable (a0 : FVec F S8x1024x512 .f32) (a1 : FVec F S8x1024x256 .f32) (a2 : FVec F S256x256 .f32) (a3 : FVec F S256 .f32)
  (a4 : FVec F S512x256 .f32) (a5 : FVec F S256 .f32) (a6 : FVec F S256x256 .f32) (a7 : FVec F S256 .f32)
  (a8 : FVec F S256x512 .f32) (a9 : FVec F S512 .f32) (a10 : FVec F S512 .f32) (a11 : FVec F S512 .f32)

/-- The wide activation as a matrix: 8192 rows of 512 channels. -/
def xh2 : FVec F S8192x512 .f32 := shapeCast S8192x512 a0 shapeCasts_S8x1024x512_S8192x512

/-- The narrow activation as a matrix: 8192 rows of 256 channels. -/
def xl2 : FVec F S8192x256 .f32 := shapeCast S8192x256 a1 shapeCasts_S8x1024x256_S8192x256

/-- `g = xl · Wg + bg`. -/
def gx : FVec F S8192x256 .f32 :=
  addf (Host.dotGeneral dot_S8192x256_S256x256_S8192x256_1_0_0_1_n_n none (xl2 a1) a2)
    (broadcastInDim S8192x256 ![0, 1] bcast_S1x256_S8192x256_0_1 (broadcastInDim S1x256 ![1] bcast_S256_S1x256_1 a3))

/-- `θ = xh · Wθ + bθ`. -/
def thx : FVec F S8192x256 .f32 :=
  addf (Host.dotGeneral dot_S8192x512_S512x256_S8192x256_1_0_0_1_n_n none (xh2 a0) a4)
    (broadcastInDim S8192x256 ![0, 1] bcast_S1x256_S8192x256_0_1 (broadcastInDim S1x256 ![1] bcast_S256_S1x256_1 a5))

/-- `φ = xl · Wφ + bφ`. -/
def phx : FVec F S8192x256 .f32 :=
  addf (Host.dotGeneral dot_S8192x256_S256x256_S8192x256_1_0_0_1_n_n none (xl2 a1) a6)
    (broadcastInDim S8192x256 ![0, 1] bcast_S1x256_S8192x256_0_1 (broadcastInDim S1x256 ![1] bcast_S256_S1x256_1 a7))

/-- `θ φᵀ`: every row of `θ` against every row of `φ`, 8192 × 8192. -/
def en : FVec F S8192x8192 .f32 :=
  Host.dotGeneral dot_S8192x256_S256x8192_S8192x8192_1_0_0_1_n_n none (thx a0 a4 a5)
    (transpose S256x8192 [1, 0] (phx a1 a6 a7) transposes_S8192x256_S256x8192_1_0)

/-- `θ φᵀ / 8192`: each entry divided by the row count. -/
def att : FVec F S8192x8192 .f32 :=
  Host.divf (en a0 a1 a4 a5 a6 a7) (broadcastInDim S8192x8192 ![] bcast_S_S8192x8192 (constant S_ .f32 0x46000000#32))

/-- `y = (θ φᵀ / 8192) g`. -/
def y : FVec F S8192x256 .f32 :=
  Host.dotGeneral dot_S8192x8192_S8192x256_S8192x256_1_0_0_1_n_n none (att a0 a1 a4 a5 a6 a7) (gx a1 a2 a3)

/-- `w = y · Ww + bw`, 8192 × 512. -/
def wy : FVec F S8192x512 .f32 :=
  addf (Host.dotGeneral dot_S8192x256_S256x512_S8192x512_1_0_0_1_n_n none (y a0 a1 a2 a3 a4 a5 a6 a7) a8)
    (broadcastInDim S8192x512 ![0, 1] bcast_S1x512_S8192x512_0_1 (broadcastInDim S1x512 ![1] bcast_S512_S1x512_1 a9))

/-- The column mean of `w`: the sum down the 8192 rows (from zero), divided by 8192. -/
def mean : FVec F S512 .f32 :=
  Host.divf (Host.reduceAdd (wy a0 a1 a2 a3 a4 a5 a6 a7 a8 a9) (constant S_ .f32 0x00000000#32) reducesTo_S8192x512_S512_d0 h_S_)
    (broadcastInDim S512 ![] bcast_S_S512 (constant S_ .f32 0x46000000#32))

/-- The variance's divisor: the row count less the correction, `8192 − 0` (the correction an integer zero read as a float). -/
def cnt : FVec F S_ .f32 :=
  subf (constant S_ .f32 0x46000000#32) (sitofp .f32 (constantI S_ 32 0#32))

/-- The deviations `w − μ`, the mean `μ` recomputed as a single row (the column sum over 8192) and repeated down the rows. -/
def dev : FVec F S8192x512 .f32 :=
  subf (wy a0 a1 a2 a3 a4 a5 a6 a7 a8 a9)
    (broadcastInDim S8192x512 ![0, 1] bcast_S1x512_S8192x512_0_1
      (Host.divf
        (broadcastInDim S1x512 ![1] bcast_S512_S1x512_1
          (Host.reduceAdd (wy a0 a1 a2 a3 a4 a5 a6 a7 a8 a9) (constant S_ .f32 0x00000000#32) reducesTo_S8192x512_S512_d0 h_S_))
        (broadcastInDim S1x512 ![] bcast_S_S1x512 (constant S_ .f32 0x46000000#32))))

/-- The squared deviations `(w − μ)²`. -/
def sqdev : FVec F S8192x512 .f32 :=
  mulf (dev a0 a1 a2 a3 a4 a5 a6 a7 a8 a9) (dev a0 a1 a2 a3 a4 a5 a6 a7 a8 a9)

/-- The column variance of `w`: the sum of the squared deviations divided by the divisor, where the divisor is
    positive; the quiet not-a-number elsewhere. -/
def var : FVec F S512 .f32 :=
  select (broadcastInDim S512 ![] bcast_S_S512 (cmpf .ogt (cnt (F := F)) (constant S_ .f32 0x00000000#32)))
    (Host.divf
      (Host.reduceAdd (sqdev a0 a1 a2 a3 a4 a5 a6 a7 a8 a9) (constant S_ .f32 0x00000000#32) reducesTo_S8192x512_S512_d0 h_S_)
      (broadcastInDim S512 ![] bcast_S_S512 (cnt (F := F))))
    (broadcastInDim S512 ![] bcast_S_S512 (id (constant S_ .f32 0x7FC00000#32)))

/-- `z = (w − μ) · rsqrt (σ² + ε) · γ + β + xh`. -/
def z2 : FVec F S8192x512 .f32 :=
  addf
    (addf
      (mulf
        (mulf
          (subf (wy a0 a1 a2 a3 a4 a5 a6 a7 a8 a9)
            (broadcastInDim S8192x512 ![0, 1] bcast_S1x512_S8192x512_0_1
              (broadcastInDim S1x512 ![1] bcast_S512_S1x512_1 (mean a0 a1 a2 a3 a4 a5 a6 a7 a8 a9))))
          (broadcastInDim S8192x512 ![0, 1] bcast_S1x512_S8192x512_0_1
            (broadcastInDim S1x512 ![1] bcast_S512_S1x512_1
              (Host.rsqrt (addf (var a0 a1 a2 a3 a4 a5 a6 a7 a8 a9)
                (broadcastInDim S512 ![] bcast_S_S512 (constant S_ .f32 0x3727C5AC#32)))))))
        (broadcastInDim S8192x512 ![0, 1] bcast_S1x512_S8192x512_0_1 (broadcastInDim S1x512 ![1] bcast_S512_S1x512_1 a10)))
      (broadcastInDim S8192x512 ![0, 1] bcast_S1x512_S8192x512_0_1 (broadcastInDim S1x512 ![1] bcast_S512_S1x512_1 a11)))
    (xh2 a0)

/-- The result: `z` back in the activation's three-axis shape. -/
def out : FVec F S8x1024x512 .f32 :=
  shapeCast S8x1024x512 (z2 a0 a1 a2 a3 a4 a5 a6 a7 a8 a9 a10 a11) shapeCasts_S8192x512_S8x1024x512

end Stages

/-! ## The program as a list -/

/-- @main's seventy operations, in order, the calls unfolded: thirty of its own up to the integer zero; the
    variance's nineteen over the call's buffers `main_call0.…` (the column sum, the mean as a row, the deviations and
    their squares, the divisor `8192 − 0`, the sum of squares over it, the test that the divisor is positive, the
    not-a-number) and the selection's three over `main_call0.call0.…` (the not-a-number converted to its own type,
    repeated over the columns, the select, whose buffer is @main's `%26`); then @main's last eighteen. -/
abbrev ops : List (HloOp τ sig (Elt F)) :=
  [ reshape main_arg0 main_v0 rfl shapeCasts_S8x1024x512_S8192x512,
    reshape main_arg1 main_v1 rfl shapeCasts_S8x1024x256_S8192x256,
    binary main_v1 main_arg2 main_v2 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg3 main_v3 (broadcastInDim S1x256 ![1] bcast_S256_S1x256_1 : (⟨S256, .f32⟩ : BufTy).Contents (Elt F) → (⟨S1x256, .f32⟩ : BufTy).Contents (Elt F)),
    unary main_v3 main_v4 (broadcastInDim S8192x256 ![0, 1] bcast_S1x256_S8192x256_0_1 : (⟨S1x256, .f32⟩ : BufTy).Contents (Elt F) → (⟨S8192x256, .f32⟩ : BufTy).Contents (Elt F)),
    binary main_v2 main_v4 main_v5 (addf : (⟨S8192x256, .f32⟩ : BufTy).Contents (Elt F) → (⟨S8192x256, .f32⟩ : BufTy).Contents (Elt F) → (⟨S8192x256, .f32⟩ : BufTy).Contents (Elt F)),
    binary main_v0 main_arg4 main_v6 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg5 main_v7 (broadcastInDim S1x256 ![1] bcast_S256_S1x256_1 : (⟨S256, .f32⟩ : BufTy).Contents (Elt F) → (⟨S1x256, .f32⟩ : BufTy).Contents (Elt F)),
    unary main_v7 main_v8 (broadcastInDim S8192x256 ![0, 1] bcast_S1x256_S8192x256_0_1 : (⟨S1x256, .f32⟩ : BufTy).Contents (Elt F) → (⟨S8192x256, .f32⟩ : BufTy).Contents (Elt F)),
    binary main_v6 main_v8 main_v9 (addf : (⟨S8192x256, .f32⟩ : BufTy).Contents (Elt F) → (⟨S8192x256, .f32⟩ : BufTy).Contents (Elt F) → (⟨S8192x256, .f32⟩ : BufTy).Contents (Elt F)),
    binary main_v1 main_arg6 main_v10 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg7 main_v11 (broadcastInDim S1x256 ![1] bcast_S256_S1x256_1 : (⟨S256, .f32⟩ : BufTy).Contents (Elt F) → (⟨S1x256, .f32⟩ : BufTy).Contents (Elt F)),
    unary main_v11 main_v12 (broadcastInDim S8192x256 ![0, 1] bcast_S1x256_S8192x256_0_1 : (⟨S1x256, .f32⟩ : BufTy).Contents (Elt F) → (⟨S8192x256, .f32⟩ : BufTy).Contents (Elt F)),
    binary main_v10 main_v12 main_v13 (addf : (⟨S8192x256, .f32⟩ : BufTy).Contents (Elt F) → (⟨S8192x256, .f32⟩ : BufTy).Contents (Elt F) → (⟨S8192x256, .f32⟩ : BufTy).Contents (Elt F)),
    unary main_v13 main_v14 ((transpose S256x8192 [1, 0] · transposes_S8192x256_S256x8192_1_0) : (⟨S8192x256, .f32⟩ : BufTy).Contents (Elt F) → (⟨S256x8192, .f32⟩ : BufTy).Contents (Elt F)),
    binary main_v9 main_v14 main_v15 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x46000000#32),
    unary main_cst main_v16 (broadcastInDim S8192x8192 ![] bcast_S_S8192x8192 : (⟨S_, .f32⟩ : BufTy).Contents (Elt F) → (⟨S8192x8192, .f32⟩ : BufTy).Contents (Elt F)),
    binary main_v15 main_v16 main_v17 (Host.divf : (⟨S8192x8192, .f32⟩ : BufTy).Contents (Elt F) → (⟨S8192x8192, .f32⟩ : BufTy).Contents (Elt F) → (⟨S8192x8192, .f32⟩ : BufTy).Contents (Elt F)),
    binary main_v17 main_v5 main_v18 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v18 main_arg8 main_v19 ((fun l r => Host.dotGeneral dot_S8192x256_S256x512_S8192x512_1_0_0_1_n_n none l r) : (⟨S8192x256, .f32⟩ : BufTy).Contents (Elt F) → (⟨S256x512, .f32⟩ : BufTy).Contents (Elt F) → (⟨S8192x512, .f32⟩ : BufTy).Contents (Elt F)),
    unary main_arg9 main_v20 (broadcastInDim S1x512 ![1] bcast_S512_S1x512_1 : (⟨S512, .f32⟩ : BufTy).Contents (Elt F) → (⟨S1x512, .f32⟩ : BufTy).Contents (Elt F)),
    unary main_v20 main_v21 (broadcastInDim S8192x512 ![0, 1] bcast_S1x512_S8192x512_0_1 : (⟨S1x512, .f32⟩ : BufTy).Contents (Elt F) → (⟨S8192x512, .f32⟩ : BufTy).Contents (Elt F)),
    binary main_v19 main_v21 main_v22 (addf : (⟨S8192x512, .f32⟩ : BufTy).Contents (Elt F) → (⟨S8192x512, .f32⟩ : BufTy).Contents (Elt F) → (⟨S8192x512, .f32⟩ : BufTy).Contents (Elt F)),
    nullary main_cst_0 (constant S_ .f32 0x00000000#32),
    binary main_v22 main_cst_0 main_v23 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_1 (constant S_ .f32 0x46000000#32),
    unary main_cst_1 main_v24 (broadcastInDim S512 ![] bcast_S_S512 : (⟨S_, .f32⟩ : BufTy).Contents (Elt F) → (⟨S512, .f32⟩ : BufTy).Contents (Elt F)),
    binary main_v23 main_v24 main_v25 (Host.divf : (⟨S512, .f32⟩ : BufTy).Contents (Elt F) → (⟨S512, .f32⟩ : BufTy).Contents (Elt F) → (⟨S512, .f32⟩ : BufTy).Contents (Elt F)),
    nullary main_c (constantI S_ 32 0#32),
    TRef.nullary main_call0.cst (constant S_ .f32 0x00000000#32),
    TRef.binary (.of main_v22) main_call0.cst main_call0.v0 (fun x v => Host.reduceAdd x v reducesTo_S8192x512_S512_d0 h_S_),
    TRef.unary main_call0.v0 main_call0.v1 (broadcastInDim S1x512 ![1] bcast_S512_S1x512_1),
    TRef.nullary main_call0.cst_0 (constant S_ .f32 0x46000000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S8192x512 ![0, 1] bcast_S1x512_S8192x512_0_1),
    TRef.binary (.of main_v22) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v25 main_v27 (broadcastInDim S1x512 ![1] bcast_S512_S1x512_1 : (⟨S512, .f32⟩ : BufTy).Contents (Elt F) → (⟨S1x512, .f32⟩ : BufTy).Contents (Elt F)),
    unary main_v27 main_v28 (broadcastInDim S8192x512 ![0, 1] bcast_S1x512_S8192x512_0_1 : (⟨S1x512, .f32⟩ : BufTy).Contents (Elt F) → (⟨S8192x512, .f32⟩ : BufTy).Contents (Elt F)),
    binary main_v22 main_v28 main_v29 (subf : (⟨S8192x512, .f32⟩ : BufTy).Contents (Elt F) → (⟨S8192x512, .f32⟩ : BufTy).Contents (Elt F) → (⟨S8192x512, .f32⟩ : BufTy).Contents (Elt F)),
    nullary main_cst_2 (constant S_ .f32 0x3727C5AC#32),
    unary main_cst_2 main_v30 (broadcastInDim S512 ![] bcast_S_S512 : (⟨S_, .f32⟩ : BufTy).Contents (Elt F) → (⟨S512, .f32⟩ : BufTy).Contents (Elt F)),
    binary main_v26 main_v30 main_v31 (addf : (⟨S512, .f32⟩ : BufTy).Contents (Elt F) → (⟨S512, .f32⟩ : BufTy).Contents (Elt F) → (⟨S512, .f32⟩ : BufTy).Contents (Elt F)),
    unary main_v31 main_v32 (Host.rsqrt : (⟨S512, .f32⟩ : BufTy).Contents (Elt F) → (⟨S512, .f32⟩ : BufTy).Contents (Elt F)),
    unary main_v32 main_v33 (broadcastInDim S1x512 ![1] bcast_S512_S1x512_1 : (⟨S512, .f32⟩ : BufTy).Contents (Elt F) → (⟨S1x512, .f32⟩ : BufTy).Contents (Elt F)),
    unary main_v33 main_v34 (broadcastInDim S8192x512 ![0, 1] bcast_S1x512_S8192x512_0_1 : (⟨S1x512, .f32⟩ : BufTy).Contents (Elt F) → (⟨S8192x512, .f32⟩ : BufTy).Contents (Elt F)),
    binary main_v29 main_v34 main_v35 (mulf : (⟨S8192x512, .f32⟩ : BufTy).Contents (Elt F) → (⟨S8192x512, .f32⟩ : BufTy).Contents (Elt F) → (⟨S8192x512, .f32⟩ : BufTy).Contents (Elt F)),
    unary main_arg10 main_v36 (broadcastInDim S1x512 ![1] bcast_S512_S1x512_1 : (⟨S512, .f32⟩ : BufTy).Contents (Elt F) → (⟨S1x512, .f32⟩ : BufTy).Contents (Elt F)),
    unary main_v36 main_v37 (broadcastInDim S8192x512 ![0, 1] bcast_S1x512_S8192x512_0_1 : (⟨S1x512, .f32⟩ : BufTy).Contents (Elt F) → (⟨S8192x512, .f32⟩ : BufTy).Contents (Elt F)),
    binary main_v35 main_v37 main_v38 (mulf : (⟨S8192x512, .f32⟩ : BufTy).Contents (Elt F) → (⟨S8192x512, .f32⟩ : BufTy).Contents (Elt F) → (⟨S8192x512, .f32⟩ : BufTy).Contents (Elt F)),
    unary main_arg11 main_v39 (broadcastInDim S1x512 ![1] bcast_S512_S1x512_1 : (⟨S512, .f32⟩ : BufTy).Contents (Elt F) → (⟨S1x512, .f32⟩ : BufTy).Contents (Elt F)),
    unary main_v39 main_v40 (broadcastInDim S8192x512 ![0, 1] bcast_S1x512_S8192x512_0_1 : (⟨S1x512, .f32⟩ : BufTy).Contents (Elt F) → (⟨S8192x512, .f32⟩ : BufTy).Contents (Elt F)),
    binary main_v38 main_v40 main_v41 (addf : (⟨S8192x512, .f32⟩ : BufTy).Contents (Elt F) → (⟨S8192x512, .f32⟩ : BufTy).Contents (Elt F) → (⟨S8192x512, .f32⟩ : BufTy).Contents (Elt F)),
    binary main_v41 main_v0 main_v42 (addf : (⟨S8192x512, .f32⟩ : BufTy).Contents (Elt F) → (⟨S8192x512, .f32⟩ : BufTy).Contents (Elt F) → (⟨S8192x512, .f32⟩ : BufTy).Contents (Elt F)),
    reshape main_v42 main_v43 rfl shapeCasts_S8192x512_S8x1024x512 ]

/-- @main is that straight line: sequencing grafts what follows a call onto the end of the callee's body, and the
    callee's body over the call's buffers is its operations in order, so both sides are one chain of the same
    steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., reshape_bufs_sub ..⟩

set_option maxRecDepth 8192 in
/-- The fold at the result buffer is `out`: the fold unrolled, each operation's result at its own buffer is its
    function's value and at any other buffer what was there; what remains is the composed term, which the named
    stages spell by definition. -/
theorem out_eq (V : Valuation τ sig (Elt F)) :
    after ops V (main_v43 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

/-- On the device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RefRun

end
-- ==== Proof.RefValue.lean ====
import proofs.«131456_j40999757807684_1_alg».proof.Proof.RefRun
import proofs.«131456_j40999757807684_1_alg».proof.Proof.Spec
import proofs.«131456_j40999757807684_1_alg».proof.Proof.Consts
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

/-!
# The reference's result, entry by entry, is the specification's `zr`

Each stage of the reference's formula is an array; read at a pair of coordinates it is the corresponding
function of the specification, applied to the twelve inputs read off the argument arrays.  A matrix product read
at `(i, a)` is the sum over the contracted coordinate of the products of the entries; a bias, a column statistic
or a scale repeated down the rows reads the vector's entry at the column; a division by the constant `8192` is the
product with `1/8192` on every extended real; a column sum from zero is the sum over the 8192 rows.  The divisor
of the variance, `8192 − 0`, is positive, so the selection that guards a zero row count always takes the quotient.
Nothing here uses finiteness of the inputs: every step is the reading of one operation, and the two reshaped
activations are never opened.
-/

noncomputable section

namespace Cert.ReferenceIdeal.RefValue

open Cert.ReferenceIdeal Cert.ReferenceIdeal.Gen Idealize.ShloMosaic Idealize.ShloMosaic.ValueIdx

/-! ## The operations, read at coordinates -/

/-- A product of an 8192 × 256 by a 256 × 256 matrix at `(i, a)`: the sum over the shared coordinate. -/
theorem dot_apply_8192x256_256x256 (l : FVec Ideal S8192x256 .f32) (r : FVec Ideal S256x256 .f32) (i : Fin 8192) (a : Fin 256) :
    Host.dotGeneral dot_S8192x256_S256x256_S8192x256_1_0_0_1_n_n none l r (ix2 i a) = ∑ k : Fin 256, l (ix2 i k) * r (ix2 k a) :=
  StackMember.dotGeneral_plain_apply none l r i a

/-- A product of an 8192 × 512 by a 512 × 256 matrix at `(i, a)`. -/
theorem dot_apply_8192x512_512x256 (l : FVec Ideal S8192x512 .f32) (r : FVec Ideal S512x256 .f32) (i : Fin 8192) (a : Fin 256) :
    Host.dotGeneral dot_S8192x512_S512x256_S8192x256_1_0_0_1_n_n none l r (ix2 i a) = ∑ k : Fin 512, l (ix2 i k) * r (ix2 k a) :=
  StackMember.dotGeneral_plain_apply none l r i a

/-- A product of an 8192 × 256 by a 256 × 8192 matrix at `(i, j)`. -/
theorem dot_apply_8192x256_256x8192 (l : FVec Ideal S8192x256 .f32) (r : FVec Ideal S256x8192 .f32) (i j : Fin 8192) :
    Host.dotGeneral dot_S8192x256_S256x8192_S8192x8192_1_0_0_1_n_n none l r (ix2 i j) = ∑ a : Fin 256, l (ix2 i a) * r (ix2 a j) :=
  StackMember.dotGeneral_plain_apply none l r i j

/-- A product of an 8192 × 8192 by an 8192 × 256 matrix at `(i, c)`. -/
theorem dot_apply_8192x8192_8192x256 (l : FVec Ideal S8192x8192 .f32) (r : FVec Ideal S8192x256 .f32) (i : Fin 8192) (c : Fin 256) :
    Host.dotGeneral dot_S8192x8192_S8192x256_S8192x256_1_0_0_1_n_n none l r (ix2 i c) = ∑ j : Fin 8192, l (ix2 i j) * r (ix2 j c) :=
  StackMember.dotGeneral_plain_apply none l r i c

/-- A product of an 8192 × 256 by a 256 × 512 matrix at `(i, d)`. -/
theorem dot_apply_8192x256_256x512 (l : FVec Ideal S8192x256 .f32) (r : FVec Ideal S256x512 .f32) (i : Fin 8192) (d : Fin 512) :
    Host.dotGeneral dot_S8192x256_S256x512_S8192x512_1_0_0_1_n_n none l r (ix2 i d) = ∑ c : Fin 256, l (ix2 i c) * r (ix2 c d) :=
  StackMember.dotGeneral_plain_apply none l r i d

/-- The transpose of an 8192 × 256 matrix reads, at `(a, j)`, the matrix at `(j, a)`. -/
theorem transpose_apply_256x8192 (x : FVec Ideal S8192x256 .f32) (a : Fin 256) (j : Fin 8192) :
    transpose S256x8192 [1, 0] x transposes_S8192x256_S256x8192_1_0 (ix2 a j) = x (ix2 j a) :=
  transpose_ix2_apply x transposes_S8192x256_S256x8192_1_0 a j

/-- A vector of 256 entries as a single row reads its entry at the column. -/
theorem row_apply_256 (b : FVec Ideal S256 .f32) (a : Fin 256) :
    broadcastInDim S1x256 ![1] bcast_S256_S1x256_1 b (ix2 (0 : Fin 1) a) = b (ix1 a) :=
  broadcastInDim_apply ![1] bcast_S256_S1x256_1 b (ix2 (0 : Fin 1) a) (ix1 a) (fun c => match c with | ⟨0, _⟩ => rfl)

/-- A vector of 512 entries as a single row reads its entry at the column. -/
theorem row_apply_512 (b : FVec Ideal S512 .f32) (d : Fin 512) :
    broadcastInDim S1x512 ![1] bcast_S512_S1x512_1 b (ix2 (0 : Fin 1) d) = b (ix1 d) :=
  broadcastInDim_apply ![1] bcast_S512_S1x512_1 b (ix2 (0 : Fin 1) d) (ix1 d) (fun c => match c with | ⟨0, _⟩ => rfl)

/-- A vector of 256 entries repeated down the 8192 rows reads, at `(i, a)`, its entry `a`. -/
theorem rows_apply_256 (b : FVec Ideal S256 .f32) (i : Fin 8192) (a : Fin 256) :
    broadcastInDim S8192x256 ![0, 1] bcast_S1x256_S8192x256_0_1 (broadcastInDim S1x256 ![1] bcast_S256_S1x256_1 b) (ix2 i a)
      = b (ix1 a) := by
  rw [broadcastInDim_oneRow_apply, row_apply_256]

/-- A vector of 512 entries repeated down the 8192 rows reads, at `(i, d)`, its entry `d`. -/
theorem rows_apply_512 (b : FVec Ideal S512 .f32) (i : Fin 8192) (d : Fin 512) :
    broadcastInDim S8192x512 ![0, 1] bcast_S1x512_S8192x512_0_1 (broadcastInDim S1x512 ![1] bcast_S512_S1x512_1 b) (ix2 i d)
      = b (ix1 d) := by
  rw [broadcastInDim_oneRow_apply, row_apply_512]

/-- The column sum from zero over the 8192 rows, at column `d`. -/
theorem colsum_apply (x : FVec Ideal S8192x512 .f32) (d : Fin 512) :
    Host.reduceAdd x (constant (F := Ideal) S_ .f32 0x00000000#32) reducesTo_S8192x512_S512_d0 h_S_ (ix1 d)
      = ∑ i : Fin 8192, x (ix2 i d) := by
  rw [hostReduceAdd_apply, Ideal.hostReduceAdd_single reducesTo_S8192x512_S512_d0 (by decide : S8192x512.Reduces [0] S512),
    constant_apply, Cert.Consts.ofBits_zero, zero_add]
  refine Finset.sum_congr rfl fun k _ => congrArg x ?_
  funext c
  match c with
  | ⟨0, _⟩ => rfl
  | ⟨1, _⟩ => rfl

/-- Division by the constant `8192`, repeated over any shape, is the product with `1/8192`. -/
theorem div8192_apply {T : Shape} (h : S_.BroadcastsInDim T ![]) (x : FVec Ideal T .f32) (j : T.Idx) :
    Host.divf x (broadcastInDim T ![] h (constant (F := Ideal) S_ .f32 0x46000000#32)) j = x j * Cert.Spec.inv := by
  rw [hostDivf_apply, broadcastInDim_scalar_apply, constant_apply, Cert.Consts.ofBits_8192,
    Ideal.div_coe (by norm_num : (8192 : ℝ) ≠ 0)]

/-- The variance's divisor `8192 − 0` is `8192`: the integer zero read as a float is `0`. -/
theorem cnt_apply : RefRun.cnt (F := Ideal) ix0 = ((8192 : ℝ) : EReal) := by
  unfold RefRun.cnt
  rw [subf_apply, constant_apply, Cert.Consts.ofBits_8192, sitofp_apply]
  show ((8192 : ℝ) : EReal) - (((0#32 : BitVec 32).toInt : ℝ) : EReal) = _
  simp

/-- The divisor is above zero, so the comparison's word is the true one. -/
theorem cnt_pos : cmpf .ogt (RefRun.cnt (F := Ideal)) (constant (F := Ideal) S_ .f32 0x00000000#32) ix0 = 1#1 := by
  rw [cmpf_apply, cnt_apply, constant_apply, Cert.Consts.ofBits_zero, Ideal.cmpf_def]
  show BitVec.ofBool (decide ((0 : EReal) < ((8192 : ℝ) : EReal))) = 1#1
  rw [decide_eq_true (by exact_mod_cast (by norm_num : (0 : ℝ) < 8192))]
  rfl

/-! ## The inputs and the stages -/

/-- The specification's inputs read off the twelve argument arrays. -/
def args (a0 : FVec Ideal S8x1024x512 .f32) (a1 : FVec Ideal S8x1024x256 .f32) (a2 : FVec Ideal S256x256 .f32)
    (a3 : FVec Ideal S256 .f32) (a4 : FVec Ideal S512x256 .f32) (a5 : FVec Ideal S256 .f32) (a6 : FVec Ideal S256x256 .f32)
    (a7 : FVec Ideal S256 .f32) (a8 : FVec Ideal S256x512 .f32) (a9 : FVec Ideal S512 .f32) (a10 : FVec Ideal S512 .f32)
    (a11 : FVec Ideal S512 .f32) : Cert.Spec.Args where
  xh i k := RefRun.xh2 a0 (ix2 i k)
  xl i k := RefRun.xl2 a1 (ix2 i k)
  gw k a := a2 (ix2 k a)
  gb a := a3 (ix1 a)
  thw k a := a4 (ix2 k a)
  thb a := a5 (ix1 a)
  phw k a := a6 (ix2 k a)
  phb a := a7 (ix1 a)
  ww c d := a8 (ix2 c d)
  wb d := a9 (ix1 d)
  gamma d := a10 (ix1 d)
  beta d := a11 (ix1 d)

section Stages

variable (a0 : FVec Ideal S8x1024x512 .f32) (a1 : FVec Ideal S8x1024x256 .f32) (a2 : FVec Ideal S256x256 .f32)
  (a3 : FVec Ideal S256 .f32) (a4 : FVec Ideal S512x256 .f32) (a5 : FVec Ideal S256 .f32) (a6 : FVec Ideal S256x256 .f32)
  (a7 : FVec Ideal S256 .f32) (a8 : FVec Ideal S256x512 .f32) (a9 : FVec Ideal S512 .f32) (a10 : FVec Ideal S512 .f32)
  (a11 : FVec Ideal S512 .f32)

/-- `g = xl · Wg + bg`, entry by entry. -/
theorem gx_apply (i : Fin 8192) (a : Fin 256) :
    RefRun.gx (F := Ideal) a1 a2 a3 (ix2 i a) = (args a0 a1 a2 a3 a4 a5 a6 a7 a8 a9 a10 a11).gx i a := by
  unfold RefRun.gx
  rw [addf_apply, dot_apply_8192x256_256x256, rows_apply_256]
  rfl

/-- `θ = xh · Wθ + bθ`, entry by entry. -/
theorem thx_apply (i : Fin 8192) (a : Fin 256) :
    RefRun.thx (F := Ideal) a0 a4 a5 (ix2 i a) = (args a0 a1 a2 a3 a4 a5 a6 a7 a8 a9 a10 a11).thx i a := by
  unfold RefRun.thx
  rw [addf_apply, dot_apply_8192x512_512x256, rows_apply_256]
  rfl

/-- `φ = xl · Wφ + bφ`, entry by entry. -/
theorem phx_apply (i : Fin 8192) (a : Fin 256) :
    RefRun.phx (F := Ideal) a1 a6 a7 (ix2 i a) = (args a0 a1 a2 a3 a4 a5 a6 a7 a8 a9 a10 a11).phx i a := by
  unfold RefRun.phx
  rw [addf_apply, dot_apply_8192x256_256x256, rows_apply_256]
  rfl

/-- `θ φᵀ` at `(i, j)`: row `i` of `θ` against row `j` of `φ` (the transpose read back at `(a, j)` is `φ` at `(j, a)`). -/
theorem en_apply (i j : Fin 8192) :
    RefRun.en (F := Ideal) a0 a1 a4 a5 a6 a7 (ix2 i j) = (args a0 a1 a2 a3 a4 a5 a6 a7 a8 a9 a10 a11).en i j := by
  unfold RefRun.en
  rw [dot_apply_8192x256_256x8192]
  exact Finset.sum_congr rfl fun a _ => by
    rw [transpose_apply_256x8192, thx_apply a0 a1 a2 a3 a4 a5 a6 a7 a8 a9 a10 a11, phx_apply a0 a1 a2 a3 a4 a5 a6 a7 a8 a9 a10 a11]

/-- `θ φᵀ / 8192` at `(i, j)`. -/
theorem att_apply (i j : Fin 8192) :
    RefRun.att (F := Ideal) a0 a1 a4 a5 a6 a7 (ix2 i j) = (args a0 a1 a2 a3 a4 a5 a6 a7 a8 a9 a10 a11).en i j * Cert.Spec.inv := by
  unfold RefRun.att
  rw [div8192_apply, en_apply a0 a1 a2 a3 a4 a5 a6 a7 a8 a9 a10 a11]

/-- `y = (θ φᵀ / 8192) g` at `(i, c)`. -/
theorem y_apply (i : Fin 8192) (c : Fin 256) :
    RefRun.y (F := Ideal) a0 a1 a2 a3 a4 a5 a6 a7 (ix2 i c) = (args a0 a1 a2 a3 a4 a5 a6 a7 a8 a9 a10 a11).yr i c := by
  unfold RefRun.y
  rw [dot_apply_8192x8192_8192x256]
  simp only [att_apply a0 a1 a2 a3 a4 a5 a6 a7 a8 a9 a10 a11, gx_apply a0 a1 a2 a3 a4 a5 a6 a7 a8 a9 a10 a11]
  rfl

/-- `w = y · Ww + bw` at `(i, d)`. -/
theorem wy_apply (i : Fin 8192) (d : Fin 512) :
    RefRun.wy (F := Ideal) a0 a1 a2 a3 a4 a5 a6 a7 a8 a9 (ix2 i d) = (args a0 a1 a2 a3 a4 a5 a6 a7 a8 a9 a10 a11).wyr i d := by
  unfold RefRun.wy
  rw [addf_apply, dot_apply_8192x256_256x512, rows_apply_512]
  simp only [y_apply a0 a1 a2 a3 a4 a5 a6 a7 a8 a9 a10 a11]
  rfl

/-- The column mean of `w` at column `d`. -/
theorem mean_apply (d : Fin 512) :
    RefRun.mean (F := Ideal) a0 a1 a2 a3 a4 a5 a6 a7 a8 a9 (ix1 d) = Cert.Spec.meanOf (args a0 a1 a2 a3 a4 a5 a6 a7 a8 a9 a10 a11).wyr d := by
  unfold RefRun.mean
  rw [div8192_apply, colsum_apply]
  simp only [wy_apply a0 a1 a2 a3 a4 a5 a6 a7 a8 a9 a10 a11]
  rfl

/-- The deviation `w − μ` at `(i, d)`: the mean recomputed as a row is the same column mean. -/
theorem dev_apply (i : Fin 8192) (d : Fin 512) :
    RefRun.dev (F := Ideal) a0 a1 a2 a3 a4 a5 a6 a7 a8 a9 (ix2 i d)
      = (args a0 a1 a2 a3 a4 a5 a6 a7 a8 a9 a10 a11).wyr i d - Cert.Spec.meanOf (args a0 a1 a2 a3 a4 a5 a6 a7 a8 a9 a10 a11).wyr d := by
  unfold RefRun.dev
  rw [subf_apply, broadcastInDim_oneRow_apply, div8192_apply, row_apply_512, colsum_apply]
  simp only [wy_apply a0 a1 a2 a3 a4 a5 a6 a7 a8 a9 a10 a11]
  rfl

/-- The squared deviation at `(i, d)`. -/
theorem sqdev_apply (i : Fin 8192) (d : Fin 512) :
    RefRun.sqdev (F := Ideal) a0 a1 a2 a3 a4 a5 a6 a7 a8 a9 (ix2 i d)
      = ((args a0 a1 a2 a3 a4 a5 a6 a7 a8 a9 a10 a11).wyr i d - Cert.Spec.meanOf (args a0 a1 a2 a3 a4 a5 a6 a7 a8 a9 a10 a11).wyr d)
        * ((args a0 a1 a2 a3 a4 a5 a6 a7 a8 a9 a10 a11).wyr i d - Cert.Spec.meanOf (args a0 a1 a2 a3 a4 a5 a6 a7 a8 a9 a10 a11).wyr d) := by
  unfold RefRun.sqdev
  rw [mulf_apply, dev_apply a0 a1 a2 a3 a4 a5 a6 a7 a8 a9 a10 a11]

/-- The column variance of `w` at column `d`: the selection takes the quotient, whose divisor is `8192`. -/
theorem var_apply (d : Fin 512) :
    RefRun.var (F := Ideal) a0 a1 a2 a3 a4 a5 a6 a7 a8 a9 (ix1 d) = Cert.Spec.varDev (args a0 a1 a2 a3 a4 a5 a6 a7 a8 a9 a10 a11).wyr d := by
  unfold RefRun.var
  rw [select_apply, broadcastInDim_scalar_apply, cnt_pos, select_one, hostDivf_apply, colsum_apply,
    broadcastInDim_scalar_apply, cnt_apply, Ideal.div_coe (by norm_num : (8192 : ℝ) ≠ 0)]
  simp only [sqdev_apply a0 a1 a2 a3 a4 a5 a6 a7 a8 a9 a10 a11]
  rfl

/-- The reference's normalised result, entry by entry, is the specification's `zr`. -/
theorem z2_eq (i : Fin 8192) (d : Fin 512) :
    RefRun.z2 (F := Ideal) a0 a1 a2 a3 a4 a5 a6 a7 a8 a9 a10 a11 (ix2 i d) = (args a0 a1 a2 a3 a4 a5 a6 a7 a8 a9 a10 a11).zr i d := by
  unfold RefRun.z2
  rw [addf_apply, addf_apply, mulf_apply, mulf_apply, subf_apply, rows_apply_512, rows_apply_512, rows_apply_512,
    rows_apply_512, wy_apply a0 a1 a2 a3 a4 a5 a6 a7 a8 a9 a10 a11, mean_apply a0 a1 a2 a3 a4 a5 a6 a7 a8 a9 a10 a11]
  show _ * Ideal.rsqrt (RefRun.var (F := Ideal) a0 a1 a2 a3 a4 a5 a6 a7 a8 a9 (ix1 d)
      + broadcastInDim S512 ![] bcast_S_S512 (constant (F := Ideal) S_ .f32 0x3727C5AC#32) (ix1 d)) * _ + _ + _ = _
  rw [var_apply a0 a1 a2 a3 a4 a5 a6 a7 a8 a9 a10 a11, broadcastInDim_scalar_apply, constant_apply]
  rfl

end Stages

end Cert.ReferenceIdeal.RefValue

end
-- ==== Proof.SpecLaw.lean ====
/-
  The two readings of the certificate's mathematics agree on real inputs.

  The extended reals are not a ring (distributivity fails at the infinities), so the algebra is done over the
  reals and carried across the coercion: on real inputs every intermediate quantity of either reading is the
  coercion of a real number, because the coercion commutes with sums, products, differences and finite sums.

  Over the reals the two laws are

      (Σ_a θ_a · (Σ_j φ_{j a} · g_j)) · r  =  Σ_j ((Σ_a θ_a · φ_{j a}) · r) · g_j
          (distributivity and an exchange of the two finite sums), and

      (Σ_i w_i²) · r − μ²  =  (Σ_i (w_i − μ)²) · r      with  μ = (Σ_i w_i) · r  and  n · r = 1
          (expansion of the square; Σ_i μ² = n · μ²).

  The first gives the same 8192 × 512 matrix  w  in both readings, the second the same column variance of  w,
  and the normalisation is then the same expression of equal arguments.
-/
import proofs.«131456_j40999757807684_1_alg».proof.Proof.Spec
import Mathlib.Data.EReal.Operations
import Mathlib.Algebra.BigOperators.Ring.Finset
import Mathlib.Algebra.BigOperators.Group.Finset.Sigma
import Mathlib.Data.Fintype.BigOperators
import Mathlib.Tactic.Ring
import Mathlib.Tactic.LinearCombination
import Mathlib.Tactic.NormNum.Basic

noncomputable section

namespace Cert.Spec

open Idealize.ShloMosaic

/-! ### The coercion of a finite sum -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-! ### The two laws over the reals -/

/-- Distributivity and the exchange of two finite sums: contracting \`θ\` against \`φᵀ g\` and scaling, or
    contracting \`θ\` against \`φ\` first, scaling, and then contracting against \`g\`. -/
theorem sum_gram_eq {α β : Type*} (s : Finset α) (t : Finset β) (th : α → ℝ) (p : β → α → ℝ) (g : β → ℝ)
    (r : ℝ) :
    (∑ a ∈ s, th a * ∑ j ∈ t, p j a * g j) * r = ∑ j ∈ t, ((∑ a ∈ s, th a * p j a) * r) * g j := by
  simp only [Finset.mul_sum, Finset.sum_mul]
  rw [Finset.sum_comm]
  refine Finset.sum_congr rfl fun j _ => Finset.sum_congr rfl fun a _ => ?_
  ring

/-- Mean of squares minus square of the mean is the mean of the squared deviations, for any finite family and
    any \`r\` with \`n · r = 1\`. -/
theorem var_real {ι : Type*} (s : Finset ι) (f : ι → ℝ) (r : ℝ) (h : (s.card : ℝ) * r = 1) :
    (∑ i ∈ s, f i * f i) * r - ((∑ i ∈ s, f i) * r) * ((∑ i ∈ s, f i) * r)
      = (∑ i ∈ s, (f i - (∑ i ∈ s, f i) * r) * (f i - (∑ i ∈ s, f i) * r)) * r := by
  generalize hm : (∑ i ∈ s, f i) * r = m
  have hsq : ∑ i ∈ s, (f i - m) * (f i - m)
      = (∑ i ∈ s, f i * f i) - 2 * m * (∑ i ∈ s, f i) + (s.card : ℝ) * (m * m) := by
    have hexp : ∀ i, (f i - m) * (f i - m) = f i * f i - 2 * m * f i + m * m := fun i => by ring
    simp only [hexp, Finset.sum_add_distrib, Finset.sum_sub_distrib, ← Finset.mul_sum, Finset.sum_const,
      nsmul_eq_mul]
    ring
  rw [hsq]
  subst hm
  linear_combination (-(((∑ i ∈ s, f i) * r) * ((∑ i ∈ s, f i) * r))) * h

/-- The row count times its reciprocal. -/
theorem card_mul_inv : (((Finset.univ : Finset (Fin 8192)).card : ℝ)) * (1 / 8192) = 1 := by
  rw [Finset.card_fin]
  norm_num

/-! ### Real inputs give real intermediates -/

namespace RArgs
variable (R : RArgs)

/-- \`g = xl·Wg + bg\` over the reals. -/
def gxR (j : Fin 8192) (c : Fin 256) : ℝ := (∑ k : Fin 256, R.xl j k * R.gw k c) + R.gb c
/-- \`θ = xh·Wθ + bθ\` over the reals. -/
def thxR (i : Fin 8192) (a : Fin 256) : ℝ := (∑ k : Fin 512, R.xh i k * R.thw k a) + R.thb a
/-- \`φ = xl·Wφ + bφ\` over the reals. -/
def phxR (j : Fin 8192) (a : Fin 256) : ℝ := (∑ k : Fin 256, R.xl j k * R.phw k a) + R.phb a
/-- \`y = (θ φᵀ / 8192) g\` over the reals. -/
def yR (i : Fin 8192) (c : Fin 256) : ℝ :=
  ∑ j : Fin 8192, ((∑ a : Fin 256, R.thxR i a * R.phxR j a) * (1 / 8192)) * R.gxR j c
/-- \`w = y·Ww + bw\` over the reals. -/
def wR (i : Fin 8192) (d : Fin 512) : ℝ := (∑ c : Fin 256, R.yR i c * R.ww c d) + R.wb d

theorem gx_coe (j : Fin 8192) (c : Fin 256) : R.toE.gx j c = (R.gxR j c : EReal) := by
  simp only [Args.gx, RArgs.toE, lin, gxR, EReal.coe_add, coe_sum, EReal.coe_mul]

theorem thx_coe (i : Fin 8192) (a : Fin 256) : R.toE.thx i a = (R.thxR i a : EReal) := by
  simp only [Args.thx, RArgs.toE, lin, thxR, EReal.coe_add, coe_sum, EReal.coe_mul]

theorem phx_coe (j : Fin 8192) (a : Fin 256) : R.toE.phx j a = (R.phxR j a : EReal) := by
  simp only [Args.phx, RArgs.toE, lin, phxR, EReal.coe_add, coe_sum, EReal.coe_mul]

/-- \`M = φᵀ g\` is real. -/
theorem Mk_coe (a c : Fin 256) :
    R.toE.Mk a c = ((∑ j : Fin 8192, R.phxR j a * R.gxR j c : ℝ) : EReal) := by
  simp only [Args.Mk, gram, phx_coe, gx_coe, coe_sum, EReal.coe_mul]

/-- The kernel's \`y\` entry, \`(θ M)·(1/8192)\`, is the reference's \`y\` entry. -/
theorem y_eq (i : Fin 8192) (c : Fin 256) :
    (∑ a : Fin 256, R.toE.thx i a * R.toE.Mk a c) * inv = R.toE.yr i c := by
  have hL : (∑ a : Fin 256, R.toE.thx i a * R.toE.Mk a c) * inv
      = (((∑ a : Fin 256, R.thxR i a * ∑ j : Fin 8192, R.phxR j a * R.gxR j c) * (1 / 8192) : ℝ) : EReal) := by
    simp only [thx_coe, Mk_coe, EReal.coe_mul, coe_sum]
  have hR : R.toE.yr i c = ((R.yR i c : ℝ) : EReal) := by
    simp only [Args.yr, Args.en, yR, thx_coe, phx_coe, gx_coe, EReal.coe_mul, coe_sum]
  rw [hL, hR, yR, sum_gram_eq]

theorem yr_coe (i : Fin 8192) (c : Fin 256) : R.toE.yr i c = ((R.yR i c : ℝ) : EReal) := by
  simp only [Args.yr, Args.en, yR, thx_coe, phx_coe, gx_coe, EReal.coe_mul, coe_sum]

/-- (1) Both readings build the same matrix \`w = y·Ww + bw\`. -/
theorem wyk_eq_wyr : R.toE.wyk = R.toE.wyr := by
  funext i d
  simp only [Args.wyk, wyOf, Args.wyr, lin, y_eq]

/-- The matrix \`w\` is real. -/
theorem wyr_coe : R.toE.wyr = fun i d => ((R.wR i d : ℝ) : EReal) := by
  funext i d
  have hww : ∀ c, R.toE.ww c d = (R.ww c d : EReal) := fun _ => rfl
  have hwb : R.toE.wb d = (R.wb d : EReal) := rfl
  simp only [Args.wyr, lin, wR, yr_coe, hww, hwb, EReal.coe_add, coe_sum, EReal.coe_mul]

end RArgs

/-- (2) On a real matrix the two column variances agree. -/
theorem varOf_coe (w : Fin 8192 → Fin 512 → ℝ) (d : Fin 512) :
    varOf (fun i d => (w i d : EReal)) d = varDev (fun i d => (w i d : EReal)) d := by
  have hL : varOf (fun i d => (w i d : EReal)) d
      = (((∑ i : Fin 8192, w i d * w i d) * (1 / 8192)
          - ((∑ i : Fin 8192, w i d) * (1 / 8192)) * ((∑ i : Fin 8192, w i d) * (1 / 8192)) : ℝ) : EReal) := by
    simp only [varOf, meanOf, EReal.coe_sub, EReal.coe_mul, coe_sum]
  have hR : varDev (fun i d => (w i d : EReal)) d
      = (((∑ i : Fin 8192, (w i d - (∑ i : Fin 8192, w i d) * (1 / 8192))
            * (w i d - (∑ i : Fin 8192, w i d) * (1 / 8192))) * (1 / 8192) : ℝ) : EReal) := by
    simp only [varDev, meanOf, EReal.coe_sub, EReal.coe_mul, coe_sum]
  rw [hL, hR]
  exact congrArg Real.toEReal (var_real Finset.univ (fun i => w i d) (1 / 8192) card_mul_inv)

/-- (3) On real inputs the kernel's reading and the reference's reading are the same function. -/
theorem zk_eq_zr (R : RArgs) : R.toE.zk = R.toE.zr := by
  have hv : (fun d => Ideal.rsqrt (varOf R.toE.wyr d + eps))
      = (fun d => Ideal.rsqrt (varDev R.toE.wyr d + eps)) := by
    funext d
    rw [R.wyr_coe, varOf_coe R.wR d]
  unfold Args.zk Args.zr
  rw [R.wyk_eq_wyr, hv]

end Cert.Spec

end
-- ==== Proof.RealArgs.lean ====
/-
  Inputs all of whose entries are real numbers are the reading, as extended reals, of real-valued inputs.
-/
import proofs.«131456_j40999757807684_1_alg».proof.Proof.Spec

noncomputable section

namespace Cert.Spec

/-- If every entry of every input is (the coercion of) a real number, the inputs are real-valued inputs read
    as extended reals: choose the real behind each entry. -/
theorem Args.exists_real (A : Args)
    (h_xh : ∀ i k, ∃ r : ℝ, A.xh i k = (r : EReal))
    (h_xl : ∀ i k, ∃ r : ℝ, A.xl i k = (r : EReal))
    (h_gw : ∀ k a, ∃ r : ℝ, A.gw k a = (r : EReal))
    (h_gb : ∀ a, ∃ r : ℝ, A.gb a = (r : EReal))
    (h_thw : ∀ k a, ∃ r : ℝ, A.thw k a = (r : EReal))
    (h_thb : ∀ a, ∃ r : ℝ, A.thb a = (r : EReal))
    (h_phw : ∀ k a, ∃ r : ℝ, A.phw k a = (r : EReal))
    (h_phb : ∀ a, ∃ r : ℝ, A.phb a = (r : EReal))
    (h_ww : ∀ c d, ∃ r : ℝ, A.ww c d = (r : EReal))
    (h_wb : ∀ d, ∃ r : ℝ, A.wb d = (r : EReal))
    (h_gamma : ∀ d, ∃ r : ℝ, A.gamma d = (r : EReal))
    (h_beta : ∀ d, ∃ r : ℝ, A.beta d = (r : EReal)) :
    ∃ R : RArgs, A = R.toE := by
  classical
  choose xh' e_xh using h_xh
  choose xl' e_xl using h_xl
  choose gw' e_gw using h_gw
  choose gb' e_gb using h_gb
  choose thw' e_thw using h_thw
  choose thb' e_thb using h_thb
  choose phw' e_phw using h_phw
  choose phb' e_phb using h_phb
  choose ww' e_ww using h_ww
  choose wb' e_wb using h_wb
  choose gamma' e_gamma using h_gamma
  choose beta' e_beta using h_beta
  refine ⟨⟨xh', xl', gw', gb', thw', thb', phw', phb', ww', wb', gamma', beta'⟩, ?_⟩
  cases A
  simp only [RArgs.toE, Args.mk.injEq]
  exact ⟨funext fun i => funext fun k => e_xh i k, funext fun i => funext fun k => e_xl i k, funext fun k => funext fun a => e_gw k a, funext fun a => e_gb a, funext fun k => funext fun a => e_thw k a, funext fun a => e_thb a, funext fun k => funext fun a => e_phw k a, funext fun a => e_phb a, funext fun c => funext fun d => e_ww c d, funext fun d => e_wb d, funext fun d => e_gamma d, funext fun d => e_beta d⟩

end Cert.Spec

end
-- ==== Proof.Finite.lean ====
/-
  The precondition read back. The predicate `Cert.Pre_finite_inputs.fn` is, for each of the twelve float arrays `x`,
  the conjunction over all entries of `|x| < +∞` (the absolute value, a comparison against the splat of the pattern
  `0x7F800000`, and a reduction by `and` over every axis from the true word), and-ed together. Over the extended reals
  the pattern `0x7F800000` denotes `⊤` and `|x| = max x (-x)`, and `max x (-x) < ⊤` excludes both `⊤` and `⊥`: the predicate
  being all ones says that every entry of every array is a real number.
-/
import proofs.«131456_j40999757807684_1_alg».proof.Proof.Gen.Pre_finite_inputs
import Idealize.ShloMosaic.Lib.ReduceAll
import Idealize.ShloMosaic.PureOps.Ideal
import Idealize.ShloMosaic.Lib.ValueIdx

namespace Cert.Finite

open Idealize.ShloMosaic Idealize.ShloMosaic.ValueIdx Cert.Pre_finite_inputs

/-- The scalar shape has one index. -/
instance : Subsingleton S_.Idx := ⟨fun a b => funext fun d => d.elim0⟩

/-- The pattern `0x7F800000` (sign 0, exponent all ones, fraction 0) denotes `+∞`. -/
theorem inf_bits : Ideal.ofBits .f32 0x7F800000#32 = (⊤ : EReal) := by simp [Ideal.ofBits, Ideal.ieee]

/-- An extended real whose absolute value `max x (-x)` is below `⊤` is a real: at `⊤` the maximum is `⊤`, and at `⊥` it is
    `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison `<` that came out as the true word: its operands are in that order. -/
theorem lt_of_cmp_olt {a b : EReal} (h : Ideal.cmp .olt a b = 1#1) : a < b := by
  by_contra hn
  simp [Ideal.cmp, hn] at h

/-- One conjunct of the predicate, over an arbitrary shape: if the reduction by `and`, over all axes, of the entrywise
    comparison `|x| < +∞` is the true word, then every entry of `x` is a real number. The reduction being 1 gives the
    comparison 1 at every index; there the right operand is `⊤` and the left is `max (x j) (-(x j))`. -/
theorem all_lt_top_real {S : Shape} {axes : List (Fin S.rank)} (x : FVec Ideal S .f32)
    (hb : S_.BroadcastsInDim S (![] : Fin 0 → Fin S.rank)) (hr : S.ReducesTo axes S_) (hS : 0 < S_.numel)
    (h : Host.reduce IntOp.andi (cmpf .olt (Host.absf x) (broadcastInDim S ![] hb (constant S_ .f32 0x7F800000#32)))
      (constantI S_ 1 1#1) hr hS ix0 = 1#1) :
    ∀ j, ∃ r : ℝ, x j = (r : EReal) := by
  intro j
  have e := Host.reduce_andi_all _ _ hr hS ix0 h j
  have e' : Ideal.cmp .olt (max (x j) (-(x j))) (Ideal.ofBits .f32 0x7F800000#32) = 1#1 := e
  rw [inf_bits] at e'
  exact real_of_abs_lt_top (x j) (lt_of_cmp_olt e')

/-- The `and` of two scalar one-bit arrays is the true word at the one index iff both are. -/
theorem andi_at_eq_one {x y : IVec S_ 1} : andi x y ix0 = 1#1 ↔ x ix0 = 1#1 ∧ y ix0 = 1#1 := IntOp.andi_eq_one

/-- The precondition decoded: where the predicate is all ones, every entry of each of the twelve arrays is a real number.
    The predicate at its one index is a left-nested `and` of twelve reductions, one per array; it is split from the right,
    and each reduction is read back by `all_lt_top_real`. -/
theorem real_of_pre [Cert.Pre_finite_inputs.Facts]
    (a0 : FVec Ideal Cert.Pre_finite_inputs.S8x1024x512 .f32) (a1 : FVec Ideal Cert.Pre_finite_inputs.S8x1024x256 .f32) (a2 : FVec Ideal Cert.Pre_finite_inputs.S256x256 .f32) (a3 : FVec Ideal Cert.Pre_finite_inputs.S256 .f32) (a4 : FVec Ideal Cert.Pre_finite_inputs.S512x256 .f32) (a5 : FVec Ideal Cert.Pre_finite_inputs.S256 .f32) (a6 : FVec Ideal Cert.Pre_finite_inputs.S256x256 .f32) (a7 : FVec Ideal Cert.Pre_finite_inputs.S256 .f32) (a8 : FVec Ideal Cert.Pre_finite_inputs.S256x512 .f32) (a9 : FVec Ideal Cert.Pre_finite_inputs.S512 .f32) (a10 : FVec Ideal Cert.Pre_finite_inputs.S512 .f32) (a11 : FVec Ideal Cert.Pre_finite_inputs.S512 .f32)
    (h : Cert.Pre_finite_inputs.fn (F := Ideal) a0 a1 a2 a3 a4 a5 a6 a7 a8 a9 a10 a11 = fun _ => 1#1) :
    (∀ j, ∃ r : ℝ, a0 j = (r : EReal)) ∧ (∀ j, ∃ r : ℝ, a1 j = (r : EReal)) ∧ (∀ j, ∃ r : ℝ, a2 j = (r : EReal)) ∧ (∀ j, ∃ r : ℝ, a3 j = (r : EReal)) ∧ (∀ j, ∃ r : ℝ, a4 j = (r : EReal)) ∧ (∀ j, ∃ r : ℝ, a5 j = (r : EReal)) ∧ (∀ j, ∃ r : ℝ, a6 j = (r : EReal)) ∧ (∀ j, ∃ r : ℝ, a7 j = (r : EReal)) ∧ (∀ j, ∃ r : ℝ, a8 j = (r : EReal)) ∧ (∀ j, ∃ r : ℝ, a9 j = (r : EReal)) ∧ (∀ j, ∃ r : ℝ, a10 j = (r : EReal)) ∧ (∀ j, ∃ r : ℝ, a11 j = (r : EReal)) := by
  have h0 := congrFun h ix0
  dsimp only [fn, fn_part1, fn_part2, fn_part3] at h0
  obtain ⟨h0, h11⟩ := andi_at_eq_one.1 h0
  obtain ⟨h0, h10⟩ := andi_at_eq_one.1 h0
  obtain ⟨h0, h9⟩ := andi_at_eq_one.1 h0
  obtain ⟨h0, h8⟩ := andi_at_eq_one.1 h0
  obtain ⟨h0, h7⟩ := andi_at_eq_one.1 h0
  obtain ⟨h0, h6⟩ := andi_at_eq_one.1 h0
  obtain ⟨h0, h5⟩ := andi_at_eq_one.1 h0
  obtain ⟨h0, h4⟩ := andi_at_eq_one.1 h0
  obtain ⟨h0, h3⟩ := andi_at_eq_one.1 h0
  obtain ⟨h0, h2⟩ := andi_at_eq_one.1 h0
  obtain ⟨h0, h1⟩ := andi_at_eq_one.1 h0
  exact ⟨all_lt_top_real a0 _ _ _ h0, all_lt_top_real a1 _ _ _ h1, all_lt_top_real a2 _ _ _ h2,
    all_lt_top_real a3 _ _ _ h3, all_lt_top_real a4 _ _ _ h4, all_lt_top_real a5 _ _ _ h5,
    all_lt_top_real a6 _ _ _ h6, all_lt_top_real a7 _ _ _ h7, all_lt_top_real a8 _ _ _ h8,
    all_lt_top_real a9 _ _ _ h9, all_lt_top_real a10 _ _ _ h10, all_lt_top_real a11 _ _ _ h11⟩

end Cert.Finite
-- ==== Proof.lean ====
/-
  The certificate's five claims.

  Both idealized programs end with the result buffer at one and the same 8 × 1024 × 512 array: the reshape of the
  8192 × 512 matrix  z = (w − μ) · rsqrt (σ² + ε) · γ + β + xh  of Proof/Spec.lean.  The kernel program computes it in
  three kernel regions (Proof/KI: the frame halves, the run over the regions, and each region's arrays as sums;
  Proof/KI/Compose.lean chains them), the reference as one line of host operations (Proof/RefRun.lean,
  Proof/RefValue.lean).  The kernel reads  y  as  θ (φᵀ g) / 8192  and the variance as the mean of squares minus the
  square of the mean; the reference reads  y  as  (θ φᵀ / 8192) g  and the variance as the mean of the squared
  deviations.  On inputs all of whose entries are real — which is what the precondition says (Proof/Finite.lean) —
  the two readings are one function (Proof/SpecLaw.lean): distributivity over finite sums, and the expansion of
  the square.  The three frames are the same runs with the result dropped; the kernel program read at the word
  level runs by the same text as its idealization (Proof/K), since the ideal pass rewrote nothing, and for the same
  reason the idealization has nothing to preserve.
-/
import proofs.«131456_j40999757807684_1_alg».proof.Defs
import proofs.«131456_j40999757807684_1_alg».proof.Proof.Gen.Kernel
import proofs.«131456_j40999757807684_1_alg».proof.Proof.Gen.Kernel.Skeleton
import proofs.«131456_j40999757807684_1_alg».proof.Proof.Gen.Kernel.Launch
import proofs.«131456_j40999757807684_1_alg».proof.Proof.Gen.Kernel.Regions
import proofs.«131456_j40999757807684_1_alg».proof.Proof.Gen.Kernel.Points
import proofs.«131456_j40999757807684_1_alg».proof.Proof.Gen.KernelIdeal
import proofs.«131456_j40999757807684_1_alg».proof.Proof.Gen.KernelIdeal.Skeleton
import proofs.«131456_j40999757807684_1_alg».proof.Proof.Gen.KernelIdeal.Launch
import proofs.«131456_j40999757807684_1_alg».proof.Proof.Gen.KernelIdeal.Regions
import proofs.«131456_j40999757807684_1_alg».proof.Proof.Gen.KernelIdeal.Points
import proofs.«131456_j40999757807684_1_alg».proof.Proof.Gen.ReferenceIdeal
import proofs.«131456_j40999757807684_1_alg».proof.Proof.Gen.Pre_finite_inputs
import Idealize.ShloMosaic.Adequacy
import Idealize.ShloMosaic.Init
import proofs.«131456_j40999757807684_1_alg».proof.Proof.K.Run
import proofs.«131456_j40999757807684_1_alg».proof.Proof.KI.Run
import proofs.«131456_j40999757807684_1_alg».proof.Proof.KI.Compose
import proofs.«131456_j40999757807684_1_alg».proof.Proof.RefRun
import proofs.«131456_j40999757807684_1_alg».proof.Proof.RefValue
import proofs.«131456_j40999757807684_1_alg».proof.Proof.SpecLaw
import proofs.«131456_j40999757807684_1_alg».proof.Proof.RealArgs
import proofs.«131456_j40999757807684_1_alg».proof.Proof.Finite

noncomputable section

namespace Cert.Proof

open Idealize.ShloMosaic Idealize.ShloMosaic.TcCoe Idealize.SL.Sem Idealize.ShloMosaic.ValueIdx

/-- The kernel program at the word level runs to the end and leaves its arguments alone: its run, the result dropped. -/
theorem frame_k : Cert.frame_Kernel := fun m ρ _ =>
  (θ_run Cert.Kernel.defs _ _).mono (fun _ h c => (h c).2) (Cert.Kernel.Run.run_main (F := Bits) m ρ)

/-- The same for its idealization. -/
theorem frame_ki : Cert.frame_KernelIdeal := fun m ρ _ =>
  (θ_run Cert.KernelIdeal.defs _ _).mono (fun _ h c => (h c).2) (Cert.KernelIdeal.Run.run_main (F := Ideal) m ρ)

/-- The same for the reference. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation: nothing to preserve. -/
theorem preserves : Cert.preserves_Kernel_KernelIdeal := trivial

/-- Under the precondition the kernel program's inputs are real-valued inputs read as extended reals. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ R : Cert.Spec.RArgs, Cert.KernelIdeal.Compose.args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = R.toE := by
  obtain ⟨h0, h1, h2, h3, h4, h5, h6, h7, h8, h9, h10, h11⟩ := Cert.Finite.real_of_pre _ _ _ _ _ _ _ _ _ _ _ _ (hpre c)
  refine Cert.Spec.Args.exists_real _ (fun i k => ?_) (fun i k => ?_) (fun k a => h2 _) (fun a => h3 _) (fun k a => h4 _) (fun a => h5 _)
    (fun k a => h6 _) (fun a => h7 _) (fun c d => h8 _) (fun d => h9 _) (fun d => h10 _) (fun d => h11 _)
  · show ∃ r : ℝ, shapeCast _ _ _ (ix2 i k) = (r : EReal)
    unfold shapeCast; exact h0 _
  · show ∃ r : ℝ, shapeCast _ _ _ (ix2 i k) = (r : EReal)
    unfold shapeCast; exact h1 _

/-- At the ideal instance, from memories that agree on the arguments, both programs end with the result buffer at one
    array: the kernel program's is the reshape of the kernel's reading of  z  (the composed regions), the reference's the
    reshape of the reference's reading (its stages read at an index), and on real inputs the readings agree. -/
theorem algebraic : Cert.algebraic_KernelIdeal_ReferenceIdeal := by
  intro m ρ m' ρ' hpre hagree
  refine ⟨fun c => Cert.KernelIdeal.Gen.V5 m (Cert.KernelIdeal.Run.outs m) c Cert.KernelIdeal.main_v11,
    Cert.KernelIdeal.Run.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11⟩ := hagree c
  rw [e0, e1, e2, e3, e4, e5, e6, e7, e8, e9, e10, e11]
  refine Eq.trans ?_ (Cert.KernelIdeal.Compose.result_eq m c).symm
  unfold Cert.ReferenceIdeal.RefRun.out
  congr 1
  funext j
  obtain ⟨p, q, rfl⟩ : ∃ (p : Fin 8192) (q : Fin 512), j = ix2 p q := ⟨j 0, j 1, eq_ix2 j⟩
  obtain ⟨R, hR⟩ := real_inputs m hpre c
  show _ = (Cert.KernelIdeal.Compose.args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).zk p q
  have hA : Cert.ReferenceIdeal.RefValue.args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Compose.args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := rfl
  rw [Cert.ReferenceIdeal.RefValue.z2_eq, hA, hR, Cert.Spec.zk_eq_zr R]

/-- The five claims, under the witnesses of the programs' stated side conditions. -/
theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
